-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S2x1024 : Shape := ⟨2, ![2, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S8192x1024 .f32) (main_arg1 : FVec F S1024x1024 .f32) (main_arg2 : FVec F S2x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2x1024 .f32 := Host.absf main_arg2
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  main_v13
-- ==== Kernel.lean ====
abbrev S8192x1024 : Shape := ⟨2, ![8192, 1024]⟩
abbrev S1024x1024 : Shape := ⟨2, ![1024, 1024]⟩
abbrev S2x1024 : Shape := ⟨2, ![2, 1024]⟩
abbrev S8192x2048 : Shape := ⟨2, ![8192, 2048]⟩
abbrev S512x1024 : Shape := ⟨2, ![512, 1024]⟩
abbrev S16x512x1024 : Shape := ⟨3, ![16, 512, 1024]⟩
abbrev S1x1024 : Shape := ⟨2, ![1, 1024]⟩
abbrev S1024 : Shape := ⟨1, ![1024]⟩
abbrev S1x512x1024 : Shape := ⟨3, ![1, 512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S2x1024, .f32⟩
  | .hbm, ⟨3, _⟩ => ⟨S1024x1024, .bf16⟩
  | .hbm, ⟨4, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S2x1024, .f32⟩
  | .local _ .vmem, ⟨4, _⟩ => ⟨S512x1024, .f32⟩
  | .local _ .vmem, ⟨5, _⟩ => ⟨S512x1024, .f32⟩
  | .local _ .vmem, ⟨6, _⟩ => ⟨S16x512x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v37 : Index := Scalar.indexCast arg1
  let c0_21 : Index := 0#32
  let c0_22 : Index := 0#32
  ![v37.toNat, 0, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off2 (i : grid0.Coords) : Fin 3 → Nat :=
  let arg1 : BitVec 32 := BitVec.ofNat 32 (i 1).val
  let v16 : Index := Scalar.indexCast arg1
  let c0 : Index := 0#32
  let c0_8 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c0_i32 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S1024 : S512x1024.Reduces [0] S1024
  shapeCasts_S1024_S1x1024 : S1024.ShapeCasts S1x1024
  h_S1x512x1024 : 0 < S1x512x1024.numel
  shapeCasts_S1x512x1024_S512x1024 : S1x512x1024.ShapeCasts S512x1024
  shapeCasts_S512x1024_S1x512x1024 : S512x1024.ShapeCasts S1x512x1024
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  slices_S2x1024_o1_0_S1x1024 : S2x1024.Slices ![1, 0] S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ (k0_h2 : k0_cond2 i = 1#1), ∀ a, (k0_off1 i) a + S1x512x1024.size a ≤ S16x512x1024.size a
  k0_off1_packedbf16 : ∀ i : grid0.Coords, ∀ (k0_h2 : k0_cond2 i = 1#1), (Rect.unit (s := S16x512x1024) (k0_off1 i) S1x512x1024.size (k0_off1_inb i k0_h2)).PackedRows (EltTy.packing .bf16)
  k0_off2_inb : ∀ i : grid0.Coords, ∀ (k0_h4 : k0_cond4 i = 1#1), ∀ a, (k0_off2 i) a + S1x512x1024.size a ≤ S16x512x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x2048.size a
  hwx0_3 : ∀ i : grid0.Coords, EltTy.bits .f32 = 32 ∨ (Rect.block (s := S8192x2048) S512x1024.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) && !(k0_cond4 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S2x1024 : Shape := ⟨2, ![2, 1024]⟩
abbrev S_ : Shape := ⟨0, ![]⟩
abbrev S8904x1024 : Shape := ⟨2, ![8904, 1024]⟩
abbrev S1272x1024 : Shape := ⟨2, ![1272, 1024]⟩
abbrev S1x1272x1024 : Shape := ⟨3, ![1, 1272, 1024]⟩
abbrev S1x1024 : Shape := ⟨2, ![1, 1024]⟩
abbrev S1024 : Shape := ⟨1, ![1024]⟩
abbrev S8192x2048 : Shape := ⟨2, ![8192, 2048]⟩

abbrev nBuf : Space → Nat
  | .hbm => 9
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S2x1024, .f32⟩
  | .hbm, ⟨3, _⟩ => ⟨S_, .i32⟩
  | .hbm, ⟨4, _⟩ => ⟨S_, .f32⟩
  | .hbm, ⟨5, _⟩ => ⟨S8904x1024, .f32⟩
  | .hbm, ⟨6, _⟩ => ⟨S8904x1024, .f32⟩
  | .hbm, ⟨7, _⟩ => ⟨S8192x1024, .f32⟩
  | .hbm, ⟨8, _⟩ => ⟨S8192x2048, .f32⟩
  | .local _ .vmem, ⟨0, _⟩ => ⟨S1272x1024, .f32⟩
  | .local _ .vmem, ⟨1, _⟩ => ⟨S1272x1024, .f32⟩
  | .local _ .vmem, ⟨2, _⟩ => ⟨S1024x1024, .f32⟩
  | .local _ .vmem, ⟨3, _⟩ => ⟨S2x1024, .f32⟩
  | .local _ .vmem, ⟨4, _⟩ => ⟨S1272x1024, .f32⟩
  | .local _ .vmem, ⟨5, _⟩ => ⟨S1272x1024, .f32⟩
  | .local _ .vmem, ⟨6, _⟩ => ⟨S1x1272x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 7], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S1272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1272x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8192x1024_S8904x1024_07120_000 : S8192x1024.Pads (![0, 0] : Fin 2 → Nat) ![712, 0] ![0, 0] S8904x1024
  h_S_ : 0 < S_.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1272x1024_S1272x1024_0_0 : ∀ a, (![0, 0] : Fin 2 → Nat) a + S1272x1024.size a ≤ S1272x1024.size a
  h_S1272x1024 : 0 < S1272x1024.numel
  shapeCasts_S1272x1024_S1272x1024 : S1272x1024.ShapeCasts S1272x1024
  inb_S1024x1024_S1024x1024_0_0 : ∀ a, (![0, 0] : Fin 2 → Nat) a + S1024x1024.size a ≤ S1024x1024.size a
  h_S1024x1024 : 0 < S1024x1024.numel
  reduces_S1272x1024_S1024 : S1272x1024.Reduces [0] S1024
  shapeCasts_S1024_S1x1024 : S1024.ShapeCasts S1x1024
  inb_S2x1024_S2x1024_0_0 : ∀ a, (![0, 0] : Fin 2 → Nat) a + S2x1024.size a ≤ S2x1024.size a
  h_S2x1024 : 0 < S2x1024.numel
  slices_S2x1024_o0_0_S1x1024 : S2x1024.Slices ![0, 0] S1x1024
  slices_S2x1024_o1_0_S1x1024 : S2x1024.Slices ![1, 0] S1x1024
  broadcasts_S1x1024_S1272x1024 : S1x1024.Broadcasts S1272x1024
  slices_S8904x1024_S8192x1024_0_0 : S8904x1024.Slices ![0, 0] S8192x1024
  concatenates_S8192x1024_S8192x1024_S8192x2048_d1 : Shape.Concatenates [S8192x1024, S8192x1024] S8192x2048 1
  dot_S1272x1024_S1024x1024_S1272x1024_1_0_0_1_n_n_wf : DotDims.WF S1272x1024 S1024x1024 S1272x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1272x1024.size a ≤ S8904x1024.size a
  hwx0_0 : ∀ i : grid0.Coords, EltTy.bits .f32 = 32 ∨ (Rect.block (s := S8904x1024) S1272x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x1024.size a
  hwx0_2 : ∀ i : grid0.Coords, EltTy.bits .f32 = 32 ∨ (Rect.block (s := S2x1024) S2x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1272x1024.size a ≤ S8904x1024.size a
  hwx0_3 : ∀ i : grid0.Coords, EltTy.bits .f32 = 32 ∨ (Rect.block (s := S8904x1024) S1272x1024.size (cc0_transform_3 i) (hinb0_3 i)).WholeWords (EltTy.packing .f32)

variable [Facts₀]

def dot_S1272x1024_S1024x1024_S1272x1024_1_0_0_1_n_n : DotDims S1272x1024 S1024x1024 S1272x1024 where
  lhsContracting := [1]
  rhsContracting := [0]
  lhsNonContracting := [0]
  rhsNonContracting := [1]
  lhsBatch := []
  rhsBatch := []
  wf := dot_S1272x1024_S1024x1024_S1272x1024_1_0_0_1_n_n_wf

abbrev win0_0 : Pipeline.Window sig grid0 :=
  Pipeline.Window.ofSpec (Memref.whole main_v0) S1272x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1272x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond4 i == 1#1) | ⟨_ + 4, h⟩ => absurd h (Nat.not_lt.2 (Nat.le_add_left _ _))

class Facts : Prop extends Facts₀ where

variable [Facts]
-- ==== Proof.KbCases.lean ====
/- The fused kernel's body, case by case: the four conditions of its `scf.if`s decided over the 2 x 16 grid
   (phase 0 is points 0..15, phase 1 points 16..31; the first tile of a phase is point 0, resp. 16), the staging
   memrefs the body is called with at a point, and the five scratch buffers (the cache of the product's tiles,
   the running column sums and sums of squares, the folded scale and shift) as whole memrefs. -/
import proofs.«179081_g2000002827875986_pallasbulk_127_1_alg».proof.Proof.Gen.Kernel.Frame
import proofs.«179081_g2000002827875986_pallasbulk_127_1_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions, decided over the grid -/

/-- First tile of phase 0: the sums are reset. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcondInit : ∀ t : Fin cfg0.N, condInit (grid0.coords t) ↔ t.val = 0 :=
  (by decide +kernel : ∀ t : Fin grid0.N, condInit (grid0.coords t) ↔ t.val = 0)

/-- Phase 0: the product of the tile, its column sums, the cache, the pass-through. -/
abbrev condAcc (i : grid0.Coords) : Prop := k0_cond2 i = 1#1
theorem hcondAcc : ∀ t : Fin cfg0.N, condAcc (grid0.coords t) ↔ t.val < 16 :=
  (by decide +kernel : ∀ t : Fin grid0.N, condAcc (grid0.coords t) ↔ t.val < 16)

/-- First tile of phase 1: the statistics are folded into scale and shift. -/
abbrev condFold (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcondFold : ∀ t : Fin cfg0.N, condFold (grid0.coords t) ↔ t.val = 16 :=
  (by decide +kernel : ∀ t : Fin grid0.N, condFold (grid0.coords t) ↔ t.val = 16)

/-- Phase 1: the cached tile normalised into the output's left half. -/
abbrev condNorm (i : grid0.Coords) : Prop := k0_cond4 i = 1#1
theorem hcondNorm : ∀ t : Fin cfg0.N, condNorm (grid0.coords t) ↔ 16 ≤ t.val :=
  (by decide +kernel : ∀ t : Fin grid0.N, condNorm (grid0.coords t) ↔ 16 ≤ t.val)

/-- No window is idle at any point: every point stores a whole output block. -/
theorem liveAt : ∀ (w : Fin 4) (t : Fin cfg0.N), cfg0.idle w (grid0.coords t) = false := by decide +kernel

/-! ## The memrefs the body runs on -/

abbrev msX (t : Fin cfg0.N) : Memref sig .tc .vmem S512x1024 .f32 := win0_0.stage (cfg0.slots t 0)
abbrev hsX (t : Fin cfg0.N) : (msX t).IsWhole := hstage0_0 ((cfg0.slots t 0).cast nbuf0_0)
abbrev msW (t : Fin cfg0.N) : Memref sig .tc .vmem S1024x1024 .bf16 := win0_1.stage (cfg0.slots t 1)
abbrev hsW (t : Fin cfg0.N) : (msW t).IsWhole := hstage0_1 ((cfg0.slots t 1).cast nbuf0_1)
abbrev msG (t : Fin cfg0.N) : Memref sig .tc .vmem S2x1024 .f32 := win0_2.stage (cfg0.slots t 2)
abbrev hsG (t : Fin cfg0.N) : (msG t).IsWhole := hstage0_2 ((cfg0.slots t 2).cast nbuf0_2)
abbrev msO (t : Fin cfg0.N) : Memref sig .tc .vmem S512x1024 .f32 := win0_3.stage (cfg0.slots t 3)
abbrev hsO (t : Fin cfg0.N) : (msO t).IsWhole := hstage0_3 ((cfg0.slots t 3).cast nbuf0_3)
abbrev scH : Memref sig .tc .vmem S16x512x1024 .bf16 := Memref.whole cc0_scratch0
abbrev scS : Memref sig .tc .vmem S1x1024 .f32 := Memref.whole cc0_scratch1
abbrev scQ : Memref sig .tc .vmem S1x1024 .f32 := Memref.whole cc0_scratch2
abbrev scA : Memref sig .tc .vmem S1x1024 .f32 := Memref.whole cc0_scratch3
abbrev scB : Memref sig .tc .vmem S1x1024 .f32 := Memref.whole cc0_scratch4

/-- The region's invariant of the class, the five scratch buffers spelled as whole memrefs at some contents. -/
theorem PhiA_eq (c : Dev nD) :
    (Pipeline.ΦA spec0 c : sProp 𝕄)
      = iprop(iprop((∃ d, owns (c : Thread nD τ) scH fullShare d) ∗ (∃ d, owns (c : Thread nD τ) scS fullShare d) ∗ (∃ d, owns (c : Thread nD τ) scQ fullShare d) ∗ (∃ d, owns (c : Thread nD τ) scA fullShare d) ∗ (∃ d, owns (c : Thread nD τ) scB fullShare d)) ∗ (∃ r, prngReg c r)) := by
  unfold Pipeline.ΦA; rw [scopedRest0_eq]; simp only [scH, scS, scQ, scA, scB, owns_whole]; try rfl

end Cert.Kernel.Body

end
-- ==== Proof.KbStep.lean ====
/- What the fused kernel computes, point by point, as pure terms over the operand blocks (any float instance).
   The grid is 2 x 16: point n < 16 is tile n of phase 0, point 16 + n tile n of phase 1. Phase 0 forms the
   tile's product h_n = x_n · w (bf16 operands), adds its column sums and column sums of squares to two running
   rows, caches h_n (as bf16) in slab n of a 16-slab scratch, and passes x_n through to the output's right half.
   Point 16 folds the finished sums into a scale and a shift row; phase 1 writes max(h_n * scale + shift, 0), read
   back from slab n, into the output's left half. -/
import proofs.«179081_g2000002827875986_pallasbulk_127_1_alg».proof.Proof.KbCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Point n of the grid (n taken mod 32, so that every natural number names a point). -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt N_0))

/-- The operand blocks at a point, at their literal types: the x tile, the (bf16) weight, the stacked gamma/beta. -/
abbrev xblk (c : Dev nD) (t : Fin cfg0.N) : Vec F S512x1024 .f32 := iblk m c 0 t
abbrev wblk (c : Dev nD) (t : Fin cfg0.N) : Vec F S1024x1024 .bf16 := iblk m c 1 t
abbrev gblk (c : Dev nD) (t : Fin cfg0.N) : Vec F S2x1024 .f32 := iblk m c 2 t

/-- The running column sums after phase-0 point n: reset to zero at point 0, then each tile's column sums added. -/
def sumAt (c : Dev nD) : ℕ → Vec F S1x1024 .f32
  | 0 => k0_pay4 (xblk m c (pt 0)) (wblk m c (pt 0)) k0_pay1
  | n + 1 => k0_pay4 (xblk m c (pt (n + 1))) (wblk m c (pt (n + 1))) (sumAt c n)

/-- The running column sums of squares after phase-0 point n. -/
def sqAt (c : Dev nD) : ℕ → Vec F S1x1024 .f32
  | 0 => k0_pay5 (xblk m c (pt 0)) (wblk m c (pt 0)) k0_pay2
  | n + 1 => k0_pay5 (xblk m c (pt (n + 1))) (wblk m c (pt (n + 1))) (sqAt c n)

/-- What phase-0 point n caches: its tile's product, narrowed to bf16, as one slab. -/
def slabV (c : Dev nD) (n : ℕ) : Vec F S1x512x1024 .bf16 := k0_pay6 (xblk m c (pt n)) (wblk m c (pt n))

/-- The folded scale row gamma * rsqrt(var + eps), from the finished sums (after point 15). -/
def scaleV (c : Dev nD) : Vec F S1x1024 .f32 := k0_pay9 (sumAt m c 15) (sqAt m c 15) (gblk m c (pt 16))
/-- The folded shift row beta - mean * scale. -/
def shiftV (c : Dev nD) : Vec F S1x1024 .f32 := k0_pay10 (sumAt m c 15) (sqAt m c 15) (gblk m c (pt 16))

/-- The output block the body leaves at point t: the x tile in phase 0, the normalised cached tile in phase 1. -/
def outAt (c : Dev nD) (t : Fin cfg0.N) : Vec F S512x1024 .f32 :=
  if t.val < 16 then xblk m c t else k0_pay11 (slabV m c (t.val - 16)) (scaleV m c) (shiftV m c)

theorem outAt_acc (c : Dev nD) (t : Fin cfg0.N) (h : t.val < 16) : outAt m c t = xblk m c t := if_pos h
theorem outAt_norm (c : Dev nD) (t : Fin cfg0.N) (h : ¬ t.val < 16) :
    outAt m c t = k0_pay11 (slabV m c (t.val - 16)) (scaleV m c) (shiftV m c) := if_neg h

end Cert.Kernel.Body

end
-- ==== Proof.KbRuns.lean ====
/- The fused kernel's body run on whole memrefs at given contents, once per case of its four conditionals: what each
   buffer holds afterwards as a pure term of what it held before. The cache is read and written one slab at a time:
   `getSlab` is a slab as a load through its rectangle reads it, `putSlab` the cache with one slab overwritten. -/
import proofs.«179081_g2000002827875986_pallasbulk_127_1_alg».proof.Proof.KbStep
import Idealize.ShloMosaic.Lib.WritesUnit
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The slab of the cache at offsets `off`, as a load through its rectangle reads it. -/
def getSlab (off : Fin 3 → ℕ) (inb : ∀ a, off a + S1x512x1024.size a ≤ S16x512x1024.size a) (H : Vec F S16x512x1024 .bf16) : Vec F S1x512x1024 .bf16 :=
  View.ld H (Rect.unit (s := S16x512x1024) off S1x512x1024.size inb)

/-- The cache with the slab at offsets `off` overwritten by `w`. -/
def putSlab (off : Fin 3 → ℕ) (inb : ∀ a, off a + S1x512x1024.size a ≤ S16x512x1024.size a) (H : Vec F S16x512x1024 .bf16) (w : Vec F S1x512x1024 .bf16) : Vec F S16x512x1024 .bf16 :=
  fun y => if h : ∀ a, off a ≤ (y a).val ∧ (y a).val < off a + S1x512x1024.size a then w (Rect.unitLocal (s := S16x512x1024) (off := off) (size := S1x512x1024.size) y h) else H y

/-- The two zero offsets of a whole rank-2 rectangle, however spelt. -/
theorem hz2 : (![0, 0] : Fin 2 → ℕ) = fun _ => 0 := by funext a; fin_cases a <;> rfl

/-- A store through the whole-shape rectangle, made last, leaves its payload whatever the buffer held and whatever
    was stored before. -/
theorem read_store_last {S : Shape} {e : EltTy} {sp : Space} (v : View sig .tc sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

set_option maxHeartbeats 1600000 in
/-- Point 0 (first tile of phase 0): the sums are reset, then the tile's column sums added; the tile's product cached; the x tile passed through. -/
theorem run_first (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : condInit i) (hc1 : condAcc i) (hc2 : ¬condFold i) (hc3 : ¬condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (x0) ∗ owns (c : Thread nD τ) arg6 fullShare (putSlab (k0_off1 i) (k0_off1_inb i hc1) H (k0_pay6 x0 x1)) ∗ owns (c : Thread nD τ) arg7 fullShare (k0_pay4 x0 x1 k0_pay1) ∗ owns (c : Thread nD τ) arg8 fullShare (k0_pay5 x0 x1 k0_pay2) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; swap; · iexact HS0
    ipureintro
    funext y
    rw [View.read_writes_cons_unit _ _ _ _ [] y rfl]
    simp only [View.writes_nil, harg6.read_unread]
    simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    rfl
  isplitl [HS1]
  · iexists _; isplitr; swap; · iexact HS1
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- A later tile of phase 0: the tile's column sums added to the running rows; its product cached; the x tile passed through. -/
theorem run_acc (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : condAcc i) (hc2 : ¬condFold i) (hc3 : ¬condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (x0) ∗ owns (c : Thread nD τ) arg6 fullShare (putSlab (k0_off1 i) (k0_off1_inb i hc1) H (k0_pay6 x0 x1)) ∗ owns (c : Thread nD τ) arg7 fullShare (k0_pay4 x0 x1 s) ∗ owns (c : Thread nD τ) arg8 fullShare (k0_pay5 x0 x1 q) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; swap; · iexact HS0
    ipureintro
    funext y
    rw [View.read_writes_cons_unit _ _ _ _ [] y rfl]
    simp only [View.writes_nil, harg6.read_unread]
    simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    rfl
  isplitl [HS1]
  · iexists _; isplitr; swap; · iexact HS1
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- Point 16 (first tile of phase 1): the sums folded into the scale and shift rows, then the cached tile normalised with them. -/
theorem run_fold (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : condFold i) (hc3 : condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (getSlab (k0_off2 i) (k0_off2_inb i hc3) H) (k0_pay9 s q x2) (k0_pay10 s q x2)) ∗ owns (c : Thread nD τ) arg6 fullShare (H) ∗ owns (c : Thread nD τ) arg7 fullShare (s) ∗ owns (c : Thread nD τ) arg8 fullShare (q) ∗ owns (c : Thread nD τ) arg9 fullShare (k0_pay9 s q x2) ∗ owns (c : Thread nD τ) arg10 fullShare (k0_pay10 s q x2)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; swap; · iexact HS3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  iexists _; isplitr; swap; · iexact HS4
  ipureintro
  sl_unfold_words
  rw [read_store_last _ hz2]
  try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
  try rfl

set_option maxHeartbeats 1600000 in
/-- A later tile of phase 1: the cached tile normalised with the scale and shift rows. -/
theorem run_norm (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : ¬condFold i) (hc3 : condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (getSlab (k0_off2 i) (k0_off2_inb i hc3) H) a b) ∗ owns (c : Thread nD τ) arg6 fullShare (H) ∗ owns (c : Thread nD τ) arg7 fullShare (s) ∗ owns (c : Thread nD τ) arg8 fullShare (q) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; · ipureintro; exact harg9.read_unread _
    iexact HS3
  iexists _; isplitr; · ipureintro; exact harg10.read_unread _
  iexact HS4

end Cert.Kernel.Body

end
-- ==== Proof.KbFrame.lean ====
/- The frame of the fused kernel's program, its outputs named: the pipeline's proof data (each input window's
   staging buffer at its block, the output's at the block the point computes, `outAt`), the invariant the body keeps
   between points (the running sums at their values; every slab the first phase has cached at its tile's product;
   after the fold, the scale and shift rows at theirs), the body's triple at every point, and the run. -/
import proofs.«179081_g2000002827875986_pallasbulk_127_1_alg».proof.Proof.KbRuns

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A slab read at equal offsets is the same slab. -/
theorem getSlab_off_congr {off off' : Fin 3 → ℕ} (h : off = off') (inb inb') (H : Vec F S16x512x1024 .bf16) :
    getSlab off inb H = getSlab off' inb' H := by
  subst h; rfl

/-- A slab written at equal offsets gives the same cache. -/
theorem putSlab_off_congr {off off' : Fin 3 → ℕ} (h : off = off') (inb inb') (H : Vec F S16x512x1024 .bf16) (w : Vec F S1x512x1024 .bf16) :
    putSlab off inb H w = putSlab off' inb' H w := by
  subst h; rfl

/-- The slab just written reads back as what was written. -/
theorem getSlab_putSlab_self (off : Fin 3 → ℕ) (inb inb') (H : Vec F S16x512x1024 .bf16) (w : Vec F S1x512x1024 .bf16) :
    getSlab off inb' (putSlab off inb H w) = w := by
  funext x
  have h : ∀ a, off a ≤ ((Rect.unit (s := S16x512x1024) off S1x512x1024.size inb').idx x a).val
      ∧ ((Rect.unit (s := S16x512x1024) off S1x512x1024.size inb').idx x a).val < off a + S1x512x1024.size a := fun a => by
    have := (x a).isLt
    simp only [LoadRect.idx_apply, Rect.off_unit, Rect.stride_unit, Nat.one_mul]
    constructor
    · omega
    · exact Nat.add_lt_add_left this _
  show (if h : _ then _ else _) = _
  rw [dif_pos h]
  congr 1
  funext a
  apply Fin.ext
  rw [Rect.unitLocal_val]
  simp only [LoadRect.idx_apply, Rect.off_unit, Rect.stride_unit, Nat.one_mul]
  omega

/-- A slab the write misses on some axis reads as before the write. -/
theorem getSlab_putSlab_sep (off off' : Fin 3 → ℕ) (inb inb') (H : Vec F S16x512x1024 .bf16) (w : Vec F S1x512x1024 .bf16)
    (a : Fin 3) (ha : off' a + S1x512x1024.size a ≤ off a ∨ off a + S1x512x1024.size a ≤ off' a) :
    getSlab off' inb' (putSlab off inb H w) = getSlab off' inb' H := by
  funext x
  show (if h : _ then _ else _) = _
  rw [dif_neg]
  · rfl
  · intro hall
    have h1 : off a ≤ off' a + 1 * (x a).val ∧ off' a + 1 * (x a).val < off a + S1x512x1024.size a := hall a
    have hx : (x a).val < S1x512x1024.size a := (x a).isLt
    omega

/-- Two different slabs of the cache do not meet. -/
theorem getSlab_putSlab_other (j j' : ℕ) (hne : j' ≠ j) (inb inb') (H : Vec F S16x512x1024 .bf16) (w : Vec F S1x512x1024 .bf16) :
    getSlab ![j', 0, 0] inb' (putSlab ![j, 0, 0] inb H w) = getSlab ![j', 0, 0] inb' H :=
  getSlab_putSlab_sep _ _ inb inb' H w 0 (by
    show j' + 1 ≤ j ∨ j + 1 ≤ j'
    omega)

theorem off1_phase0 : ∀ t : Fin cfg0.N, t.val < 16 → k0_off1 (grid0.coords t) = ![t.val, 0, 0] :=
  (by decide +kernel : ∀ t : Fin grid0.N, t.val < 16 → k0_off1 (grid0.coords t) = ![t.val, 0, 0])
theorem off2_phase1 : ∀ t : Fin cfg0.N, 16 ≤ t.val → k0_off2 (grid0.coords t) = ![t.val - 16, 0, 0] :=
  (by decide +kernel : ∀ t : Fin grid0.N, 16 ≤ t.val → k0_off2 (grid0.coords t) = ![t.val - 16, 0, 0])

variable (m : (ℓ : Loc nD τ sig) → Buf (Elt F) ℓ) (ρ : Dev nD → PrngReg)

/-- What the body has established after point n (n < 32) of the scratch it does not reset: slabs 0..min n 15 of the
    cache hold their tiles' products, and from point 16 on the scale and shift rows hold the folded statistics. -/
def Inv (c : Dev nD) (n : ℕ) (H : Vec F S16x512x1024 .bf16) (a b : Vec F S1x1024 .f32) : Prop :=
  (∀ j, j < 16 → j ≤ n → ∀ inb, getSlab ![j, 0, 0] inb H = slabV m c j) ∧ (16 ≤ n → a = scaleV m c ∧ b = shiftV m c)

/-! ## The pure bookkeeping: what a point's run leaves, in the invariant's names -/

/-- The first point's column sums are the recursion's base. -/
theorem sumAt_first (c : Dev nD) (t : Fin cfg0.N) (hz : t.val = 0) :
    k0_pay4 (iblk m c 0 t) (iblk m c 1 t) k0_pay1 = sumAt m c (min t.val 15) := by
  have ht : pt 0 = t := by rw [← hz]; exact pt_val t
  rw [hz]; show _ = k0_pay4 (xblk m c (pt 0)) (wblk m c (pt 0)) k0_pay1
  rw [ht]
theorem sqAt_first (c : Dev nD) (t : Fin cfg0.N) (hz : t.val = 0) :
    k0_pay5 (iblk m c 0 t) (iblk m c 1 t) k0_pay2 = sqAt m c (min t.val 15) := by
  have ht : pt 0 = t := by rw [← hz]; exact pt_val t
  rw [hz]; show _ = k0_pay5 (xblk m c (pt 0)) (wblk m c (pt 0)) k0_pay2
  rw [ht]

/-- A later point of the first phase adds its tile's column sums to the running rows. -/
theorem sumAt_acc (c : Dev nD) (t : Fin cfg0.N) (h0 : t.val ≠ 0) (h1 : t.val < 16) :
    k0_pay4 (iblk m c 0 t) (iblk m c 1 t) (sumAt m c (min (t.val - 1) 15)) = sumAt m c (min t.val 15) := by
  obtain ⟨n, hn⟩ := Nat.exists_eq_succ_of_ne_zero h0
  have ht : pt (n + 1) = t := by rw [← Nat.succ_eq_add_one, ← hn]; exact pt_val t
  rw [hn, Nat.succ_sub_one, Nat.min_eq_left (by omega), Nat.min_eq_left (by omega)]
  show _ = k0_pay4 (xblk m c (pt (n + 1))) (wblk m c (pt (n + 1))) (sumAt m c n)
  rw [ht]
theorem sqAt_acc (c : Dev nD) (t : Fin cfg0.N) (h0 : t.val ≠ 0) (h1 : t.val < 16) :
    k0_pay5 (iblk m c 0 t) (iblk m c 1 t) (sqAt m c (min (t.val - 1) 15)) = sqAt m c (min t.val 15) := by
  obtain ⟨n, hn⟩ := Nat.exists_eq_succ_of_ne_zero h0
  have ht : pt (n + 1) = t := by rw [← Nat.succ_eq_add_one, ← hn]; exact pt_val t
  rw [hn, Nat.succ_sub_one, Nat.min_eq_left (by omega), Nat.min_eq_left (by omega)]
  show _ = k0_pay5 (xblk m c (pt (n + 1))) (wblk m c (pt (n + 1))) (sqAt m c n)
  rw [ht]

/-- In the second phase the sums stay at their finished values. -/
theorem min_pred_phase1 (n : ℕ) (h : 16 ≤ n) : min (n - 1) 15 = min n 15 := by omega

/-- A point of the first phase caches its tile's product: the slabs cached so far, and this one. -/
theorem Inv_put (c : Dev nD) (t : Fin cfg0.N) (h1 : t.val < 16) (inb) (H : Vec F S16x512x1024 .bf16) (a b : Vec F S1x1024 .f32)
    (hI : t.val ≠ 0 → Inv m c (t.val - 1) H a b) :
    Inv m c t.val (putSlab (k0_off1 (grid0.coords t)) inb H (k0_pay6 (iblk m c 0 t) (iblk m c 1 t))) a b := by
  refine ⟨fun j hj hjt inb' => ?_, fun h => absurd h (by omega)⟩
  have hoff := off1_phase0 t h1
  by_cases hjeq : j = t.val
  · subst hjeq
    rw [getSlab_off_congr hoff.symm inb' inb, getSlab_putSlab_self]
    show _ = k0_pay6 (xblk m c (pt t.val)) (wblk m c (pt t.val))
    rw [pt_val]
  · have h0 : t.val ≠ 0 := by omega
    have := (hI h0).1 j hj (by omega) inb'
    rw [← this]
    rw [putSlab_off_congr hoff inb (hoff ▸ inb)]
    exact getSlab_putSlab_other t.val j hjeq _ inb' H _

/-- Point 16 folds the finished sums into the scale and shift rows; the cache is as the first phase left it. -/
theorem Inv_fold (c : Dev nD) (t : Fin cfg0.N) (h : t.val = 16) (H : Vec F S16x512x1024 .bf16) (a b : Vec F S1x1024 .f32)
    (hI : Inv m c (t.val - 1) H a b) :
    Inv m c t.val H (k0_pay9 (sumAt m c (min (t.val - 1) 15)) (sqAt m c (min (t.val - 1) 15)) (iblk m c 2 t))
      (k0_pay10 (sumAt m c (min (t.val - 1) 15)) (sqAt m c (min (t.val - 1) 15)) (iblk m c 2 t)) := by
  have ht : pt 16 = t := by rw [← h]; exact pt_val t
  refine ⟨fun j hj hjt inb' => hI.1 j hj (by omega) inb', fun _ => ?_⟩
  rw [h]
  constructor
  · show _ = k0_pay9 (sumAt m c 15) (sqAt m c 15) (gblk m c (pt 16)); rw [ht]; rfl
  · show _ = k0_pay10 (sumAt m c 15) (sqAt m c 15) (gblk m c (pt 16)); rw [ht]; rfl

/-- A later point of the second phase changes no scratch. -/
theorem Inv_keep (c : Dev nD) (n : ℕ) (h : 16 < n) (H : Vec F S16x512x1024 .bf16) (a b : Vec F S1x1024 .f32)
    (hI : Inv m c (n - 1) H a b) : Inv m c n H a b :=
  ⟨fun j hj hjt inb' => hI.1 j hj (by omega) inb', fun _ => hI.2 (by omega)⟩

/-- The output block of point 16: slab 0 normalised with the rows just folded. -/
theorem out_fold (c : Dev nD) (t : Fin cfg0.N) (h : t.val = 16) (inb) (H : Vec F S16x512x1024 .bf16) (a b : Vec F S1x1024 .f32)
    (hI : Inv m c (t.val - 1) H a b) :
    k0_pay11 (getSlab (k0_off2 (grid0.coords t)) inb H)
        (k0_pay9 (sumAt m c (min (t.val - 1) 15)) (sqAt m c (min (t.val - 1) 15)) (iblk m c 2 t))
        (k0_pay10 (sumAt m c (min (t.val - 1) 15)) (sqAt m c (min (t.val - 1) 15)) (iblk m c 2 t))
      = outAt m c t := by
  have hoff := off2_phase1 t (by omega)
  rw [outAt_norm m c t (by omega), getSlab_off_congr hoff inb (hoff ▸ inb), hI.1 (t.val - 16) (by omega) (by omega),
    ← (Inv_fold m c t h H a b hI).2 (by omega) |>.1, ← (Inv_fold m c t h H a b hI).2 (by omega) |>.2]

/-- The output block of a later point of the second phase: its slab normalised with the folded rows. -/
theorem out_norm (c : Dev nD) (t : Fin cfg0.N) (h : 16 < t.val) (inb) (H : Vec F S16x512x1024 .bf16) (a b : Vec F S1x1024 .f32)
    (hI : Inv m c (t.val - 1) H a b) :
    k0_pay11 (getSlab (k0_off2 (grid0.coords t)) inb H) a b = outAt m c t := by
  have hN : t.val < 32 := lt_of_lt_of_eq t.isLt N_0
  have hoff := off2_phase1 t (by omega)
  rw [outAt_norm m c t (by omega), getSlab_off_congr hoff inb (hoff ▸ inb), hI.1 (t.val - 16) (by omega) (by omega),
    (hI.2 (by omega)).1, (hI.2 (by omega)).2]

/-! ## The invariant and the proof data -/

/-- The region's invariant before point n: the class's before the first point (every scratch at anything); after
    point n - 1 the sums at their running values and the rest of the scratch at contents satisfying `Inv`. -/
def PhiS (c : Dev nD) : ℕ → sProp 𝕄
  | 0 => Pipeline.ΦA spec0 c
  | n + 1 => iprop(iprop(∃ H a b, ⌜Inv m c n H a b⌝ ∗ owns (c : Thread nD τ) scH fullShare H ∗ owns (c : Thread nD τ) scS fullShare (sumAt m c (min n 15)) ∗ owns (c : Thread nD τ) scQ fullShare (sqAt m c (min n 15)) ∗ owns (c : Thread nD τ) scA fullShare a ∗ owns (c : Thread nD τ) scB fullShare b) ∗ (∃ r, prngReg c r))

/-- Before a point that is not the first: the scratch as the point before left it. -/
theorem PhiS_pos (c : Dev nD) (n : ℕ) (hz : n ≠ 0) :
    PhiS m c n = iprop(iprop(∃ H a b, ⌜Inv m c (n - 1) H a b⌝ ∗ owns (c : Thread nD τ) scH fullShare H ∗ owns (c : Thread nD τ) scS fullShare (sumAt m c (min (n - 1) 15)) ∗ owns (c : Thread nD τ) scQ fullShare (sqAt m c (min (n - 1) 15)) ∗ owns (c : Thread nD τ) scA fullShare a ∗ owns (c : Thread nD τ) scB fullShare b) ∗ (∃ r, prngReg c r)) := by
  cases n with
  | zero => exact absurd rfl hz
  | succ n => rfl

/-- After point n. -/
theorem PhiS_succ (c : Dev nD) (n : ℕ) :
    PhiS m c (n + 1) = iprop(iprop(∃ H a b, ⌜Inv m c n H a b⌝ ∗ owns (c : Thread nD τ) scH fullShare H ∗ owns (c : Thread nD τ) scS fullShare (sumAt m c (min n 15)) ∗ owns (c : Thread nD τ) scQ fullShare (sqAt m c (min n 15)) ∗ owns (c : Thread nD τ) scA fullShare a ∗ owns (c : Thread nD τ) scB fullShare b) ∗ (∃ r, prngReg c r)) := rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_out (c : Dev nD) (t : Fin cfg0.N) : (dats m 0 c).after 3 t = outAt m c t := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_g (c : Dev nD) (t : Fin cfg0.N) (d) : (dats m 0 c).before 2 t d = iblk m c 2 t :=
  before0_2_of m (dats m 0 c) (A_eq m c 2) (after_g m c) t d

/-! ## The body at a point, case by case

Each leaf: from the invariant before the point, a resource R the body does not touch, the three input buffers at
their blocks and the output buffer at anything, the body runs to the invariant after the point, R, the inputs as
they were and the output buffer at the point's block. -/

/-- What the body is handed at point t, the windows' contents named. -/
def stepPre (c : Dev nD) (t : Fin cfg0.N) (R : sProp 𝕄) : sProp 𝕄 :=
  iprop(PhiS m c t.val ∗ R ∗ owns (c : Thread nD τ) (msX t) fullShare (iblk m c 0 t) ∗ owns (c : Thread nD τ) (msW t) fullShare (iblk m c 1 t) ∗ owns (c : Thread nD τ) (msG t) fullShare (iblk m c 2 t) ∗ (∃ d, owns (c : Thread nD τ) (msO t) fullShare d))

/-- What it hands back. -/
def stepPost (c : Dev nD) (t : Fin cfg0.N) (R : sProp 𝕄) : sProp 𝕄 :=
  iprop(PhiS m c (t.val + 1) ∗ R ∗ owns (c : Thread nD τ) (msX t) fullShare (iblk m c 0 t) ∗ owns (c : Thread nD τ) (msW t) fullShare (iblk m c 1 t) ∗ owns (c : Thread nD τ) (msG t) fullShare (iblk m c 2 t) ∗ owns (c : Thread nD τ) (msO t) fullShare (outAt m c t))

set_option maxHeartbeats 3200000 in
/-- Point 0: the scratch is found at anything; the sums are reset and the first tile's added, slab 0 cached. -/
theorem step_first (c : Dev nD) (t : Fin cfg0.N) (hz : t.val = 0) (R : sProp 𝕄) :
    stepPre m c t R ⊢ wp frame (wpE (defs₀ (F := F)) Variants.none c none) Set.univ (bodyAt0 t) (fun _ => stepPost m c t R) := by
  unfold stepPre stepPost
  rw [show PhiS m c t.val = Pipeline.ΦA spec0 c from by rw [hz]; rfl, PhiA_eq, PhiS_succ,
    ← sumAt_first m c t hz, ← sqAt_first m c t hz, outAt_acc m c t (by omega)]
  iintro ⟨⟨⟨⟨%H, HS0⟩, ⟨%s, HS1⟩, ⟨%q, HS2⟩, ⟨%a, HS3⟩, ⟨%b, HS4⟩⟩, Hg⟩, HR, H0, H1, H2, H3⟩
  have hacc : condAcc (grid0.coords t) := (hcondAcc t).mpr (by omega)
  iapply (run_first c (grid0.coords t) _ _ _ _ _ _ _ _ _ _ _ _ _ _ _ _ _ _ ((hcondInit t).mpr hz) hacc
    (fun h => by have := (hcondFold t).mp h; omega) (fun h => by have := (hcondNorm t).mp h; omega)
    (iblk m c 0 t) (iblk m c 1 t) (iblk m c 2 t) H s q a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists (putSlab (k0_off1 (grid0.coords t)) (k0_off1_inb (grid0.coords t) hacc) H (k0_pay6 (iblk m c 0 t) (iblk m c 1 t))), a, b
      isplitr
      · ipureintro; exact Inv_put m c t (by omega) _ H a b (fun h => absurd hz h)
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- A later point of the first phase: the tile's sums added to the running rows, its product cached in its slab. -/
theorem step_acc (c : Dev nD) (t : Fin cfg0.N) (h0 : t.val ≠ 0) (h1 : t.val < 16) (R : sProp 𝕄) :
    stepPre m c t R ⊢ wp frame (wpE (defs₀ (F := F)) Variants.none c none) Set.univ (bodyAt0 t) (fun _ => stepPost m c t R) := by
  unfold stepPre stepPost
  rw [PhiS_pos m c t.val h0, PhiS_succ, ← sumAt_acc m c t h0 h1, ← sqAt_acc m c t h0 h1, outAt_acc m c t h1]
  iintro ⟨⟨⟨%H, %a, %b, %hI, HS0, HS1, HS2, HS3, HS4⟩, Hg⟩, HR, H0, H1, H2, H3⟩
  have hacc : condAcc (grid0.coords t) := (hcondAcc t).mpr h1
  iapply (run_acc c (grid0.coords t) _ _ _ _ _ _ _ _ _ _ _ _ _ _ _ _ _ _ (fun h => h0 ((hcondInit t).mp h)) hacc
    (fun h => by have := (hcondFold t).mp h; omega) (fun h => by have := (hcondNorm t).mp h; omega)
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists (putSlab (k0_off1 (grid0.coords t)) (k0_off1_inb (grid0.coords t) hacc) H (k0_pay6 (iblk m c 0 t) (iblk m c 1 t))), a, b
      isplitr
      · ipureintro; exact Inv_put m c t h1 _ H a b (fun _ => hI)
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- Point 16: the finished sums folded into the scale and shift rows, slab 0 normalised with them. -/
theorem step_fold (c : Dev nD) (t : Fin cfg0.N) (h : t.val = 16) (R : sProp 𝕄) :
    stepPre m c t R ⊢ wp frame (wpE (defs₀ (F := F)) Variants.none c none) Set.univ (bodyAt0 t) (fun _ => stepPost m c t R) := by
  unfold stepPre stepPost
  rw [PhiS_pos m c t.val (by omega), PhiS_succ, ← min_pred_phase1 t.val (by omega)]
  iintro ⟨⟨⟨%H, %a, %b, %hI, HS0, HS1, HS2, HS3, HS4⟩, Hg⟩, HR, H0, H1, H2, H3⟩
  have hnorm : condNorm (grid0.coords t) := (hcondNorm t).mpr (by omega)
  rw [← out_fold m c t h (k0_off2_inb (grid0.coords t) hnorm) H a b hI]
  iapply (run_fold c (grid0.coords t) _ _ _ _ _ _ _ _ _ _ _ _ _ _ _ _ _ _ (fun h' => by have := (hcondInit t).mp h'; omega)
    (fun h' => by have := (hcondAcc t).mp h'; omega) ((hcondFold t).mpr h) hnorm
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists H, (k0_pay9 (sumAt m c (min (t.val - 1) 15)) (sqAt m c (min (t.val - 1) 15)) (iblk m c 2 t)), (k0_pay10 (sumAt m c (min (t.val - 1) 15)) (sqAt m c (min (t.val - 1) 15)) (iblk m c 2 t))
      isplitr
      · ipureintro; exact Inv_fold m c t h H a b hI
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- A later point of the second phase: the point's slab normalised with the folded rows; no scratch changes. -/
theorem step_norm (c : Dev nD) (t : Fin cfg0.N) (h : 16 < t.val) (R : sProp 𝕄) :
    stepPre m c t R ⊢ wp frame (wpE (defs₀ (F := F)) Variants.none c none) Set.univ (bodyAt0 t) (fun _ => stepPost m c t R) := by
  unfold stepPre stepPost
  rw [PhiS_pos m c t.val (by omega), PhiS_succ, ← min_pred_phase1 t.val (by omega)]
  iintro ⟨⟨⟨%H, %a, %b, %hI, HS0, HS1, HS2, HS3, HS4⟩, Hg⟩, HR, H0, H1, H2, H3⟩
  have hnorm : condNorm (grid0.coords t) := (hcondNorm t).mpr (by omega)
  rw [← out_norm m c t h (k0_off2_inb (grid0.coords t) hnorm) H a b hI]
  iapply (run_norm c (grid0.coords t) _ _ _ _ _ _ _ _ _ _ _ _ _ _ _ _ _ _ (fun h' => by have := (hcondInit t).mp h'; omega)
    (fun h' => by have := (hcondAcc t).mp h'; omega) (fun h' => by have := (hcondFold t).mp h'; omega) hnorm
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists H, a, b
      isplitr
      · ipureintro; exact Inv_keep m c t.val h H a b hI
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

/-- The body at any point, by the point's case. -/
theorem step (c : Dev nD) (t : Fin cfg0.N) (R : sProp 𝕄) :
    stepPre m c t R ⊢ wp frame (wpE (defs₀ (F := F)) Variants.none c none) Set.univ (bodyAt0 t) (fun _ => stepPost m c t R) := by
  by_cases hz : t.val = 0
  · exact step_first m c t hz R
  · by_cases h1 : t.val < 16
    · exact step_acc m c t hz h1 R
    · by_cases h16 : t.val = 16
      · exact step_fold m c t h16 R
      · exact step_norm m c t (by omega) R

/-! ## The body obligation -/

/-- What the body is called with at point t (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msW t) fullShare ((dats m 0 c).before 1 t d))
    ∗ (∃ d, owns (c : Thread nD τ) (msG t) fullShare ((dats m 0 c).before 2 t d))
    ∗ (∃ d, owns (c : Thread nD τ) (msO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
/-- The body at any point, in the obligation's terms: the inputs' buffers hold their blocks, no window is idle, the
    core owes nothing throughout, and the invariant is `PhiS` at the point's number. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_x, before_w, before_g]
  rw [show (dats m 0 c).owesAt () t.succ = (dats m 0 c).owesAt () t.castSucc from rfl]
  rw [show (dats m 0 c).Φ t.succ = PhiS m c (t.val + 1) from rfl]
  rw [show (dats m 0 c).Φ t.castSucc = PhiS m c t.val from by dsimp only [dats]; simp only [Fin.coe_castSucc]]
  rw [show (dats m 0 c).leavesExact 0 t = owns (c : Thread nD τ) (msX t) fullShare (iblk m c 0 t) from by
    unfold Dat.leavesExact; rw [liveAt 0 t, after_x]]
  rw [show (dats m 0 c).leavesExact 1 t = owns (c : Thread nD τ) (msW t) fullShare (iblk m c 1 t) from by
    unfold Dat.leavesExact; rw [liveAt 1 t, after_w]]
  rw [show (dats m 0 c).leavesExact 2 t = owns (c : Thread nD τ) (msG t) fullShare (iblk m c 2 t) from by
    unfold Dat.leavesExact; rw [liveAt 2 t, after_g]]
  rw [show (dats m 0 c).leavesExact 3 t = owns (c : Thread nD τ) (msO t) fullShare (outAt m c t) from by
    unfold Dat.leavesExact; rw [liveAt 3 t, after_out]]
  have h := step m c t ((dats m 0 c).owesAt () t.castSucc)
  unfold stepPre stepPost at h
  refine Idealize.SL.BI.BIBase.Entails.trans ?_ h
  iintro ⟨HΦ, Ho, ⟨%d0, H0⟩, ⟨%d1, H1⟩, ⟨%d2, H2⟩, ⟨%d3, H3⟩⟩
  isplitl [HΦ]; · iexact HΦ
  isplitl [Ho]; · iexact Ho
  isplitl [H0]; · iexact H0
  isplitl [H1]; · iexact H1
  isplitl [H2]; · iexact H2
  iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c 32 from rfl, PhiS_succ, PhiA_eq]
  iintro ⟨⟨%H, %a, %b, -, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-! ## The run and the frame -/

/-- Every weakly fair execution of @main terminates with every array of the pipeline at what the proof data computes
    (the output: each block at the point's `outAt`) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KiCases.lean ====
/- The fused kernel's body, case by case: the four conditions of its `scf.if`s decided over the 2 x 16 grid
   (phase 0 is points 0..15, phase 1 points 16..31; the first tile of a phase is point 0, resp. 16), the staging
   memrefs the body is called with at a point, and the five scratch buffers (the cache of the product's tiles,
   the running column sums and sums of squares, the folded scale and shift) as whole memrefs. -/
import proofs.«179081_g2000002827875986_pallasbulk_127_1_alg».proof.Proof.Gen.KernelIdeal.Frame
import proofs.«179081_g2000002827875986_pallasbulk_127_1_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions, decided over the grid -/

/-- First tile of phase 0: the sums are reset. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcondInit : ∀ t : Fin cfg0.N, condInit (grid0.coords t) ↔ t.val = 0 :=
  (by decide +kernel : ∀ t : Fin grid0.N, condInit (grid0.coords t) ↔ t.val = 0)

/-- Phase 0: the product of the tile, its column sums, the cache, the pass-through. -/
abbrev condAcc (i : grid0.Coords) : Prop := k0_cond2 i = 1#1
theorem hcondAcc : ∀ t : Fin cfg0.N, condAcc (grid0.coords t) ↔ t.val < 16 :=
  (by decide +kernel : ∀ t : Fin grid0.N, condAcc (grid0.coords t) ↔ t.val < 16)

/-- First tile of phase 1: the statistics are folded into scale and shift. -/
abbrev condFold (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcondFold : ∀ t : Fin cfg0.N, condFold (grid0.coords t) ↔ t.val = 16 :=
  (by decide +kernel : ∀ t : Fin grid0.N, condFold (grid0.coords t) ↔ t.val = 16)

/-- Phase 1: the cached tile normalised into the output's left half. -/
abbrev condNorm (i : grid0.Coords) : Prop := k0_cond4 i = 1#1
theorem hcondNorm : ∀ t : Fin cfg0.N, condNorm (grid0.coords t) ↔ 16 ≤ t.val :=
  (by decide +kernel : ∀ t : Fin grid0.N, condNorm (grid0.coords t) ↔ 16 ≤ t.val)

/-- No window is idle at any point: every point stores a whole output block. -/
theorem liveAt : ∀ (w : Fin 4) (t : Fin cfg0.N), cfg0.idle w (grid0.coords t) = false := by decide +kernel

/-! ## The memrefs the body runs on -/

abbrev msX (t : Fin cfg0.N) : Memref sig .tc .vmem S512x1024 .f32 := win0_0.stage (cfg0.slots t 0)
abbrev hsX (t : Fin cfg0.N) : (msX t).IsWhole := hstage0_0 ((cfg0.slots t 0).cast nbuf0_0)
abbrev msW (t : Fin cfg0.N) : Memref sig .tc .vmem S1024x1024 .bf16 := win0_1.stage (cfg0.slots t 1)
abbrev hsW (t : Fin cfg0.N) : (msW t).IsWhole := hstage0_1 ((cfg0.slots t 1).cast nbuf0_1)
abbrev msG (t : Fin cfg0.N) : Memref sig .tc .vmem S2x1024 .f32 := win0_2.stage (cfg0.slots t 2)
abbrev hsG (t : Fin cfg0.N) : (msG t).IsWhole := hstage0_2 ((cfg0.slots t 2).cast nbuf0_2)
abbrev msO (t : Fin cfg0.N) : Memref sig .tc .vmem S512x1024 .f32 := win0_3.stage (cfg0.slots t 3)
abbrev hsO (t : Fin cfg0.N) : (msO t).IsWhole := hstage0_3 ((cfg0.slots t 3).cast nbuf0_3)
abbrev scH : Memref sig .tc .vmem S16x512x1024 .bf16 := Memref.whole cc0_scratch0
abbrev scS : Memref sig .tc .vmem S1x1024 .f32 := Memref.whole cc0_scratch1
abbrev scQ : Memref sig .tc .vmem S1x1024 .f32 := Memref.whole cc0_scratch2
abbrev scA : Memref sig .tc .vmem S1x1024 .f32 := Memref.whole cc0_scratch3
abbrev scB : Memref sig .tc .vmem S1x1024 .f32 := Memref.whole cc0_scratch4

/-- The region's invariant of the class, the five scratch buffers spelled as whole memrefs at some contents. -/
theorem PhiA_eq (c : Dev nD) :
    (Pipeline.ΦA spec0 c : sProp 𝕄)
      = iprop(iprop((∃ d, owns (c : Thread nD τ) scH fullShare d) ∗ (∃ d, owns (c : Thread nD τ) scS fullShare d) ∗ (∃ d, owns (c : Thread nD τ) scQ fullShare d) ∗ (∃ d, owns (c : Thread nD τ) scA fullShare d) ∗ (∃ d, owns (c : Thread nD τ) scB fullShare d)) ∗ (∃ r, prngReg c r)) := by
  unfold Pipeline.ΦA; rw [scopedRest0_eq]; simp only [scH, scS, scQ, scA, scB, owns_whole]; try rfl

end Cert.KernelIdeal.Body

end
-- ==== Proof.KiStep.lean ====
/- What the fused kernel computes, point by point, as pure terms over the operand blocks (any float instance).
   The grid is 2 x 16: point n < 16 is tile n of phase 0, point 16 + n tile n of phase 1. Phase 0 forms the
   tile's product h_n = x_n · w (bf16 operands), adds its column sums and column sums of squares to two running
   rows, caches h_n (as bf16) in slab n of a 16-slab scratch, and passes x_n through to the output's right half.
   Point 16 folds the finished sums into a scale and a shift row; phase 1 writes max(h_n * scale + shift, 0), read
   back from slab n, into the output's left half. -/
import proofs.«179081_g2000002827875986_pallasbulk_127_1_alg».proof.Proof.KiCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Point n of the grid (n taken mod 32, so that every natural number names a point). -/
def pt (n : ℕ) : Fin cfg0.N := ⟨n % 32, lt_of_lt_of_eq (Nat.mod_lt _ (by decide)) N_0.symm⟩

theorem pt_val (t : Fin cfg0.N) : pt t.val = t :=
  Fin.ext (Nat.mod_eq_of_lt (lt_of_lt_of_eq t.isLt N_0))

/-- The operand blocks at a point, at their literal types: the x tile, the (bf16) weight, the stacked gamma/beta. -/
abbrev xblk (c : Dev nD) (t : Fin cfg0.N) : Vec F S512x1024 .f32 := iblk m c 0 t
abbrev wblk (c : Dev nD) (t : Fin cfg0.N) : Vec F S1024x1024 .bf16 := iblk m c 1 t
abbrev gblk (c : Dev nD) (t : Fin cfg0.N) : Vec F S2x1024 .f32 := iblk m c 2 t

/-- The running column sums after phase-0 point n: reset to zero at point 0, then each tile's column sums added. -/
def sumAt (c : Dev nD) : ℕ → Vec F S1x1024 .f32
  | 0 => k0_pay4 (xblk m c (pt 0)) (wblk m c (pt 0)) k0_pay1
  | n + 1 => k0_pay4 (xblk m c (pt (n + 1))) (wblk m c (pt (n + 1))) (sumAt c n)

/-- The running column sums of squares after phase-0 point n. -/
def sqAt (c : Dev nD) : ℕ → Vec F S1x1024 .f32
  | 0 => k0_pay5 (xblk m c (pt 0)) (wblk m c (pt 0)) k0_pay2
  | n + 1 => k0_pay5 (xblk m c (pt (n + 1))) (wblk m c (pt (n + 1))) (sqAt c n)

/-- What phase-0 point n caches: its tile's product, narrowed to bf16, as one slab. -/
def slabV (c : Dev nD) (n : ℕ) : Vec F S1x512x1024 .bf16 := k0_pay6 (xblk m c (pt n)) (wblk m c (pt n))

/-- The folded scale row gamma * rsqrt(var + eps), from the finished sums (after point 15). -/
def scaleV (c : Dev nD) : Vec F S1x1024 .f32 := k0_pay9 (sumAt m c 15) (sqAt m c 15) (gblk m c (pt 16))
/-- The folded shift row beta - mean * scale. -/
def shiftV (c : Dev nD) : Vec F S1x1024 .f32 := k0_pay10 (sumAt m c 15) (sqAt m c 15) (gblk m c (pt 16))

/-- The output block the body leaves at point t: the x tile in phase 0, the normalised cached tile in phase 1. -/
def outAt (c : Dev nD) (t : Fin cfg0.N) : Vec F S512x1024 .f32 :=
  if t.val < 16 then xblk m c t else k0_pay11 (slabV m c (t.val - 16)) (scaleV m c) (shiftV m c)

theorem outAt_acc (c : Dev nD) (t : Fin cfg0.N) (h : t.val < 16) : outAt m c t = xblk m c t := if_pos h
theorem outAt_norm (c : Dev nD) (t : Fin cfg0.N) (h : ¬ t.val < 16) :
    outAt m c t = k0_pay11 (slabV m c (t.val - 16)) (scaleV m c) (shiftV m c) := if_neg h

end Cert.KernelIdeal.Body

end
-- ==== Proof.KiRuns.lean ====
/- The fused kernel's body run on whole memrefs at given contents, once per case of its four conditionals: what each
   buffer holds afterwards as a pure term of what it held before. The cache is read and written one slab at a time:
   `getSlab` is a slab as a load through its rectangle reads it, `putSlab` the cache with one slab overwritten. -/
import proofs.«179081_g2000002827875986_pallasbulk_127_1_alg».proof.Proof.KiStep
import Idealize.ShloMosaic.Lib.WritesUnit
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The slab of the cache at offsets `off`, as a load through its rectangle reads it. -/
def getSlab (off : Fin 3 → ℕ) (inb : ∀ a, off a + S1x512x1024.size a ≤ S16x512x1024.size a) (H : Vec F S16x512x1024 .bf16) : Vec F S1x512x1024 .bf16 :=
  View.ld H (Rect.unit (s := S16x512x1024) off S1x512x1024.size inb)

/-- The cache with the slab at offsets `off` overwritten by `w`. -/
def putSlab (off : Fin 3 → ℕ) (inb : ∀ a, off a + S1x512x1024.size a ≤ S16x512x1024.size a) (H : Vec F S16x512x1024 .bf16) (w : Vec F S1x512x1024 .bf16) : Vec F S16x512x1024 .bf16 :=
  fun y => if h : ∀ a, off a ≤ (y a).val ∧ (y a).val < off a + S1x512x1024.size a then w (Rect.unitLocal (s := S16x512x1024) (off := off) (size := S1x512x1024.size) y h) else H y

/-- The two zero offsets of a whole rank-2 rectangle, however spelt. -/
theorem hz2 : (![0, 0] : Fin 2 → ℕ) = fun _ => 0 := by funext a; fin_cases a <;> rfl

/-- A store through the whole-shape rectangle, made last, leaves its payload whatever the buffer held and whatever
    was stored before. -/
theorem read_store_last {S : Shape} {e : EltTy} {sp : Space} (v : View sig .tc sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

set_option maxHeartbeats 1600000 in
/-- Point 0 (first tile of phase 0): the sums are reset, then the tile's column sums added; the tile's product cached; the x tile passed through. -/
theorem run_first (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : condInit i) (hc1 : condAcc i) (hc2 : ¬condFold i) (hc3 : ¬condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (x0) ∗ owns (c : Thread nD τ) arg6 fullShare (putSlab (k0_off1 i) (k0_off1_inb i hc1) H (k0_pay6 x0 x1)) ∗ owns (c : Thread nD τ) arg7 fullShare (k0_pay4 x0 x1 k0_pay1) ∗ owns (c : Thread nD τ) arg8 fullShare (k0_pay5 x0 x1 k0_pay2) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; swap; · iexact HS0
    ipureintro
    funext y
    rw [View.read_writes_cons_unit _ _ _ _ [] y rfl]
    simp only [View.writes_nil, harg6.read_unread]
    simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    rfl
  isplitl [HS1]
  · iexists _; isplitr; swap; · iexact HS1
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- A later tile of phase 0: the tile's column sums added to the running rows; its product cached; the x tile passed through. -/
theorem run_acc (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : condAcc i) (hc2 : ¬condFold i) (hc3 : ¬condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (x0) ∗ owns (c : Thread nD τ) arg6 fullShare (putSlab (k0_off1 i) (k0_off1_inb i hc1) H (k0_pay6 x0 x1)) ∗ owns (c : Thread nD τ) arg7 fullShare (k0_pay4 x0 x1 s) ∗ owns (c : Thread nD τ) arg8 fullShare (k0_pay5 x0 x1 q) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; swap; · iexact HS0
    ipureintro
    funext y
    rw [View.read_writes_cons_unit _ _ _ _ [] y rfl]
    simp only [View.writes_nil, harg6.read_unread]
    simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    rfl
  isplitl [HS1]
  · iexists _; isplitr; swap; · iexact HS1
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- Point 16 (first tile of phase 1): the sums folded into the scale and shift rows, then the cached tile normalised with them. -/
theorem run_fold (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : condFold i) (hc3 : condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (getSlab (k0_off2 i) (k0_off2_inb i hc3) H) (k0_pay9 s q x2) (k0_pay10 s q x2)) ∗ owns (c : Thread nD τ) arg6 fullShare (H) ∗ owns (c : Thread nD τ) arg7 fullShare (s) ∗ owns (c : Thread nD τ) arg8 fullShare (q) ∗ owns (c : Thread nD τ) arg9 fullShare (k0_pay9 s q x2) ∗ owns (c : Thread nD τ) arg10 fullShare (k0_pay10 s q x2)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; swap; · iexact HS3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  iexists _; isplitr; swap; · iexact HS4
  ipureintro
  sl_unfold_words
  rw [read_store_last _ hz2]
  try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
  try rfl

set_option maxHeartbeats 1600000 in
/-- A later tile of phase 1: the cached tile normalised with the scale and shift rows. -/
theorem run_norm (c : Dev nD) (i : grid0.Coords) (arg2 : Memref sig .tc .vmem S512x1024 .f32) (harg2 : arg2.IsWhole) (arg3 : Memref sig .tc .vmem S1024x1024 .bf16) (harg3 : arg3.IsWhole) (arg4 : Memref sig .tc .vmem S2x1024 .f32) (harg4 : arg4.IsWhole) (arg5 : Memref sig .tc .vmem S512x1024 .f32) (harg5 : arg5.IsWhole) (arg6 : Memref sig .tc .vmem S16x512x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : ¬condFold i) (hc3 : condNorm i)
    (x0 : Vec F S512x1024 .f32) (x1 : Vec F S1024x1024 .bf16) (x2 : Vec F S2x1024 .f32) (H : Vec F S16x512x1024 .bf16) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay11 (getSlab (k0_off2 i) (k0_off2_inb i hc3) H) a b) ∗ owns (c : Thread nD τ) arg6 fullShare (H) ∗ owns (c : Thread nD τ) arg7 fullShare (s) ∗ owns (c : Thread nD τ) arg8 fullShare (q) ∗ owns (c : Thread nD τ) arg9 fullShare (a) ∗ owns (c : Thread nD τ) arg10 fullShare (b)) -∗ K ⟨⟩))
      ⊢ wp frame (wpE (defs₀ (F := F)) Variants.none c none) E (cc0__fused_body i arg2 harg2 arg3 harg3 arg4 harg4 arg5 harg5 arg6 harg6 arg7 harg7 arg8 harg8 arg9 harg9 arg10 harg10) K := by
  simp only [cc0__fused_body_eq_skeleton]; unfold cc0__fused_body_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg6.read_unread, harg7.read_unread, harg8.read_unread, harg9.read_unread, harg10.read_unread, View.ld_unit_zero (S := S512x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; · ipureintro; exact harg9.read_unread _
    iexact HS3
  iexists _; isplitr; · ipureintro; exact harg10.read_unread _
  iexact HS4

end Cert.KernelIdeal.Body

end
-- ==== Proof.KiFrame.lean ====
/- The frame of the fused kernel's program, its outputs named: the pipeline's proof data (each input window's
   staging buffer at its block, the output's at the block the point computes, `outAt`), the invariant the body keeps
   between points (the running sums at their values; every slab the first phase has cached at its tile's product;
   after the fold, the scale and shift rows at theirs), the body's triple at every point, and the run. -/
import proofs.«179081_g2000002827875986_pallasbulk_127_1_alg».proof.Proof.KiRuns

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A slab read at equal offsets is the same slab. -/
theorem getSlab_off_congr {off off' : Fin 3 → ℕ} (h : off = off') (inb inb') (H : Vec F S16x512x1024 .bf16) :
    getSlab off inb H = getSlab off' inb' H := by
  subst h; rfl

/-- A slab written at equal offsets gives the same cache. -/
theorem putSlab_off_congr {off off' : Fin 3 → ℕ} (h : off = off') (inb inb') (H : Vec F S16x512x1024 .bf16) (w : Vec F S1x512x1024 .bf16) :
    putSlab off inb H w = putSlab off' inb' H w := by
  subst h; rfl

/-- The slab just written reads back as what was written. -/
theorem getSlab_putSlab_self (off : Fin 3 → ℕ) (inb inb') (H : Vec F S16x512x1024 .bf16) (w : Vec F S1x512x1024 .bf16) :
    getSlab off inb' (putSlab off inb H w) = w := by
  funext x
  have h : ∀ a, off a ≤ ((Rect.unit (s := S16x512x1024) off S1x512x1024.size inb').idx x a).val
      ∧ ((Rect.unit (s := S16x512x1024) off S1x512x1024.size inb').idx x a).val < off a + S1x512x1024.size a := fun a => by
    have := (x a).isLt
    simp only [LoadRect.idx_apply, Rect.off_unit, Rect.stride_unit, Nat.one_mul]
    constructor
    · omega
    · exact Nat.add_lt_add_left this _
  show (if h : _ then _ else _) = _
  rw [dif_pos h]
  congr 1
  funext a
  apply Fin.ext
  rw [Rect.unitLocal_val]
  simp only [LoadRect.idx_apply, Rect.off_unit, Rect.stride_unit, Nat.one_mul]
  omega

/-- A slab the write misses on some axis reads as before the write. -/
theorem getSlab_putSlab_sep (off off' : Fin 3 → ℕ) (inb inb') (H : Vec F S16x512x1024 .bf16) (w : Vec F S1x512x1024 .bf16)
    (a : Fin 3) (ha : off' a + S1x512x1024.size a ≤ off a ∨ off a + S1x512x1024.size a ≤ off' a) :
    getSlab off' inb' (putSlab off inb H w) = getSlab off' inb' H := by
  funext x
  show (if h : _ then _ else _) = _
  rw [dif_neg]
  · rfl
  · intro hall
    have h1 : off a ≤ off' a + 1 * (x a).val ∧ off' a + 1 * (x a).val < off a + S1x512x1024.size a := hall a
    have hx : (x a).val < S1x512x1024.size a := (x a).isLt
    omega

/-- Two different slabs of the cache do not meet. -/
theorem getSlab_putSlab_other (j j' : ℕ) (hne : j' ≠ j) (inb inb') (H : Vec F S16x512x1024 .bf16) (w : Vec F S1x512x1024 .bf16) :
    getSlab ![j', 0, 0] inb' (putSlab ![j, 0, 0] inb H w) = getSlab ![j', 0, 0] inb' H :=
  getSlab_putSlab_sep _ _ inb inb' H w 0 (by
    show j' + 1 ≤ j ∨ j + 1 ≤ j'
    omega)

theorem off1_phase0 : ∀ t : Fin cfg0.N, t.val < 16 → k0_off1 (grid0.coords t) = ![t.val, 0, 0] :=
  (by decide +kernel : ∀ t : Fin grid0.N, t.val < 16 → k0_off1 (grid0.coords t) = ![t.val, 0, 0])
theorem off2_phase1 : ∀ t : Fin cfg0.N, 16 ≤ t.val → k0_off2 (grid0.coords t) = ![t.val - 16, 0, 0] :=
  (by decide +kernel : ∀ t : Fin grid0.N, 16 ≤ t.val → k0_off2 (grid0.coords t) = ![t.val - 16, 0, 0])

variable (m : (ℓ : Loc nD τ sig) → Buf (Elt F) ℓ) (ρ : Dev nD → PrngReg)

/-- What the body has established after point n (n < 32) of the scratch it does not reset: slabs 0..min n 15 of the
    cache hold their tiles' products, and from point 16 on the scale and shift rows hold the folded statistics. -/
def Inv (c : Dev nD) (n : ℕ) (H : Vec F S16x512x1024 .bf16) (a b : Vec F S1x1024 .f32) : Prop :=
  (∀ j, j < 16 → j ≤ n → ∀ inb, getSlab ![j, 0, 0] inb H = slabV m c j) ∧ (16 ≤ n → a = scaleV m c ∧ b = shiftV m c)

/-! ## The pure bookkeeping: what a point's run leaves, in the invariant's names -/

/-- The first point's column sums are the recursion's base. -/
theorem sumAt_first (c : Dev nD) (t : Fin cfg0.N) (hz : t.val = 0) :
    k0_pay4 (iblk m c 0 t) (iblk m c 1 t) k0_pay1 = sumAt m c (min t.val 15) := by
  have ht : pt 0 = t := by rw [← hz]; exact pt_val t
  rw [hz]; show _ = k0_pay4 (xblk m c (pt 0)) (wblk m c (pt 0)) k0_pay1
  rw [ht]
theorem sqAt_first (c : Dev nD) (t : Fin cfg0.N) (hz : t.val = 0) :
    k0_pay5 (iblk m c 0 t) (iblk m c 1 t) k0_pay2 = sqAt m c (min t.val 15) := by
  have ht : pt 0 = t := by rw [← hz]; exact pt_val t
  rw [hz]; show _ = k0_pay5 (xblk m c (pt 0)) (wblk m c (pt 0)) k0_pay2
  rw [ht]

/-- A later point of the first phase adds its tile's column sums to the running rows. -/
theorem sumAt_acc (c : Dev nD) (t : Fin cfg0.N) (h0 : t.val ≠ 0) (h1 : t.val < 16) :
    k0_pay4 (iblk m c 0 t) (iblk m c 1 t) (sumAt m c (min (t.val - 1) 15)) = sumAt m c (min t.val 15) := by
  obtain ⟨n, hn⟩ := Nat.exists_eq_succ_of_ne_zero h0
  have ht : pt (n + 1) = t := by rw [← Nat.succ_eq_add_one, ← hn]; exact pt_val t
  rw [hn, Nat.succ_sub_one, Nat.min_eq_left (by omega), Nat.min_eq_left (by omega)]
  show _ = k0_pay4 (xblk m c (pt (n + 1))) (wblk m c (pt (n + 1))) (sumAt m c n)
  rw [ht]
theorem sqAt_acc (c : Dev nD) (t : Fin cfg0.N) (h0 : t.val ≠ 0) (h1 : t.val < 16) :
    k0_pay5 (iblk m c 0 t) (iblk m c 1 t) (sqAt m c (min (t.val - 1) 15)) = sqAt m c (min t.val 15) := by
  obtain ⟨n, hn⟩ := Nat.exists_eq_succ_of_ne_zero h0
  have ht : pt (n + 1) = t := by rw [← Nat.succ_eq_add_one, ← hn]; exact pt_val t
  rw [hn, Nat.succ_sub_one, Nat.min_eq_left (by omega), Nat.min_eq_left (by omega)]
  show _ = k0_pay5 (xblk m c (pt (n + 1))) (wblk m c (pt (n + 1))) (sqAt m c n)
  rw [ht]

/-- In the second phase the sums stay at their finished values. -/
theorem min_pred_phase1 (n : ℕ) (h : 16 ≤ n) : min (n - 1) 15 = min n 15 := by omega

/-- A point of the first phase caches its tile's product: the slabs cached so far, and this one. -/
theorem Inv_put (c : Dev nD) (t : Fin cfg0.N) (h1 : t.val < 16) (inb) (H : Vec F S16x512x1024 .bf16) (a b : Vec F S1x1024 .f32)
    (hI : t.val ≠ 0 → Inv m c (t.val - 1) H a b) :
    Inv m c t.val (putSlab (k0_off1 (grid0.coords t)) inb H (k0_pay6 (iblk m c 0 t) (iblk m c 1 t))) a b := by
  refine ⟨fun j hj hjt inb' => ?_, fun h => absurd h (by omega)⟩
  have hoff := off1_phase0 t h1
  by_cases hjeq : j = t.val
  · subst hjeq
    rw [getSlab_off_congr hoff.symm inb' inb, getSlab_putSlab_self]
    show _ = k0_pay6 (xblk m c (pt t.val)) (wblk m c (pt t.val))
    rw [pt_val]
  · have h0 : t.val ≠ 0 := by omega
    have := (hI h0).1 j hj (by omega) inb'
    rw [← this]
    rw [putSlab_off_congr hoff inb (hoff ▸ inb)]
    exact getSlab_putSlab_other t.val j hjeq _ inb' H _

/-- Point 16 folds the finished sums into the scale and shift rows; the cache is as the first phase left it. -/
theorem Inv_fold (c : Dev nD) (t : Fin cfg0.N) (h : t.val = 16) (H : Vec F S16x512x1024 .bf16) (a b : Vec F S1x1024 .f32)
    (hI : Inv m c (t.val - 1) H a b) :
    Inv m c t.val H (k0_pay9 (sumAt m c (min (t.val - 1) 15)) (sqAt m c (min (t.val - 1) 15)) (iblk m c 2 t))
      (k0_pay10 (sumAt m c (min (t.val - 1) 15)) (sqAt m c (min (t.val - 1) 15)) (iblk m c 2 t)) := by
  have ht : pt 16 = t := by rw [← h]; exact pt_val t
  refine ⟨fun j hj hjt inb' => hI.1 j hj (by omega) inb', fun _ => ?_⟩
  rw [h]
  constructor
  · show _ = k0_pay9 (sumAt m c 15) (sqAt m c 15) (gblk m c (pt 16)); rw [ht]; rfl
  · show _ = k0_pay10 (sumAt m c 15) (sqAt m c 15) (gblk m c (pt 16)); rw [ht]; rfl

/-- A later point of the second phase changes no scratch. -/
theorem Inv_keep (c : Dev nD) (n : ℕ) (h : 16 < n) (H : Vec F S16x512x1024 .bf16) (a b : Vec F S1x1024 .f32)
    (hI : Inv m c (n - 1) H a b) : Inv m c n H a b :=
  ⟨fun j hj hjt inb' => hI.1 j hj (by omega) inb', fun _ => hI.2 (by omega)⟩

/-- The output block of point 16: slab 0 normalised with the rows just folded. -/
theorem out_fold (c : Dev nD) (t : Fin cfg0.N) (h : t.val = 16) (inb) (H : Vec F S16x512x1024 .bf16) (a b : Vec F S1x1024 .f32)
    (hI : Inv m c (t.val - 1) H a b) :
    k0_pay11 (getSlab (k0_off2 (grid0.coords t)) inb H)
        (k0_pay9 (sumAt m c (min (t.val - 1) 15)) (sqAt m c (min (t.val - 1) 15)) (iblk m c 2 t))
        (k0_pay10 (sumAt m c (min (t.val - 1) 15)) (sqAt m c (min (t.val - 1) 15)) (iblk m c 2 t))
      = outAt m c t := by
  have hoff := off2_phase1 t (by omega)
  rw [outAt_norm m c t (by omega), getSlab_off_congr hoff inb (hoff ▸ inb), hI.1 (t.val - 16) (by omega) (by omega),
    ← (Inv_fold m c t h H a b hI).2 (by omega) |>.1, ← (Inv_fold m c t h H a b hI).2 (by omega) |>.2]

/-- The output block of a later point of the second phase: its slab normalised with the folded rows. -/
theorem out_norm (c : Dev nD) (t : Fin cfg0.N) (h : 16 < t.val) (inb) (H : Vec F S16x512x1024 .bf16) (a b : Vec F S1x1024 .f32)
    (hI : Inv m c (t.val - 1) H a b) :
    k0_pay11 (getSlab (k0_off2 (grid0.coords t)) inb H) a b = outAt m c t := by
  have hN : t.val < 32 := lt_of_lt_of_eq t.isLt N_0
  have hoff := off2_phase1 t (by omega)
  rw [outAt_norm m c t (by omega), getSlab_off_congr hoff inb (hoff ▸ inb), hI.1 (t.val - 16) (by omega) (by omega),
    (hI.2 (by omega)).1, (hI.2 (by omega)).2]

/-! ## The invariant and the proof data -/

/-- The region's invariant before point n: the class's before the first point (every scratch at anything); after
    point n - 1 the sums at their running values and the rest of the scratch at contents satisfying `Inv`. -/
def PhiS (c : Dev nD) : ℕ → sProp 𝕄
  | 0 => Pipeline.ΦA spec0 c
  | n + 1 => iprop(iprop(∃ H a b, ⌜Inv m c n H a b⌝ ∗ owns (c : Thread nD τ) scH fullShare H ∗ owns (c : Thread nD τ) scS fullShare (sumAt m c (min n 15)) ∗ owns (c : Thread nD τ) scQ fullShare (sqAt m c (min n 15)) ∗ owns (c : Thread nD τ) scA fullShare a ∗ owns (c : Thread nD τ) scB fullShare b) ∗ (∃ r, prngReg c r))

/-- Before a point that is not the first: the scratch as the point before left it. -/
theorem PhiS_pos (c : Dev nD) (n : ℕ) (hz : n ≠ 0) :
    PhiS m c n = iprop(iprop(∃ H a b, ⌜Inv m c (n - 1) H a b⌝ ∗ owns (c : Thread nD τ) scH fullShare H ∗ owns (c : Thread nD τ) scS fullShare (sumAt m c (min (n - 1) 15)) ∗ owns (c : Thread nD τ) scQ fullShare (sqAt m c (min (n - 1) 15)) ∗ owns (c : Thread nD τ) scA fullShare a ∗ owns (c : Thread nD τ) scB fullShare b) ∗ (∃ r, prngReg c r)) := by
  cases n with
  | zero => exact absurd rfl hz
  | succ n => rfl

/-- After point n. -/
theorem PhiS_succ (c : Dev nD) (n : ℕ) :
    PhiS m c (n + 1) = iprop(iprop(∃ H a b, ⌜Inv m c n H a b⌝ ∗ owns (c : Thread nD τ) scH fullShare H ∗ owns (c : Thread nD τ) scS fullShare (sumAt m c (min n 15)) ∗ owns (c : Thread nD τ) scQ fullShare (sqAt m c (min n 15)) ∗ owns (c : Thread nD τ) scA fullShare a ∗ owns (c : Thread nD τ) scB fullShare b) ∗ (∃ r, prngReg c r)) := rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_out (c : Dev nD) (t : Fin cfg0.N) : (dats m 0 c).after 3 t = outAt m c t := by dsimp only [dats]

/-- Each input's current staging buffer holds its block at every point, fetched there or not. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_g (c : Dev nD) (t : Fin cfg0.N) (d) : (dats m 0 c).before 2 t d = iblk m c 2 t :=
  before0_2_of m (dats m 0 c) (A_eq m c 2) (after_g m c) t d

/-! ## The body at a point, case by case

Each leaf: from the invariant before the point, a resource R the body does not touch, the three input buffers at
their blocks and the output buffer at anything, the body runs to the invariant after the point, R, the inputs as
they were and the output buffer at the point's block. -/

/-- What the body is handed at point t, the windows' contents named. -/
def stepPre (c : Dev nD) (t : Fin cfg0.N) (R : sProp 𝕄) : sProp 𝕄 :=
  iprop(PhiS m c t.val ∗ R ∗ owns (c : Thread nD τ) (msX t) fullShare (iblk m c 0 t) ∗ owns (c : Thread nD τ) (msW t) fullShare (iblk m c 1 t) ∗ owns (c : Thread nD τ) (msG t) fullShare (iblk m c 2 t) ∗ (∃ d, owns (c : Thread nD τ) (msO t) fullShare d))

/-- What it hands back. -/
def stepPost (c : Dev nD) (t : Fin cfg0.N) (R : sProp 𝕄) : sProp 𝕄 :=
  iprop(PhiS m c (t.val + 1) ∗ R ∗ owns (c : Thread nD τ) (msX t) fullShare (iblk m c 0 t) ∗ owns (c : Thread nD τ) (msW t) fullShare (iblk m c 1 t) ∗ owns (c : Thread nD τ) (msG t) fullShare (iblk m c 2 t) ∗ owns (c : Thread nD τ) (msO t) fullShare (outAt m c t))

set_option maxHeartbeats 3200000 in
/-- Point 0: the scratch is found at anything; the sums are reset and the first tile's added, slab 0 cached. -/
theorem step_first (c : Dev nD) (t : Fin cfg0.N) (hz : t.val = 0) (R : sProp 𝕄) :
    stepPre m c t R ⊢ wp frame (wpE (defs₀ (F := F)) Variants.none c none) Set.univ (bodyAt0 t) (fun _ => stepPost m c t R) := by
  unfold stepPre stepPost
  rw [show PhiS m c t.val = Pipeline.ΦA spec0 c from by rw [hz]; rfl, PhiA_eq, PhiS_succ,
    ← sumAt_first m c t hz, ← sqAt_first m c t hz, outAt_acc m c t (by omega)]
  iintro ⟨⟨⟨⟨%H, HS0⟩, ⟨%s, HS1⟩, ⟨%q, HS2⟩, ⟨%a, HS3⟩, ⟨%b, HS4⟩⟩, Hg⟩, HR, H0, H1, H2, H3⟩
  have hacc : condAcc (grid0.coords t) := (hcondAcc t).mpr (by omega)
  iapply (run_first c (grid0.coords t) _ _ _ _ _ _ _ _ _ _ _ _ _ _ _ _ _ _ ((hcondInit t).mpr hz) hacc
    (fun h => by have := (hcondFold t).mp h; omega) (fun h => by have := (hcondNorm t).mp h; omega)
    (iblk m c 0 t) (iblk m c 1 t) (iblk m c 2 t) H s q a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists (putSlab (k0_off1 (grid0.coords t)) (k0_off1_inb (grid0.coords t) hacc) H (k0_pay6 (iblk m c 0 t) (iblk m c 1 t))), a, b
      isplitr
      · ipureintro; exact Inv_put m c t (by omega) _ H a b (fun h => absurd hz h)
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- A later point of the first phase: the tile's sums added to the running rows, its product cached in its slab. -/
theorem step_acc (c : Dev nD) (t : Fin cfg0.N) (h0 : t.val ≠ 0) (h1 : t.val < 16) (R : sProp 𝕄) :
    stepPre m c t R ⊢ wp frame (wpE (defs₀ (F := F)) Variants.none c none) Set.univ (bodyAt0 t) (fun _ => stepPost m c t R) := by
  unfold stepPre stepPost
  rw [PhiS_pos m c t.val h0, PhiS_succ, ← sumAt_acc m c t h0 h1, ← sqAt_acc m c t h0 h1, outAt_acc m c t h1]
  iintro ⟨⟨⟨%H, %a, %b, %hI, HS0, HS1, HS2, HS3, HS4⟩, Hg⟩, HR, H0, H1, H2, H3⟩
  have hacc : condAcc (grid0.coords t) := (hcondAcc t).mpr h1
  iapply (run_acc c (grid0.coords t) _ _ _ _ _ _ _ _ _ _ _ _ _ _ _ _ _ _ (fun h => h0 ((hcondInit t).mp h)) hacc
    (fun h => by have := (hcondFold t).mp h; omega) (fun h => by have := (hcondNorm t).mp h; omega)
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists (putSlab (k0_off1 (grid0.coords t)) (k0_off1_inb (grid0.coords t) hacc) H (k0_pay6 (iblk m c 0 t) (iblk m c 1 t))), a, b
      isplitr
      · ipureintro; exact Inv_put m c t h1 _ H a b (fun _ => hI)
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- Point 16: the finished sums folded into the scale and shift rows, slab 0 normalised with them. -/
theorem step_fold (c : Dev nD) (t : Fin cfg0.N) (h : t.val = 16) (R : sProp 𝕄) :
    stepPre m c t R ⊢ wp frame (wpE (defs₀ (F := F)) Variants.none c none) Set.univ (bodyAt0 t) (fun _ => stepPost m c t R) := by
  unfold stepPre stepPost
  rw [PhiS_pos m c t.val (by omega), PhiS_succ, ← min_pred_phase1 t.val (by omega)]
  iintro ⟨⟨⟨%H, %a, %b, %hI, HS0, HS1, HS2, HS3, HS4⟩, Hg⟩, HR, H0, H1, H2, H3⟩
  have hnorm : condNorm (grid0.coords t) := (hcondNorm t).mpr (by omega)
  rw [← out_fold m c t h (k0_off2_inb (grid0.coords t) hnorm) H a b hI]
  iapply (run_fold c (grid0.coords t) _ _ _ _ _ _ _ _ _ _ _ _ _ _ _ _ _ _ (fun h' => by have := (hcondInit t).mp h'; omega)
    (fun h' => by have := (hcondAcc t).mp h'; omega) ((hcondFold t).mpr h) hnorm
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists H, (k0_pay9 (sumAt m c (min (t.val - 1) 15)) (sqAt m c (min (t.val - 1) 15)) (iblk m c 2 t)), (k0_pay10 (sumAt m c (min (t.val - 1) 15)) (sqAt m c (min (t.val - 1) 15)) (iblk m c 2 t))
      isplitr
      · ipureintro; exact Inv_fold m c t h H a b hI
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

set_option maxHeartbeats 3200000 in
/-- A later point of the second phase: the point's slab normalised with the folded rows; no scratch changes. -/
theorem step_norm (c : Dev nD) (t : Fin cfg0.N) (h : 16 < t.val) (R : sProp 𝕄) :
    stepPre m c t R ⊢ wp frame (wpE (defs₀ (F := F)) Variants.none c none) Set.univ (bodyAt0 t) (fun _ => stepPost m c t R) := by
  unfold stepPre stepPost
  rw [PhiS_pos m c t.val (by omega), PhiS_succ, ← min_pred_phase1 t.val (by omega)]
  iintro ⟨⟨⟨%H, %a, %b, %hI, HS0, HS1, HS2, HS3, HS4⟩, Hg⟩, HR, H0, H1, H2, H3⟩
  have hnorm : condNorm (grid0.coords t) := (hcondNorm t).mpr (by omega)
  rw [← out_norm m c t h (k0_off2_inb (grid0.coords t) hnorm) H a b hI]
  iapply (run_norm c (grid0.coords t) _ _ _ _ _ _ _ _ _ _ _ _ _ _ _ _ _ _ (fun h' => by have := (hcondInit t).mp h'; omega)
    (fun h' => by have := (hcondAcc t).mp h'; omega) (fun h' => by have := (hcondFold t).mp h'; omega) hnorm
    (iblk m c 0 t) (iblk m c 1 t) (iblk m c 2 t) H (sumAt m c (min (t.val - 1) 15)) (sqAt m c (min (t.val - 1) 15)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · isplitr [Hg]
    · iexists H, a, b
      isplitr
      · ipureintro; exact Inv_keep m c t.val h H a b hI
      isplitl [HS0]; · iexact HS0
      isplitl [HS1]; · iexact HS1
      isplitl [HS2]; · iexact HS2
      isplitl [HS3]; · iexact HS3
      iexact HS4
    · iexact Hg
  isplitl [HR]; · iexact HR
  isplitl [H0]; · iexact H0
  isplitl [H1]; · iexact H1
  isplitl [H2]; · iexact H2
  iexact H3

/-- The body at any point, by the point's case. -/
theorem step (c : Dev nD) (t : Fin cfg0.N) (R : sProp 𝕄) :
    stepPre m c t R ⊢ wp frame (wpE (defs₀ (F := F)) Variants.none c none) Set.univ (bodyAt0 t) (fun _ => stepPost m c t R) := by
  by_cases hz : t.val = 0
  · exact step_first m c t hz R
  · by_cases h1 : t.val < 16
    · exact step_acc m c t hz h1 R
    · by_cases h16 : t.val = 16
      · exact step_fold m c t h16 R
      · exact step_norm m c t (by omega) R

/-! ## The body obligation -/

/-- What the body is called with at point t (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msW t) fullShare ((dats m 0 c).before 1 t d))
    ∗ (∃ d, owns (c : Thread nD τ) (msG t) fullShare ((dats m 0 c).before 2 t d))
    ∗ (∃ d, owns (c : Thread nD τ) (msO t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
/-- The body at any point, in the obligation's terms: the inputs' buffers hold their blocks, no window is idle, the
    core owes nothing throughout, and the invariant is `PhiS` at the point's number. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_x, before_w, before_g]
  rw [show (dats m 0 c).owesAt () t.succ = (dats m 0 c).owesAt () t.castSucc from rfl]
  rw [show (dats m 0 c).Φ t.succ = PhiS m c (t.val + 1) from rfl]
  rw [show (dats m 0 c).Φ t.castSucc = PhiS m c t.val from by dsimp only [dats]; simp only [Fin.coe_castSucc]]
  rw [show (dats m 0 c).leavesExact 0 t = owns (c : Thread nD τ) (msX t) fullShare (iblk m c 0 t) from by
    unfold Dat.leavesExact; rw [liveAt 0 t, after_x]]
  rw [show (dats m 0 c).leavesExact 1 t = owns (c : Thread nD τ) (msW t) fullShare (iblk m c 1 t) from by
    unfold Dat.leavesExact; rw [liveAt 1 t, after_w]]
  rw [show (dats m 0 c).leavesExact 2 t = owns (c : Thread nD τ) (msG t) fullShare (iblk m c 2 t) from by
    unfold Dat.leavesExact; rw [liveAt 2 t, after_g]]
  rw [show (dats m 0 c).leavesExact 3 t = owns (c : Thread nD τ) (msO t) fullShare (outAt m c t) from by
    unfold Dat.leavesExact; rw [liveAt 3 t, after_out]]
  have h := step m c t ((dats m 0 c).owesAt () t.castSucc)
  unfold stepPre stepPost at h
  refine Idealize.SL.BI.BIBase.Entails.trans ?_ h
  iintro ⟨HΦ, Ho, ⟨%d0, H0⟩, ⟨%d1, H1⟩, ⟨%d2, H2⟩, ⟨%d3, H3⟩⟩
  isplitl [HΦ]; · iexact HΦ
  isplitl [Ho]; · iexact Ho
  isplitl [H0]; · iexact H0
  isplitl [H1]; · iexact H1
  isplitl [H2]; · iexact H2
  iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c 32 from rfl, PhiS_succ, PhiA_eq]
  iintro ⟨⟨%H, %a, %b, -, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-! ## The run and the frame -/

/-- Every weakly fair execution of @main terminates with every array of the pipeline at what the proof data computes
    (the output: each block at the point's `outAt`) and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/- The function both programs compute, over the extended reals: a bias-free linear layer h = x · w on a batch of 8192
   rows, batch normalisation of its 1024 columns with the batch's own statistics (mean = (1/8192) Σ_r h, variance =
   max((1/8192) Σ_r h² - mean², 0), folded as scale = γ · (var + ε)^(-1/2), shift = β - mean · scale), the ramp
   max(h · scale + shift, 0) in columns 0..1023 of the result, and the input x passed through in columns 1024..2047.
   The constants 1/8192 and ε are the float32 patterns both programs print; the sums are finite sums of extended reals,
   in which order of summation does not matter. -/
import Idealize.ShloMosaic.PureOps.Ideal
import Idealize.ShloMosaic.Lib.ValueIdx

noncomputable section

open scoped BigOperators

namespace Cert.Spec

open Idealize.ShloMosaic Idealize.ShloMosaic.ValueIdx

/-- 1/8192 as both programs print it. -/
def invN : EReal := Ideal.ofBits .f32 0x39000000#32
/-- The variance's ε (1e-5 rounded to float32) as both programs print it. -/
def eps : EReal := Ideal.ofBits .f32 0x3727C5AC#32
/-- The zero both programs compare with and sum from. -/
def zero : EReal := Ideal.ofBits .f32 0x00000000#32

variable (x : Fin 8192 → Fin 1024 → EReal) (w : Fin 1024 → Fin 1024 → EReal) (gb : Fin 2 → Fin 1024 → EReal)

/-- The linear layer: row r of x against column o of w. -/
def lin (r : Fin 8192) (o : Fin 1024) : EReal := ∑ k : Fin 1024, x r k * w k o
/-- Column o's sum over the batch, and its sum of squares. -/
def colSum (o : Fin 1024) : EReal := ∑ r : Fin 8192, lin x w r o
def colSq (o : Fin 1024) : EReal := ∑ r : Fin 8192, lin x w r o * lin x w r o
def mean (o : Fin 1024) : EReal := colSum x w o * invN
def var (o : Fin 1024) : EReal := max (colSq x w o * invN - mean x w o * mean x w o) zero
def scale (o : Fin 1024) : EReal := gb 0 o * Ideal.rsqrt (var x w o + eps)
def shift (o : Fin 1024) : EReal := gb 1 o - mean x w o * scale x w gb o
/-- The normalised ramp at row r, column o. -/
def bn (r : Fin 8192) (o : Fin 1024) : EReal := max (lin x w r o * scale x w gb o + shift x w gb o) zero

/-- The result array [8192, 2048]: the normalised ramp left, the input right. -/
def out : (⟨2, ![8192, 2048]⟩ : Shape).Idx → EReal := fun j =>
  if h : (j 1).val < 1024 then bn x w gb (j 0) ⟨(j 1).val, h⟩
  else x (j 0) ⟨(j 1).val - 1024, by have := idx2_lt1 j; omega⟩

/-- The arguments as the programs hold them, rank-2 arrays, read by coordinates. -/
def ofArr {a b : ℕ} (A : (⟨2, ![a, b]⟩ : Shape).Idx → EReal) : Fin a → Fin b → EReal := fun r k => A (ix2 r k)

/-- The result as a function of the three argument arrays. -/
def G (X : (⟨2, ![8192, 1024]⟩ : Shape).Idx → EReal) (W : (⟨2, ![1024, 1024]⟩ : Shape).Idx → EReal)
    (GB : (⟨2, ![2, 1024]⟩ : Shape).Idx → EReal) : (⟨2, ![8192, 2048]⟩ : Shape).Idx → EReal :=
  out (ofArr X) (ofArr W) (ofArr GB)

end Cert.Spec

end
-- ==== Proof.KiValueBlock.lean ====
/- The fused kernel's terms at the ideal instance, read at one element: the tile's product is the linear layer's rows
   512 n .. 512 n + 511, the running sums after tile n the column sums over rows 0 .. 512 (n + 1) - 1 (a finite sum of
   extended reals regrouped tile by tile), the folded rows the specification's scale and shift, and the block a point
   leaves the specification's result at that block's rows and columns. Changes of float format are the identity here. -/
import proofs.«179081_g2000002827875986_pallasbulk_127_1_alg».proof.Proof.KiFrame
import proofs.«179081_g2000002827875986_pallasbulk_127_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

variable (m : (ℓ : Loc nD τ sig) → Buf (Elt Ideal) ℓ)

/-- The three argument arrays on core c, by coordinates. -/
abbrev argX (c : Dev nD) : Fin 8192 → Fin 1024 → EReal := Cert.Spec.ofArr (m ((c.tc : Thread nD τ).loc main_arg0))
abbrev argW (c : Dev nD) : Fin 1024 → Fin 1024 → EReal := Cert.Spec.ofArr (m ((c.tc : Thread nD τ).loc main_arg1))
abbrev argG (c : Dev nD) : Fin 2 → Fin 1024 → EReal := Cert.Spec.ofArr (m ((c.tc : Thread nD τ).loc main_arg2))

/-! ## The operand blocks at an element -/

/-- Where the input window sits: in phase 0 its block row is the point's number, its block column 0. -/
theorem xwin_facts : ∀ t : Fin cfg0.N, t.val < 16 → win0_0.index t (0 : Fin 2) = t.val ∧ win0_0.index t (1 : Fin 2) = 0 :=
  (by decide +kernel : ∀ t : Fin grid0.N, t.val < 16 → win0_0.index t (0 : Fin 2) = t.val ∧ win0_0.index t (1 : Fin 2) = 0)

/-- In phase 0 the x block at (p, k) is the input's row 512 t + p at column k. -/
theorem xblk_apply (c : Dev nD) (t : Fin cfg0.N) (ht : t.val < 16) (p : Fin 512) (k : Fin 1024) :
    xblk m c t (ix2 p k) = argX m c ⟨512 * t.val + p.val, by have := p.isLt; omega⟩ k := by
  obtain ⟨e0, e1⟩ := xwin_facts t ht
  show V m c main_arg0 (((cfg0.win 0).blk t).view.emb (ix2 p k)) = m ((c.tc : Thread nD τ).loc main_arg0) (ix2 _ k)
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 1024 + 1 * k.val = k.val; omega

/-- The weight and the stacked gamma/beta are one block each: block (0, 0) at every point. -/
theorem wwin_facts : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem gwin_facts : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The weight the region finds is the host's narrowing of the weight argument: the same extended reals. -/
theorem V_w (c : Dev nD) : @Eq (S1024x1024.Idx → EReal) (V m c main_v0) (m ((c.tc : Thread nD τ).loc main_arg1)) := by
  have e : @Eq (FVec Ideal S1024x1024 .bf16) (V m c main_v0)
      (truncf .bf16 (m ((c.tc : Thread nD τ).loc main_arg1) : FVec Ideal S1024x1024 .f32) bitsLt_bf16_f32) := by
    dsimp only [Gen.V, Gen.hostOps0]; after_results
  exact e

/-- The weight block at (k, o) is the weight argument there, at every point. -/
theorem wblk_apply (c : Dev nD) (t : Fin cfg0.N) (k : Fin 1024) (o : Fin 1024) :
    wblk m c t (ix2 k o) = argW m c k o := by
  obtain ⟨e0, e1⟩ := wwin_facts t
  show (V m c main_v0 : S1024x1024.Idx → EReal) (((cfg0.win 1).blk t).view.emb (ix2 k o)) = (m ((c.tc : Thread nD τ).loc main_arg1) : S1024x1024.Idx → EReal) (ix2 k o)
  rw [V_w m c]
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * o.val = o.val; omega

/-- The gamma/beta block at (g, o) is that argument there, at every point. -/
theorem gblk_apply (c : Dev nD) (t : Fin cfg0.N) (g : Fin 2) (o : Fin 1024) :
    gblk m c t (ix2 g o) = argG m c g o := by
  obtain ⟨e0, e1⟩ := gwin_facts t
  show V m c main_arg2 (((cfg0.win 2).blk t).view.emb (ix2 g o)) = m ((c.tc : Thread nD τ).loc main_arg2) (ix2 g o)
  rw [V_main_arg2]
  refine congrArg _ (funext fun a => Fin.ext ?_)
  match a with
  | ⟨0, _⟩ => show win0_2.index t (0 : Fin 2) * 2 + 1 * g.val = g.val; omega
  | ⟨1, _⟩ => show win0_2.index t (1 : Fin 2) * 1024 + 1 * o.val = o.val; omega

/-! ## The product at an element -/

/-- The product contracts the left operand's axis 1 against the right operand's axis 0: at output index j and contraction
    position k the left operand is read at (j 0, k), the right one at (k, j 1). Coordinate by coordinate: -/
theorem lhs_dotD_0 (j : S512x1024.Idx) (k : dot_S512x1024_S1024x1024_S512x1024_1_0_0_1_n_n.contr.Idx) :
    (dot_S512x1024_S1024x1024_S512x1024_1_0_0_1_n_n.lhsIdx j k 0 : ℕ) = j 0 := by
  simp [DotDims.lhsIdx, dot_S512x1024_S1024x1024_S512x1024_1_0_0_1_n_n]; rfl
theorem lhs_dotD_1 (j : S512x1024.Idx) (k : dot_S512x1024_S1024x1024_S512x1024_1_0_0_1_n_n.contr.Idx) :
    (dot_S512x1024_S1024x1024_S512x1024_1_0_0_1_n_n.lhsIdx j k 1 : ℕ) = k ⟨0, by decide⟩ :=
  dot_S512x1024_S1024x1024_S512x1024_1_0_0_1_n_n.lhsIdx_val_of_single (cl := 1) rfl j k
theorem rhs_dotD_0 (j : S512x1024.Idx) (k : dot_S512x1024_S1024x1024_S512x1024_1_0_0_1_n_n.contr.Idx) :
    (dot_S512x1024_S1024x1024_S512x1024_1_0_0_1_n_n.rhsIdx j k 0 : ℕ) = k ⟨0, by decide⟩ :=
  dot_S512x1024_S1024x1024_S512x1024_1_0_0_1_n_n.rhsIdx_val_of_single (cr := 0) rfl j k
theorem rhs_dotD_1 (j : S512x1024.Idx) (k : dot_S512x1024_S1024x1024_S512x1024_1_0_0_1_n_n.contr.Idx) :
    (dot_S512x1024_S1024x1024_S512x1024_1_0_0_1_n_n.rhsIdx j k 1 : ℕ) = j 1 := by
  simp [DotDims.rhsIdx, dot_S512x1024_S1024x1024_S512x1024_1_0_0_1_n_n]; rfl

/-- The tile's product at row p, column o: the sum over the 1024 contracted positions of the x tile's row p against
    the weight's column o (the narrowing of the x tile and the cast of the weight to its own shape change nothing). -/
theorem pay3_apply (x0 : Vec Ideal S512x1024 .f32) (x1 : Vec Ideal S1024x1024 .bf16) (p : Fin 512) (o : Fin 1024) :
    k0_pay3 x0 x1 (ix2 p o) = ∑ k : Fin 1024, x0 (ix2 p k) * x1 (ix2 k o) := by
  unfold k0_pay3
  refine (Ideal.matmul_constant_zero_apply dot_S512x1024_S1024x1024_S512x1024_1_0_0_1_n_n none _ _ (ix2 p o)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  rw [shapeCast_self]
  congr 1
  · show x0 _ = x0 _
    refine congrArg x0 (funext fun a => Fin.ext ?_)
    match a with
    | ⟨0, _⟩ => exact lhs_dotD_0 _ _
    | ⟨1, _⟩ => exact (lhs_dotD_1 _ _).trans hk
  · refine congrArg x1 (funext fun a => Fin.ext ?_)
    match a with
    | ⟨0, _⟩ => exact (rhs_dotD_0 _ _).trans hk
    | ⟨1, _⟩ => exact rhs_dotD_1 _ _

/-! ## The running column sums -/

/-- The lane sum over the tile's 512 rows, at column o. -/
theorem rowsum_apply (src : FVec Ideal S512x1024 .f32) (o : Fin 1024) :
    multiReduction (F := Ideal) .add [0] S1024 src 0x00000000#32 reduces_S512x1024_S1024 (.inl rfl) rfl (ix1 o)
      = ∑ p : Fin 512, src (ix2 p o) := by
  refine (Ideal.multiReduction_add_single src 0x00000000#32 reduces_S512x1024_S1024 (.inl rfl) rfl (ix1 o)).trans ?_
  refine Finset.sum_congr rfl fun p _ => congrArg src (funext fun a => Fin.ext ?_)
  match a with
  | ⟨0, _⟩ => rfl
  | ⟨1, _⟩ => rfl

/-- The zero row the sums start from. -/
theorem pay1_apply (o : Fin 1024) : (k0_pay1 (F := Ideal)) (ix2 (0 : Fin 1) o) = 0 := by
  unfold k0_pay1
  refine (congrFun (shapeCast_self _ _) _).trans ?_
  exact Ideal.ofBits_zero_f32
/-- The same for the sums of squares. -/
theorem pay2_apply (o : Fin 1024) : (k0_pay2 (F := Ideal)) (ix2 (0 : Fin 1) o) = 0 := by
  unfold k0_pay2
  refine (congrFun (shapeCast_self _ _) _).trans ?_
  exact Ideal.ofBits_zero_f32

/-- One phase-0 point adds the tile's column sums to the running row … -/
theorem pay4_apply (x0 : Vec Ideal S512x1024 .f32) (x1 : Vec Ideal S1024x1024 .bf16) (s : Vec Ideal S1x1024 .f32) (o : Fin 1024) :
    k0_pay4 x0 x1 s (ix2 (0 : Fin 1) o) = s (ix2 (0 : Fin 1) o) + ∑ p : Fin 512, k0_pay3 x0 x1 (ix2 p o) := by
  unfold k0_pay4
  refine (congrFun (shapeCast_self _ _) _).trans ?_
  refine (addf_apply _ _ _).trans ?_
  refine congrArg (s (ix2 (0 : Fin 1) o) + ·) ?_
  refine (shapeCast_a_1a_apply _ _ (0 : Fin 1) o).trans ?_
  exact rowsum_apply _ o

/-- … and the column sums of its squares to the other. -/
theorem pay5_apply (x0 : Vec Ideal S512x1024 .f32) (x1 : Vec Ideal S1024x1024 .bf16) (s : Vec Ideal S1x1024 .f32) (o : Fin 1024) :
    k0_pay5 x0 x1 s (ix2 (0 : Fin 1) o)
      = s (ix2 (0 : Fin 1) o) + ∑ p : Fin 512, k0_pay3 x0 x1 (ix2 p o) * k0_pay3 x0 x1 (ix2 p o) := by
  unfold k0_pay5
  refine (congrFun (shapeCast_self _ _) _).trans ?_
  refine (addf_apply _ _ _).trans ?_
  refine congrArg (s (ix2 (0 : Fin 1) o) + ·) ?_
  refine (shapeCast_a_1a_apply _ _ (0 : Fin 1) o).trans ?_
  exact rowsum_apply _ o

/-- Row r of the linear layer at column o, as a function of a natural number (zero past the batch). -/
def linRow (c : Dev nD) (r : ℕ) (o : Fin 1024) : EReal :=
  if h : r < 8192 then Cert.Spec.lin (argX m c) (argW m c) ⟨r, h⟩ o else 0

/-- Tile n's product at row p is the linear layer's row 512 n + p. -/
theorem tile_lin (c : Dev nD) (n : ℕ) (hn : n < 16) (p : Fin 512) (o : Fin 1024) :
    k0_pay3 (xblk m c (pt n)) (wblk m c (pt n)) (ix2 p o)
      = Cert.Spec.lin (argX m c) (argW m c) ⟨512 * n + p.val, by have := p.isLt; omega⟩ o := by
  have hv : (pt n).val = n := Nat.mod_eq_of_lt (by omega)
  refine (pay3_apply (xblk m c (pt n)) (wblk m c (pt n)) p o).trans ?_
  unfold Cert.Spec.lin
  refine Finset.sum_congr rfl fun k _ => ?_
  rw [xblk_apply m c (pt n) (by omega) p k, wblk_apply m c (pt n) k o]
  refine congrArg (fun r => argX m c r k * argW m c k o) (Fin.ext ?_)
  show 512 * (pt n).val + p.val = 512 * n + p.val
  rw [hv]
/-- The same with the row as a natural number. -/
theorem tile_row (c : Dev nD) (n : ℕ) (hn : n < 16) (p : Fin 512) (o : Fin 1024) :
    k0_pay3 (xblk m c (pt n)) (wblk m c (pt n)) (ix2 p o) = linRow m c (512 * n + p.val) o := by
  have hp := p.isLt
  rw [linRow, dif_pos (by omega)]
  exact tile_lin m c n hn p o

/-- Sixteen tiles of 512 terms, added one tile at a time from zero, are the sum of the first 512 (n + 1) terms. -/
theorem tiles_sum (f : ℕ → EReal) (S : ℕ → EReal) (h0 : S 0 = 0 + ∑ x ∈ Finset.range 512, f (512 * 0 + x))
    (hs : ∀ n, n + 1 < 16 → S (n + 1) = S n + ∑ x ∈ Finset.range 512, f (512 * (n + 1) + x)) :
    ∀ n, n < 16 → S n = ∑ r ∈ Finset.range (512 * (n + 1)), f r := by
  intro n
  induction n with
  | zero =>
    intro _
    rw [h0, zero_add]
    refine Finset.sum_congr rfl fun x _ => ?_
    rw [Nat.mul_zero, Nat.zero_add]
  | succ n ih =>
    intro hn
    rw [hs n hn, ih (by omega), show 512 * (n + 1 + 1) = 512 * (n + 1) + 512 by omega, Finset.sum_range_add]

/-- After tile n the running sums row holds, at column o, the sum of the linear layer's first 512 (n + 1) rows … -/
theorem sumAt_apply (c : Dev nD) (o : Fin 1024) (n : ℕ) (hn : n < 16) :
    sumAt m c n (ix2 (0 : Fin 1) o) = ∑ r ∈ Finset.range (512 * (n + 1)), linRow m c r o := by
  refine tiles_sum (fun r => linRow m c r o) (fun n => sumAt m c n (ix2 (0 : Fin 1) o)) ?_ ?_ n hn
  · show k0_pay4 (xblk m c (pt 0)) (wblk m c (pt 0)) (k0_pay1 (F := Ideal)) (ix2 (0 : Fin 1) o) = _
    rw [pay4_apply (xblk m c (pt 0)) (wblk m c (pt 0)) (k0_pay1 (F := Ideal)) o, pay1_apply o]
    refine congrArg (0 + ·) ?_
    rw [← Fin.sum_univ_eq_sum_range (fun x => linRow m c (512 * 0 + x) o) 512]
    exact Finset.sum_congr rfl fun p _ => tile_row m c 0 (by omega) p o
  · intro n hn
    show k0_pay4 (xblk m c (pt (n + 1))) (wblk m c (pt (n + 1))) (sumAt m c n) (ix2 (0 : Fin 1) o) = _
    rw [pay4_apply (xblk m c (pt (n + 1))) (wblk m c (pt (n + 1))) (sumAt m c n) o]
    refine congrArg (sumAt m c n (ix2 (0 : Fin 1) o) + ·) ?_
    rw [← Fin.sum_univ_eq_sum_range (fun x => linRow m c (512 * (n + 1) + x) o) 512]
    exact Finset.sum_congr rfl fun p _ => tile_row m c (n + 1) hn p o

/-- … and the other row the sum of their squares. -/
theorem sqAt_apply (c : Dev nD) (o : Fin 1024) (n : ℕ) (hn : n < 16) :
    sqAt m c n (ix2 (0 : Fin 1) o) = ∑ r ∈ Finset.range (512 * (n + 1)), linRow m c r o * linRow m c r o := by
  refine tiles_sum (fun r => linRow m c r o * linRow m c r o) (fun n => sqAt m c n (ix2 (0 : Fin 1) o)) ?_ ?_ n hn
  · show k0_pay5 (xblk m c (pt 0)) (wblk m c (pt 0)) (k0_pay2 (F := Ideal)) (ix2 (0 : Fin 1) o) = _
    rw [pay5_apply (xblk m c (pt 0)) (wblk m c (pt 0)) (k0_pay2 (F := Ideal)) o, pay2_apply o]
    refine congrArg (0 + ·) ?_
    rw [← Fin.sum_univ_eq_sum_range (fun x => linRow m c (512 * 0 + x) o * linRow m c (512 * 0 + x) o) 512]
    exact Finset.sum_congr rfl fun p _ => by rw [tile_row m c 0 (by omega) p o]
  · intro n hn
    show k0_pay5 (xblk m c (pt (n + 1))) (wblk m c (pt (n + 1))) (sqAt m c n) (ix2 (0 : Fin 1) o) = _
    rw [pay5_apply (xblk m c (pt (n + 1))) (wblk m c (pt (n + 1))) (sqAt m c n) o]
    refine congrArg (sqAt m c n (ix2 (0 : Fin 1) o) + ·) ?_
    rw [← Fin.sum_univ_eq_sum_range (fun x => linRow m c (512 * (n + 1) + x) o * linRow m c (512 * (n + 1) + x) o) 512]
    exact Finset.sum_congr rfl fun p _ => by rw [tile_row m c (n + 1) hn p o]

/-- After the last tile the running rows are the batch's column sums and column sums of squares. -/
theorem sumAt_last (c : Dev nD) (o : Fin 1024) :
    sumAt m c 15 (ix2 (0 : Fin 1) o) = Cert.Spec.colSum (argX m c) (argW m c) o := by
  rw [sumAt_apply m c o 15 (by omega)]
  unfold Cert.Spec.colSum
  rw [← Fin.sum_univ_eq_sum_range (fun r => linRow m c r o) 8192]
  exact Finset.sum_congr rfl fun r _ => by rw [linRow, dif_pos r.isLt]
theorem sqAt_last (c : Dev nD) (o : Fin 1024) :
    sqAt m c 15 (ix2 (0 : Fin 1) o) = Cert.Spec.colSq (argX m c) (argW m c) o := by
  rw [sqAt_apply m c o 15 (by omega)]
  unfold Cert.Spec.colSq
  rw [← Fin.sum_univ_eq_sum_range (fun r => linRow m c r o * linRow m c r o) 8192]
  exact Finset.sum_congr rfl fun r _ => by rw [linRow, dif_pos r.isLt]

/-! ## The fold: scale and shift -/

/-- The scale row at column o, from a sums row s, a sums-of-squares row q and the stacked gamma/beta g. -/
theorem pay8_apply (s q : Vec Ideal S1x1024 .f32) (g : Vec Ideal S2x1024 .f32) (o : Fin 1024) :
    k0_pay8 s q g (ix2 (0 : Fin 1) o)
      = g (ix2 (0 : Fin 2) o) * Ideal.rsqrt (max (q (ix2 (0 : Fin 1) o) * Cert.Spec.invN
          - s (ix2 (0 : Fin 1) o) * Cert.Spec.invN * (s (ix2 (0 : Fin 1) o) * Cert.Spec.invN)) Cert.Spec.zero + Cert.Spec.eps) := by
  unfold k0_pay8 k0_pay7
  refine (mulf_apply _ _ _).trans ?_
  refine congrArg₂ (· * ·) ?_ rfl
  exact extractStridedSlice_apply ![0, 0] g slices_S2x1024_o0_0_S1x1024 (ix2 (0 : Fin 1) o) (ix2 (0 : Fin 2) o)
    (fun a => match a with | ⟨0, _⟩ => rfl | ⟨1, _⟩ => (Nat.zero_add _).symm)

/-- The shift row at column o: beta less the mean times the scale. -/
theorem pay10_apply (s q : Vec Ideal S1x1024 .f32) (g : Vec Ideal S2x1024 .f32) (o : Fin 1024) :
    k0_pay10 s q g (ix2 (0 : Fin 1) o)
      = g (ix2 (1 : Fin 2) o) - s (ix2 (0 : Fin 1) o) * Cert.Spec.invN * k0_pay8 s q g (ix2 (0 : Fin 1) o) := by
  unfold k0_pay10 k0_pay7
  refine (congrFun (shapeCast_self _ _) _).trans ?_
  refine (subf_apply _ _ _).trans ?_
  refine congrArg₂ (· - ·) ?_ rfl
  exact extractStridedSlice_apply ![1, 0] g slices_S2x1024_o1_0_S1x1024 (ix2 (0 : Fin 1) o) (ix2 (1 : Fin 2) o)
    (fun a => match a with | ⟨0, _⟩ => rfl | ⟨1, _⟩ => (Nat.zero_add _).symm)

/-- From the finished sums the scale is the specification's. -/
theorem pay8_fold (c : Dev nD) (o : Fin 1024) :
    k0_pay8 (sumAt m c 15) (sqAt m c 15) (gblk m c (pt 16)) (ix2 (0 : Fin 1) o)
      = Cert.Spec.scale (argX m c) (argW m c) (argG m c) o := by
  rw [pay8_apply (sumAt m c 15) (sqAt m c 15) (gblk m c (pt 16)) o, sumAt_last m c o, sqAt_last m c o,
    gblk_apply m c (pt 16) 0 o]
  rfl

/-- The folded scale row is the specification's scale … -/
theorem scaleV_apply (c : Dev nD) (o : Fin 1024) :
    scaleV m c (ix2 (0 : Fin 1) o) = Cert.Spec.scale (argX m c) (argW m c) (argG m c) o := by
  unfold scaleV k0_pay9
  exact (congrFun (shapeCast_self _ _) _).trans (pay8_fold m c o)

/-- … and the folded shift row its shift. -/
theorem shiftV_apply (c : Dev nD) (o : Fin 1024) :
    shiftV m c (ix2 (0 : Fin 1) o) = Cert.Spec.shift (argX m c) (argW m c) (argG m c) o := by
  unfold shiftV
  rw [pay10_apply (sumAt m c 15) (sqAt m c 15) (gblk m c (pt 16)) o, pay8_fold m c o, sumAt_last m c o,
    gblk_apply m c (pt 16) 1 o]
  rfl

/-! ## The block a point leaves -/

/-- The cached slab holds the tile's product (narrowed, which changes nothing, under a leading unit axis). -/
theorem pay6_apply (x0 : Vec Ideal S512x1024 .f32) (x1 : Vec Ideal S1024x1024 .bf16) (p : Fin 512) (o : Fin 1024) :
    k0_pay6 x0 x1 (ix3 (0 : Fin 1) p o) = k0_pay3 x0 x1 (ix2 p o) := by
  unfold k0_pay6
  exact shapeCast_ab_1ab_apply _ _ (0 : Fin 1) p o

/-- The normalised ramp of a slab h under a scale row a and a shift row b, at row p and column o. -/
theorem pay11_apply (h : Vec Ideal S1x512x1024 .bf16) (a b : Vec Ideal S1x1024 .f32) (p : Fin 512) (o : Fin 1024) :
    k0_pay11 h a b (ix2 p o)
      = max (h (ix3 (0 : Fin 1) p o) * a (ix2 (0 : Fin 1) o) + b (ix2 (0 : Fin 1) o)) Cert.Spec.zero := by
  unfold k0_pay11
  show max ((shapeCast S512x1024 h shapeCasts_S1x512x1024_S512x1024) (ix2 p o)
      * (broadcastTo S512x1024 a broadcasts_S1x1024_S512x1024) (ix2 p o)
      + (broadcastTo S512x1024 b broadcasts_S1x1024_S512x1024) (ix2 p o)) Cert.Spec.zero = _
  rw [shapeCast_1ab_ab_apply, broadcastTo_1b_ab_apply, broadcastTo_1b_ab_apply]

/-- THE BLOCK AT AN ELEMENT. What the body leaves in the output's staging buffer at point t, at row p and column q of
    the block: in phase 0 (t < 16) the input's row 512 t + p at column q; in phase 1 the normalised ramp at row
    512 (t - 16) + p, column q. -/
theorem outAt_apply (c : Dev nD) (t : Fin cfg0.N) (p : Fin 512) (q : Fin 1024) :
    outAt (F := Ideal) m c t (ix2 p q)
      = if h : t.val < 16 then argX m c ⟨512 * t.val + p.val, by have := p.isLt; omega⟩ q
        else Cert.Spec.bn (argX m c) (argW m c) (argG m c) ⟨512 * (t.val - 16) + p.val, by
          have := p.isLt; have : t.val < 32 := lt_of_lt_of_eq t.isLt N_0; omega⟩ q := by
  by_cases h : t.val < 16
  · rw [dif_pos h, outAt_acc m c t h]
    exact xblk_apply m c t h p q
  · rw [dif_neg h, outAt_norm m c t h]
    have ht : t.val < 32 := lt_of_lt_of_eq t.isLt N_0
    rw [pay11_apply (slabV m c (t.val - 16)) (scaleV m c) (shiftV m c) p q, scaleV_apply m c q, shiftV_apply m c q]
    unfold slabV
    rw [pay6_apply (xblk m c (pt (t.val - 16))) (wblk m c (pt (t.val - 16))) p q,
      tile_lin m c (t.val - 16) (by omega) p q]
    rfl

end Cert.KernelIdeal.Body

end
-- ==== Proof.KiValue.lean ====
/- The fused kernel's result array: the 32 output blocks the grid's points write back tile the [8192, 2048] result —
   point t < 16 writes block (t, 1), the right half's rows 512 t .. 512 t + 511; point 16 + n block (n, 0) of the left half —
   so the array after the run is the specification's result, element by element. -/
import proofs.«179081_g2000002827875986_pallasbulk_127_1_alg».proof.Proof.KiValueBlock

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The output window's block index at point t: the tile (t mod 16) on the rows, the right half in phase 0 and the left in phase 1. -/
theorem idx3 : ∀ t : Fin cfg0.N, win0_3.index t (0 : Fin 2) = t.val % 16 ∧ win0_3.index t (1 : Fin 2) = (if t.val < 16 then 1 else 0) :=
  (by decide +kernel : ∀ t : Fin grid0.N, win0_3.index t (0 : Fin 2) = t.val % 16 ∧ win0_3.index t (1 : Fin 2) = (if t.val < 16 then 1 else 0))

/-- What point t writes back is the specification's result read through the point's block: the element at row p, column q
    of the block sits in the array at row 512 (t mod 16) + p and at column 1024 + q in phase 0, q in phase 1, where the
    specification has the input's element and the normalised ramp respectively. -/
theorem flushed_eq (c : Dev nD) (t : Fin cfg0.N) :
    (dats (F := Ideal) m 0 c).flushed 3 t = ((cfg0.win 3).blk t).view.read (Elt Ideal)
      (Cert.Spec.G (m ((c.tc : Thread nD τ).loc main_arg0)) (m ((c.tc : Thread nD τ).loc main_arg1)) (m ((c.tc : Thread nD τ).loc main_arg2))) := by
  show (cfg0.win 3).cut (grid0.coords t) ((dats m 0 c).after 3 t) = _
  rw [after_out]
  funext y
  obtain ⟨p, q, rfl⟩ : ∃ (p : Fin 512) (q : Fin 1024), y = ix2 p q := ⟨y 0, y 1, eq_ix2 y⟩
  show outAt m c t (ix2 p q) = Cert.Spec.out (argX m c) (argW m c) (argG m c) (((cfg0.win 3).blk t).view.emb (ix2 p q) : S8192x2048.Idx)
  rw [outAt_apply]
  obtain ⟨e0, e1⟩ := idx3 t
  have ht32 : t.val < 32 := lt_of_lt_of_eq t.isLt N_0
  have hp : p.val < 512 := p.isLt
  have hq : q.val < 1024 := q.isLt
  have hj0 : (((((cfg0.win 3).blk t).view.emb (ix2 p q) : S8192x2048.Idx)) 0 : ℕ) = win0_3.index t (0 : Fin 2) * 512 + 1 * p.val := rfl
  have hj1 : (((((cfg0.win 3).blk t).view.emb (ix2 p q) : S8192x2048.Idx)) 1 : ℕ) = win0_3.index t (1 : Fin 2) * 1024 + 1 * q.val := rfl
  generalize (((cfg0.win 3).blk t).view.emb (ix2 p q) : S8192x2048.Idx) = j at hj0 hj1 ⊢
  rw [e0] at hj0
  rw [e1] at hj1
  unfold Cert.Spec.out
  by_cases ht : t.val < 16
  · rw [if_pos ht] at hj1
    rw [dif_pos ht, dif_neg (by omega)]
    exact congrArg₂ (argX m c) (Fin.ext (by show 512 * t.val + p.val = (j 0).val; omega)) (Fin.ext (by show q.val = (j 1).val - 1024; omega))
  · rw [if_neg ht] at hj1
    rw [dif_neg ht, dif_pos (by omega)]
    exact congrArg₂ (Cert.Spec.bn (argX m c) (argW m c) (argG m c)) (Fin.ext (by show 512 * (t.val - 16) + p.val = (j 0).val; omega)) (Fin.ext (by show q.val = (j 1).val; omega))

/-- An index of the result array lies in point t's block iff each coordinate lies in the block's range on its axis. -/
theorem mem_blk (t : Fin cfg0.N) (i : S8192x2048.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v1).slice (win0_3.rect t)).set ↔ _
  rw [View.set_slice_whole, Rect.mem_set_unit]
  exact Iff.rfl

/-- The 32 blocks fill the result array: the element at row r, column j lies in the block of tile r / 512, written in
    phase 1 when j is in the left half and in phase 0 when it is in the right half. -/
theorem cover (i : S8192x2048.Idx) : ∃ t : Fin cfg0.N, (cfg0.win 3).flush t = true ∧ i ∈ ((cfg0.win 3).blk t).view.set := by
  have hi0 : (i 0).val < 8192 := idx2_lt0 i
  have hi1 : (i 1).val < 2048 := idx2_lt1 i
  obtain ⟨t, ht⟩ : ∃ t : Fin cfg0.N, t.val = (i 0).val / 512 + (if (i 1).val < 1024 then 16 else 0) :=
    ⟨⟨(i 0).val / 512 + (if (i 1).val < 1024 then 16 else 0), lt_of_lt_of_eq (by split <;> omega) N_0.symm⟩, rfl⟩
  refine ⟨t, flush0_3 t, ?_⟩
  rw [mem_blk]
  obtain ⟨e0, e1⟩ := idx3 t
  intro a
  match a with
  | ⟨0, _⟩ =>
    show win0_3.index t (0 : Fin 2) * 512 ≤ (i 0).val ∧ (i 0).val < win0_3.index t (0 : Fin 2) * 512 + 512
    rw [e0, ht]; split <;> omega
  | ⟨1, _⟩ =>
    show win0_3.index t (1 : Fin 2) * 1024 ≤ (i 1).val ∧ (i 1).val < win0_3.index t (1 : Fin 2) * 1024 + 1024
    rw [e1, ht]; split <;> split <;> omega

/-- The output array after every write-back is the specification's result of the three argument arrays. -/
theorem final (c : Dev nD) :
    (dats (F := Ideal) m 0 c).arrAt 3 cfg0.N
      = Cert.Spec.G (m ((c.tc : Thread nD τ).loc main_arg0)) (m ((c.tc : Thread nD τ).loc main_arg1)) (m ((c.tc : Thread nD τ).loc main_arg2)) := by
  exact (dats (F := Ideal) m 0 c).arrAt_eq_of_cover 3 _ (fun t _ => flushed_eq m c t) cover

/-- The idealized kernel's run with its result named: every weakly fair execution of @main ends with the result array
    at the specification's function of the arguments, and the arguments unchanged. -/
theorem value_run : θ_run defs (onTc (τ := τ) (main (F := Ideal))) ⟨m, fun _ => 0, ρ⟩ (fun r => ∀ c : Dev nD,
      r.2.mem ((c.tc : Thread nD τ).loc main_v1)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c)))⟩) (run_main m ρ)

end Cert.KernelIdeal.Body

end
-- ==== Proof.RfCases.lean ====
/- The tiled reference kernel's body, case by case: the four conditions of its `scf.if`s decided over the 2 x 7 grid
   (phase 0 is points 0..6, phase 1 points 7..13; the first tile of a phase is point 0, resp. 7), where the output
   window is idle (all of phase 0, never written back there), the staging memrefs the body is called with at a point,
   and the five scratch buffers as whole memrefs (the first, a tile cache, is never touched: the product is recomputed). -/
import proofs.«179081_g2000002827875986_pallasbulk_127_1_alg».proof.Proof.Gen.ReferenceIdeal.Frame
import proofs.«179081_g2000002827875986_pallasbulk_127_1_alg».proof.Proof.Gen.ReferenceIdeal.Skeleton

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The conditions, decided over the grid -/

/-- First tile of phase 0: the sums are reset. -/
abbrev condInit (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcondInit : ∀ t : Fin cfg0.N, condInit (grid0.coords t) ↔ t.val = 0 :=
  (by decide +kernel : ∀ t : Fin grid0.N, condInit (grid0.coords t) ↔ t.val = 0)

/-- Phase 0: the product of the tile and its column sums. -/
abbrev condAcc (i : grid0.Coords) : Prop := (Scalar.cmpi .ne (Scalar.extui (Scalar.cmpi .eq (BitVec.ofNat 32 (i 0).val) 0#32)) 0#32) = 1#1
theorem hcondAcc : ∀ t : Fin cfg0.N, condAcc (grid0.coords t) ↔ t.val < 7 :=
  (by decide +kernel : ∀ t : Fin grid0.N, condAcc (grid0.coords t) ↔ t.val < 7)

/-- First tile of phase 1: the statistics are folded into scale and shift. -/
abbrev condFold (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
theorem hcondFold : ∀ t : Fin cfg0.N, condFold (grid0.coords t) ↔ t.val = 7 :=
  (by decide +kernel : ∀ t : Fin grid0.N, condFold (grid0.coords t) ↔ t.val = 7)

/-- Phase 1: the tile's product recomputed and normalised into the output block. -/
abbrev condNorm (i : grid0.Coords) : Prop := k0_cond4 i = 1#1
theorem hcondNorm : ∀ t : Fin cfg0.N, condNorm (grid0.coords t) ↔ 7 ≤ t.val :=
  (by decide +kernel : ∀ t : Fin grid0.N, condNorm (grid0.coords t) ↔ 7 ≤ t.val)

/-- The inputs are never idle; the output window is idle exactly in phase 0, -/
theorem liveIn : ∀ (t : Fin cfg0.N), cfg0.idle 0 (grid0.coords t) = false ∧ cfg0.idle 1 (grid0.coords t) = false ∧ cfg0.idle 2 (grid0.coords t) = false := by decide +kernel
theorem idleOut : ∀ (t : Fin cfg0.N), cfg0.idle 3 (grid0.coords t) = decide (t.val < 7) := by decide +kernel
/-- and it is written back exactly at the points of phase 1. -/
theorem flushOut : ∀ (t : Fin cfg0.N), (cfg0.win 3).flush t = decide (7 ≤ t.val) :=
  (by decide +kernel : ∀ t : Fin grid0.N, win0_3.flush t = decide (7 ≤ t.val))

/-! ## The memrefs the body runs on -/

abbrev msX (t : Fin cfg0.N) : Memref sig .tc .vmem S1272x1024 .f32 := win0_0.stage (cfg0.slots t 0)
abbrev hsX (t : Fin cfg0.N) : (msX t).IsWhole := hstage0_0 ((cfg0.slots t 0).cast nbuf0_0)
abbrev msW (t : Fin cfg0.N) : Memref sig .tc .vmem S1024x1024 .f32 := win0_1.stage (cfg0.slots t 1)
abbrev hsW (t : Fin cfg0.N) : (msW t).IsWhole := hstage0_1 ((cfg0.slots t 1).cast nbuf0_1)
abbrev msG (t : Fin cfg0.N) : Memref sig .tc .vmem S2x1024 .f32 := win0_2.stage (cfg0.slots t 2)
abbrev hsG (t : Fin cfg0.N) : (msG t).IsWhole := hstage0_2 ((cfg0.slots t 2).cast nbuf0_2)
abbrev msO (t : Fin cfg0.N) : Memref sig .tc .vmem S1272x1024 .f32 := win0_3.stage (cfg0.slots t 3)
abbrev hsO (t : Fin cfg0.N) : (msO t).IsWhole := hstage0_3 ((cfg0.slots t 3).cast nbuf0_3)
abbrev scH : Memref sig .tc .vmem S1x1272x1024 .f32 := Memref.whole cc0_scratch0
abbrev scS : Memref sig .tc .vmem S1x1024 .f32 := Memref.whole cc0_scratch1
abbrev scQ : Memref sig .tc .vmem S1x1024 .f32 := Memref.whole cc0_scratch2
abbrev scA : Memref sig .tc .vmem S1x1024 .f32 := Memref.whole cc0_scratch3
abbrev scB : Memref sig .tc .vmem S1x1024 .f32 := Memref.whole cc0_scratch4

/-- The region's invariant of the class, the five scratch buffers spelled as whole memrefs at some contents. -/
theorem PhiA_eq (c : Dev nD) :
    (Pipeline.ΦA spec0 c : sProp 𝕄)
      = iprop(iprop((∃ d, owns (c : Thread nD τ) scH fullShare d) ∗ (∃ d, owns (c : Thread nD τ) scS fullShare d) ∗ (∃ d, owns (c : Thread nD τ) scQ fullShare d) ∗ (∃ d, owns (c : Thread nD τ) scA fullShare d) ∗ (∃ d, owns (c : Thread nD τ) scB fullShare d)) ∗ (∃ r, prngReg c r)) := by
  unfold Pipeline.ΦA; rw [scopedRest0_eq]; simp only [scH, scS, scQ, scA, scB, owns_whole]; try rfl

end Cert.ReferenceIdeal.Body

end
-- ==== Proof.RfStep.lean ====
/- What the tiled reference kernel computes, point by point, as pure terms over the operand blocks (any float
   instance). The grid is 2 x 7 over the batch padded with zero rows to 7 tiles of 1272 rows: point n < 7 is tile n of
   phase 0, point 7 + n tile n of phase 1. Phase 0 forms the tile's product h_n = x_n · w and adds its column sums and
   column sums of squares to two running rows. Point 7 folds the finished sums into a scale and a shift row; phase 1
   recomputes h_n and writes max(h_n * scale + shift, 0) into output block n. -/
import proofs.«179081_g2000002827875986_pallasbulk_127_1_alg».proof.Proof.RfCases

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ)

/-- Point n of the grid (n taken mod 14, so that every natural number names a point). -/
def pt (n : ℕ) : Fin cfg0.N := ⟨n % 14, lt_of_lt_of_eq (Nat.mod_lt _ (by decide)) N_0.symm⟩

theorem pt_val (t : Fin cfg0.N) : pt t.val = t :=
  Fin.ext (Nat.mod_eq_of_lt (lt_of_lt_of_eq t.isLt N_0))

/-- The operand blocks at a point, at their literal types: the tile of the padded batch, the weight, gamma/beta. -/
abbrev xblk (c : Dev nD) (t : Fin cfg0.N) : Vec F S1272x1024 .f32 := iblk m c 0 t
abbrev wblk (c : Dev nD) (t : Fin cfg0.N) : Vec F S1024x1024 .f32 := iblk m c 1 t
abbrev gblk (c : Dev nD) (t : Fin cfg0.N) : Vec F S2x1024 .f32 := iblk m c 2 t

/-- The running column sums after phase-0 point n: reset to zero at point 0, then each tile's column sums added. -/
def sumAt (c : Dev nD) : ℕ → Vec F S1x1024 .f32
  | 0 => k0_pay4 (xblk m c (pt 0)) (wblk m c (pt 0)) k0_pay1
  | n + 1 => k0_pay4 (xblk m c (pt (n + 1))) (wblk m c (pt (n + 1))) (sumAt c n)

/-- The running column sums of squares after phase-0 point n. -/
def sqAt (c : Dev nD) : ℕ → Vec F S1x1024 .f32
  | 0 => k0_pay5 (xblk m c (pt 0)) (wblk m c (pt 0)) k0_pay2
  | n + 1 => k0_pay5 (xblk m c (pt (n + 1))) (wblk m c (pt (n + 1))) (sqAt c n)

/-- The folded scale row gamma * rsqrt(var + eps), from the finished sums (after point 6). -/
def scaleV (c : Dev nD) : Vec F S1x1024 .f32 := k0_pay8 (sumAt m c 6) (sqAt m c 6) (gblk m c (pt 7))
/-- The folded shift row beta - mean * scale. -/
def shiftV (c : Dev nD) : Vec F S1x1024 .f32 := k0_pay9 (sumAt m c 6) (sqAt m c 6) (gblk m c (pt 7))

/-- The output block a phase-1 point t leaves: the tile's product normalised (at a phase-0 point the output window is
    idle and this term is not what its buffer holds). -/
def outAt (c : Dev nD) (t : Fin cfg0.N) : Vec F S1272x1024 .f32 :=
  k0_pay10 (xblk m c t) (wblk m c t) (scaleV m c) (shiftV m c)

end Cert.ReferenceIdeal.Body

end
-- ==== Proof.RfRuns.lean ====
/- The tiled reference kernel's body run on whole memrefs at given contents, once per case of its four conditionals:
   what each buffer holds afterwards as a pure term of what it held before. In phase 0 the output's buffer is left as
   found; the tile cache is never touched. -/
import proofs.«179081_g2000002827875986_pallasbulk_127_1_alg».proof.Proof.RfStep
import Idealize.ShloMosaic.Lib.Pipeline.Value

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-- The two zero offsets of a whole rank-2 rectangle, however spelt. -/
theorem hz2 : (![0, 0] : Fin 2 → ℕ) = fun _ => 0 := by funext a; fin_cases a <;> rfl

/-- A store through the whole-shape rectangle, made last, leaves its payload whatever the buffer held and whatever
    was stored before. -/
theorem read_store_last {S : Shape} {e : EltTy} {sp : Space} (v : View sig .tc sp S e) {off : Fin S.rank → ℕ} (h : off = fun _ => 0)
    (inb : ∀ a, off a + S.size a ≤ S.size a) (f : v.ty.Contents (Elt F)) (w : S.Idx → Elt F e) (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

set_option maxHeartbeats 1600000 in
/-- Point 0 (first tile of phase 0): the sums are reset, then the tile's column sums added. -/
theorem run_first (c : Dev nD) (i : grid0.Coords) (arg2 : Memref sig .tc .vmem S1272x1024 .f32) (harg2 : arg2.IsWhole) (arg3 : Memref sig .tc .vmem S1024x1024 .f32) (harg3 : arg3.IsWhole) (arg4 : Memref sig .tc .vmem S2x1024 .f32) (harg4 : arg4.IsWhole) (arg5 : Memref sig .tc .vmem S1272x1024 .f32) (harg5 : arg5.IsWhole) (arg6 : Memref sig .tc .vmem S1x1272x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : condInit i) (hc1 : condAcc i) (hc2 : ¬condFold i) (hc3 : ¬condNorm i)
    (x0 : Vec F S1272x1024 .f32) (x1 : Vec F S1024x1024 .f32) (x2 : Vec F S2x1024 .f32) (o : Vec F S1272x1024 .f32) (H : Vec F S1x1272x1024 .f32) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (o) ∗ owns (c : Thread nD τ) arg6 fullShare (H) ∗ owns (c : Thread nD τ) arg7 fullShare (k0_pay4 x0 x1 k0_pay1) ∗ owns (c : Thread nD τ) arg8 fullShare (k0_pay5 x0 x1 k0_pay2) ∗ owns (c : Thread nD τ) arg9 fullShare (a) ∗ owns (c : Thread nD τ) arg10 fullShare (b)) -∗ K ⟨⟩))
      ⊢ wp frame (wpE (defs₀ (F := F)) Variants.none c none) E (cc0__residual_tiled_kernel i arg2 harg2 arg3 harg3 arg4 harg4 arg5 harg5 arg6 harg6 arg7 harg7 arg8 harg8 arg9 harg9 arg10 harg10) K := by
  simp only [cc0__residual_tiled_kernel_eq_skeleton]; unfold cc0__residual_tiled_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; · ipureintro; exact harg6.read_unread _
    iexact HS0
  isplitl [HS1]
  · iexists _; isplitr; swap; · iexact HS1
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- A later tile of phase 0: the tile's column sums added to the running rows. -/
theorem run_acc (c : Dev nD) (i : grid0.Coords) (arg2 : Memref sig .tc .vmem S1272x1024 .f32) (harg2 : arg2.IsWhole) (arg3 : Memref sig .tc .vmem S1024x1024 .f32) (harg3 : arg3.IsWhole) (arg4 : Memref sig .tc .vmem S2x1024 .f32) (harg4 : arg4.IsWhole) (arg5 : Memref sig .tc .vmem S1272x1024 .f32) (harg5 : arg5.IsWhole) (arg6 : Memref sig .tc .vmem S1x1272x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : condAcc i) (hc2 : ¬condFold i) (hc3 : ¬condNorm i)
    (x0 : Vec F S1272x1024 .f32) (x1 : Vec F S1024x1024 .f32) (x2 : Vec F S2x1024 .f32) (o : Vec F S1272x1024 .f32) (H : Vec F S1x1272x1024 .f32) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (o) ∗ owns (c : Thread nD τ) arg6 fullShare (H) ∗ owns (c : Thread nD τ) arg7 fullShare (k0_pay4 x0 x1 s) ∗ owns (c : Thread nD τ) arg8 fullShare (k0_pay5 x0 x1 q) ∗ owns (c : Thread nD τ) arg9 fullShare (a) ∗ owns (c : Thread nD τ) arg10 fullShare (b)) -∗ K ⟨⟩))
      ⊢ wp frame (wpE (defs₀ (F := F)) Variants.none c none) E (cc0__residual_tiled_kernel i arg2 harg2 arg3 harg3 arg4 harg4 arg5 harg5 arg6 harg6 arg7 harg7 arg8 harg8 arg9 harg9 arg10 harg10) K := by
  simp only [cc0__residual_tiled_kernel_eq_skeleton]; unfold cc0__residual_tiled_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [HS0]
  · iexists _; isplitr; · ipureintro; exact harg6.read_unread _
    iexact HS0
  isplitl [HS1]
  · iexists _; isplitr; swap; · iexact HS1
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS2]
  · iexists _; isplitr; swap; · iexact HS2
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS3]
  · iexists _; isplitr; · ipureintro; exact harg9.read_unread _
    iexact HS3
  iexists _; isplitr; · ipureintro; exact harg10.read_unread _
  iexact HS4

set_option maxHeartbeats 1600000 in
/-- Point 7 (first tile of phase 1): the sums folded into the scale and shift rows, then the tile's product normalised with them. -/
theorem run_fold (c : Dev nD) (i : grid0.Coords) (arg2 : Memref sig .tc .vmem S1272x1024 .f32) (harg2 : arg2.IsWhole) (arg3 : Memref sig .tc .vmem S1024x1024 .f32) (harg3 : arg3.IsWhole) (arg4 : Memref sig .tc .vmem S2x1024 .f32) (harg4 : arg4.IsWhole) (arg5 : Memref sig .tc .vmem S1272x1024 .f32) (harg5 : arg5.IsWhole) (arg6 : Memref sig .tc .vmem S1x1272x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : condFold i) (hc3 : condNorm i)
    (x0 : Vec F S1272x1024 .f32) (x1 : Vec F S1024x1024 .f32) (x2 : Vec F S2x1024 .f32) (o : Vec F S1272x1024 .f32) (H : Vec F S1x1272x1024 .f32) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay10 x0 x1 (k0_pay8 s q x2) (k0_pay9 s q x2)) ∗ owns (c : Thread nD τ) arg6 fullShare (H) ∗ owns (c : Thread nD τ) arg7 fullShare (s) ∗ owns (c : Thread nD τ) arg8 fullShare (q) ∗ owns (c : Thread nD τ) arg9 fullShare (k0_pay8 s q x2) ∗ owns (c : Thread nD τ) arg10 fullShare (k0_pay9 s q x2)) -∗ K ⟨⟩))
      ⊢ wp frame (wpE (defs₀ (F := F)) Variants.none c none) E (cc0__residual_tiled_kernel i arg2 harg2 arg3 harg3 arg4 harg4 arg5 harg5 arg6 harg6 arg7 harg7 arg8 harg8 arg9 harg9 arg10 harg10) K := by
  simp only [cc0__residual_tiled_kernel_eq_skeleton]; unfold cc0__residual_tiled_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; swap; · iexact HS3
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  iexists _; isplitr; swap; · iexact HS4
  ipureintro
  sl_unfold_words
  rw [read_store_last _ hz2]
  try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
  try rfl

set_option maxHeartbeats 1600000 in
/-- A later tile of phase 1: the tile's product normalised with the scale and shift rows. -/
theorem run_norm (c : Dev nD) (i : grid0.Coords) (arg2 : Memref sig .tc .vmem S1272x1024 .f32) (harg2 : arg2.IsWhole) (arg3 : Memref sig .tc .vmem S1024x1024 .f32) (harg3 : arg3.IsWhole) (arg4 : Memref sig .tc .vmem S2x1024 .f32) (harg4 : arg4.IsWhole) (arg5 : Memref sig .tc .vmem S1272x1024 .f32) (harg5 : arg5.IsWhole) (arg6 : Memref sig .tc .vmem S1x1272x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (hc0 : ¬condInit i) (hc1 : ¬condAcc i) (hc2 : ¬condFold i) (hc3 : condNorm i)
    (x0 : Vec F S1272x1024 .f32) (x1 : Vec F S1024x1024 .f32) (x2 : Vec F S2x1024 .f32) (o : Vec F S1272x1024 .f32) (H : Vec F S1x1272x1024 .f32) (s q a b : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o ∗ owns (c : Thread nD τ) arg6 fullShare H ∗ owns (c : Thread nD τ) arg7 fullShare s ∗ owns (c : Thread nD τ) arg8 fullShare q ∗ owns (c : Thread nD τ) arg9 fullShare a ∗ owns (c : Thread nD τ) arg10 fullShare b
        ∗ (iprop(owns (c : Thread nD τ) arg2 fullShare x0 ∗ owns (c : Thread nD τ) arg3 fullShare x1 ∗ owns (c : Thread nD τ) arg4 fullShare x2 ∗ owns (c : Thread nD τ) arg5 fullShare (k0_pay10 x0 x1 a b) ∗ owns (c : Thread nD τ) arg6 fullShare (H) ∗ owns (c : Thread nD τ) arg7 fullShare (s) ∗ owns (c : Thread nD τ) arg8 fullShare (q) ∗ owns (c : Thread nD τ) arg9 fullShare (a) ∗ owns (c : Thread nD τ) arg10 fullShare (b)) -∗ K ⟨⟩))
      ⊢ wp frame (wpE (defs₀ (F := F)) Variants.none c none) E (cc0__residual_tiled_kernel i arg2 harg2 arg3 harg3 arg4 harg4 arg5 harg5 arg6 harg6 arg7 harg7 arg8 harg8 arg9 harg9 arg10 harg10) K := by
  simp only [cc0__residual_tiled_kernel_eq_skeleton]; unfold cc0__residual_tiled_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, ⟨%fs3, %hfs3, HS3⟩, ⟨%fs4, %hfs4, HS4⟩, Hk⟩
  obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2; obtain rfl := harg9.eq_unread hfs3; obtain rfl := harg10.eq_unread hfs4
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    sl_unfold_words
    rw [read_store_last _ hz2]
    try simp only [View.readAt_eq_ld, harg2.read_unread, harg3.read_unread, harg4.read_unread, harg5.read_unread, harg6.read_unread, harg7.read_unread, harg8.read_unread, harg9.read_unread, harg10.read_unread, View.ld_unit_zero (S := S1272x1024) hz2, View.ld_unit_zero (S := S1024x1024) hz2, View.ld_unit_zero (S := S2x1024) hz2, View.ld_unit_zero (S := S1x1024) hz2, View.readCov_unit_zero (S := S1x1024) _ hz2]
    try rfl
  isplitl [HS0]
  · iexists _; isplitr; · ipureintro; exact harg6.read_unread _
    iexact HS0
  isplitl [HS1]
  · iexists _; isplitr; · ipureintro; exact harg7.read_unread _
    iexact HS1
  isplitl [HS2]
  · iexists _; isplitr; · ipureintro; exact harg8.read_unread _
    iexact HS2
  isplitl [HS3]
  · iexists _; isplitr; · ipureintro; exact harg9.read_unread _
    iexact HS3
  iexists _; isplitr; · ipureintro; exact harg10.read_unread _
  iexact HS4

end Cert.ReferenceIdeal.Body

end
-- ==== Proof.RfFrame.lean ====
/- The frame of the tiled reference program, its outputs named: the pipeline's proof data (each input window's staging
   buffer at its block, the output's at the block the point computes, `outAt`), the invariant the body keeps between
   points (the running sums at their values; after the fold, the scale and shift rows at theirs), the body's triple at
   every point, and the run of @main: the padding before the region, the region, the slice and the concatenation after. -/
import proofs.«179081_g2000002827875986_pallasbulk_127_1_alg».proof.Proof.RfRuns

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region's invariant before point n: the class's before the first point (every scratch at anything); after
    point n - 1 the sums at their running values, and from the fold (point 7) on the scale and shift rows at theirs. -/
def PhiS (c : Dev nD) : ℕ → sProp 𝕄
  | 0 => Pipeline.ΦA spec0 c
  | n + 1 => iprop(iprop(∃ H a b, ⌜7 ≤ n → a = scaleV m c ∧ b = shiftV m c⌝ ∗ owns (c : Thread nD τ) scH fullShare H ∗ owns (c : Thread nD τ) scS fullShare (sumAt m c (min n 6)) ∗ owns (c : Thread nD τ) scQ fullShare (sqAt m c (min n 6)) ∗ owns (c : Thread nD τ) scA fullShare a ∗ owns (c : Thread nD τ) scB fullShare b) ∗ (∃ r, prngReg c r))

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_out (c : Dev nD) (t : Fin cfg0.N) : (dats m 0 c).after 3 t = outAt m c t := by dsimp only [dats]

/-! ## The inputs' staging buffers hold their blocks at every point -/

theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d
theorem before_g (c : Dev nD) (t : Fin cfg0.N) (d) : (dats m 0 c).before 2 t d = iblk m c 2 t :=
  before0_2_of m (dats m 0 c) (A_eq m c 2) (after_g m c) t d

/-! ## What the body leaves in each window's buffer -/

theorem leaves_x (c : Dev nD) (t : Fin cfg0.N) :
    (dats m 0 c).leavesExact 0 t = owns (c : Thread nD τ) (msX t) fullShare (iblk m c 0 t) := by
  unfold Dat.leavesExact
  rw [show cfg0.idle 0 (cfg0.grid.coords t) = false from (liveIn t).1, after_x]
theorem leaves_w (c : Dev nD) (t : Fin cfg0.N) :
    (dats m 0 c).leavesExact 1 t = owns (c : Thread nD τ) (msW t) fullShare (iblk m c 1 t) := by
  unfold Dat.leavesExact
  rw [show cfg0.idle 1 (cfg0.grid.coords t) = false from (liveIn t).2.1, after_w]
theorem leaves_g (c : Dev nD) (t : Fin cfg0.N) :
    (dats m 0 c).leavesExact 2 t = owns (c : Thread nD τ) (msG t) fullShare (iblk m c 2 t) := by
  unfold Dat.leavesExact
  rw [show cfg0.idle 2 (cfg0.grid.coords t) = false from (liveIn t).2.2, after_g]
/-- In phase 0 the output window is idle and not written back: its buffer is left as found. -/
theorem leaves_out_idle (c : Dev nD) (t : Fin cfg0.N) (h : t.val < 7) :
    (dats m 0 c).leavesExact 3 t = iprop(∃ d, owns (c : Thread nD τ) (msO t) fullShare ((dats m 0 c).before 3 t d)) :=
  (dats m 0 c).leavesExact_idle 3 t ((idleOut t).trans (decide_eq_true h)) ((flushOut t).trans (decide_eq_false (by omega)))
/-- In phase 1 it is live: its buffer holds the normalised tile. -/
theorem leaves_out_live (c : Dev nD) (t : Fin cfg0.N) (h : 7 ≤ t.val) :
    (dats m 0 c).leavesExact 3 t = owns (c : Thread nD τ) (msO t) fullShare (outAt m c t) := by
  unfold Dat.leavesExact
  rw [show cfg0.idle 3 (cfg0.grid.coords t) = false from (idleOut t).trans (decide_eq_false (by omega)), after_out]

/-! ## The running values, point by point -/

theorem pt_of {t : Fin cfg0.N} {n : ℕ} (h : t.val = n) : pt n = t := h ▸ pt_val t

theorem sum_first (c : Dev nD) (t : Fin cfg0.N) (h : t.val = 0) :
    k0_pay4 (iblk m c 0 t) (iblk m c 1 t) k0_pay1 = sumAt m c (min 0 6) := by
  rw [show min 0 6 = 0 from rfl, sumAt, pt_of h]
theorem sq_first (c : Dev nD) (t : Fin cfg0.N) (h : t.val = 0) :
    k0_pay5 (iblk m c 0 t) (iblk m c 1 t) k0_pay2 = sqAt m c (min 0 6) := by
  rw [show min 0 6 = 0 from rfl, sqAt, pt_of h]
theorem sum_acc (c : Dev nD) (t : Fin cfg0.N) (n : ℕ) (h : t.val = n + 1) (h7 : n + 1 < 7) :
    k0_pay4 (iblk m c 0 t) (iblk m c 1 t) (sumAt m c (min n 6)) = sumAt m c (min (n + 1) 6) := by
  rw [show min n 6 = n by omega, show min (n + 1) 6 = n + 1 by omega, sumAt, pt_of h]
theorem sq_acc (c : Dev nD) (t : Fin cfg0.N) (n : ℕ) (h : t.val = n + 1) (h7 : n + 1 < 7) :
    k0_pay5 (iblk m c 0 t) (iblk m c 1 t) (sqAt m c (min n 6)) = sqAt m c (min (n + 1) 6) := by
  rw [show min n 6 = n by omega, show min (n + 1) 6 = n + 1 by omega, sqAt, pt_of h]
theorem scale_fold (c : Dev nD) (t : Fin cfg0.N) (h : t.val = 7) :
    k0_pay8 (sumAt m c (min 6 6)) (sqAt m c (min 6 6)) (iblk m c 2 t) = scaleV m c := by
  rw [show min 6 6 = 6 from rfl, scaleV, pt_of h]
theorem shift_fold (c : Dev nD) (t : Fin cfg0.N) (h : t.val = 7) :
    k0_pay9 (sumAt m c (min 6 6)) (sqAt m c (min 6 6)) (iblk m c 2 t) = shiftV m c := by
  rw [show min 6 6 = 6 from rfl, shiftV, pt_of h]
theorem out_norm (c : Dev nD) (t : Fin cfg0.N) :
    k0_pay10 (iblk m c 0 t) (iblk m c 1 t) (scaleV m c) (shiftV m c) = outAt m c t := by
  rw [outAt]

/-! ## The invariant, taken apart and put together -/

theorem PhiS_intro (c : Dev nD) (n : ℕ) (H : Vec F S1x1272x1024 .f32) (s q a b : Vec F S1x1024 .f32)
    (hab : 7 ≤ n → a = scaleV m c ∧ b = shiftV m c) (hs : s = sumAt m c (min n 6)) (hq : q = sqAt m c (min n 6)) :
    iprop(owns (c : Thread nD τ) scH fullShare H ∗ owns (c : Thread nD τ) scS fullShare s ∗ owns (c : Thread nD τ) scQ fullShare q
      ∗ owns (c : Thread nD τ) scA fullShare a ∗ owns (c : Thread nD τ) scB fullShare b ∗ (∃ r, prngReg c r)) ⊢ PhiS m c (n + 1) := by
  subst hs hq
  unfold PhiS
  iintro ⟨H0, H1, H2, H3, H4, Hg⟩
  isplitr [Hg]
  · iexists H, a, b
    isplitr
    · ipureintro; exact hab
    isplitl [H0]; · iexact H0
    isplitl [H1]; · iexact H1
    isplitl [H2]; · iexact H2
    isplitl [H3]; · iexact H3
    iexact H4
  · iexact Hg

/-! ## The body's triple at a point -/

/-- What the body is handed at point t. -/
def bodyPre (c : Dev nD) (t : Fin cfg0.N) : sProp 𝕄 :=
  iprop((dats m 0 c).Φ t.castSucc ∗ (dats m 0 c).owesAt () t.castSucc
    ∗ (∃ d, owns (c : Thread nD τ) (msX t) fullShare ((dats m 0 c).before 0 t d))
    ∗ (∃ d, owns (c : Thread nD τ) (msW t) fullShare ((dats m 0 c).before 1 t d))
    ∗ (∃ d, owns (c : Thread nD τ) (msG t) fullShare ((dats m 0 c).before 2 t d))
    ∗ (∃ d, owns (c : Thread nD τ) (msO t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem Phi_succ (c : Dev nD) (t : Fin cfg0.N) : (dats m 0 c).Φ t.succ = PhiS m c (t.val + 1) := rfl
theorem Phi_castSucc (c : Dev nD) (t : Fin cfg0.N) : (dats m 0 c).Φ t.castSucc = PhiS m c t.val := rfl

/-- Point 0: the scratch rows are found at anything; the sums are reset and the first tile's added. -/
theorem sound_first (c : Dev nD) (t : Fin cfg0.N) (h0 : t.val = 0) :
    bodyPre m c t ⊢ wp frame (wpE (defs₀ (F := F)) Variants.none c none) Set.univ (bodyAt0 t) (fun _ => bodyPost m c t) := by
  have hc0 : condInit (grid0.coords t) := (hcondInit t).mpr h0
  have hc1 : condAcc (grid0.coords t) := (hcondAcc t).mpr (by omega)
  have hc2 : ¬condFold (grid0.coords t) := fun h => by have := (hcondFold t).mp h; omega
  have hc3 : ¬condNorm (grid0.coords t) := fun h => by have := (hcondNorm t).mp h; omega
  unfold bodyPre bodyPost bodyAt0
  simp only [before_x, before_w, before_g]
  rw [show (dats m 0 c).owesAt () t.succ = (dats m 0 c).owesAt () t.castSucc from rfl]
  rw [Phi_succ, Phi_castSucc, leaves_x, leaves_w, leaves_g, leaves_out_idle m c t (by omega)]
  rw [show PhiS m c t.val = Pipeline.ΦA spec0 c by rw [h0]; rfl, PhiA_eq]
  iintro ⟨⟨⟨⟨%H, HS0⟩, ⟨%s, HS1⟩, ⟨%q, HS2⟩, ⟨%a, HS3⟩, ⟨%b, HS4⟩⟩, Hg⟩, Ho, ⟨%d0, H0⟩, ⟨%d1, H1⟩, ⟨%d2, H2⟩, ⟨%d3, H3⟩⟩
  iapply (run_first c (grid0.coords t) (msX t) (hsX t) (msW t) (hsW t) (msG t) (hsG t) (msO t) (hsO t) scH (Memref.isWhole_whole _) scS (Memref.isWhole_whole _) scQ (Memref.isWhole_whole _) scA (Memref.isWhole_whole _) scB (Memref.isWhole_whole _) hc0 hc1 hc2 hc3 (iblk m c 0 t) (iblk m c 1 t) (iblk m c 2 t) ((dats m 0 c).before 3 t d3) H s q a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · iapply (PhiS_intro m c t.val H (k0_pay4 (iblk m c 0 t) (iblk m c 1 t) k0_pay1) (k0_pay5 (iblk m c 0 t) (iblk m c 1 t) k0_pay2) a b (fun h => by omega) (by rw [h0]; exact sum_first m c t h0) (by rw [h0]; exact sq_first m c t h0))
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  iexists d3; iexact H3

theorem PhiS_succ_eq (c : Dev nD) (n : ℕ) : PhiS m c (n + 1) = iprop(iprop(∃ H a b, ⌜7 ≤ n → a = scaleV m c ∧ b = shiftV m c⌝ ∗ owns (c : Thread nD τ) scH fullShare H ∗ owns (c : Thread nD τ) scS fullShare (sumAt m c (min n 6)) ∗ owns (c : Thread nD τ) scQ fullShare (sqAt m c (min n 6)) ∗ owns (c : Thread nD τ) scA fullShare a ∗ owns (c : Thread nD τ) scB fullShare b) ∗ (∃ r, prngReg c r)) := rfl

/-- A later point of phase 0: the tile's column sums are added to the running rows. -/
theorem sound_acc (c : Dev nD) (t : Fin cfg0.N) (n : ℕ) (hn : t.val = n + 1) (h7 : n + 1 < 7) :
    bodyPre m c t ⊢ wp frame (wpE (defs₀ (F := F)) Variants.none c none) Set.univ (bodyAt0 t) (fun _ => bodyPost m c t) := by
  have hc0 : ¬condInit (grid0.coords t) := fun h => by have := (hcondInit t).mp h; omega
  have hc1 : condAcc (grid0.coords t) := (hcondAcc t).mpr (by omega)
  have hc2 : ¬condFold (grid0.coords t) := fun h => by have := (hcondFold t).mp h; omega
  have hc3 : ¬condNorm (grid0.coords t) := fun h => by have := (hcondNorm t).mp h; omega
  unfold bodyPre bodyPost bodyAt0
  simp only [before_x, before_w, before_g]
  rw [show (dats m 0 c).owesAt () t.succ = (dats m 0 c).owesAt () t.castSucc from rfl]
  rw [Phi_succ, Phi_castSucc, leaves_x, leaves_w, leaves_g, leaves_out_idle m c t (by omega)]
  rw [show PhiS m c t.val = PhiS m c (n + 1) by rw [hn], PhiS_succ_eq]
  iintro ⟨⟨⟨%H, %a, %b, %hab, HS0, HS1, HS2, HS3, HS4⟩, Hg⟩, Ho, ⟨%d0, H0⟩, ⟨%d1, H1⟩, ⟨%d2, H2⟩, ⟨%d3, H3⟩⟩
  iapply (run_acc c (grid0.coords t) (msX t) (hsX t) (msW t) (hsW t) (msG t) (hsG t) (msO t) (hsO t) scH (Memref.isWhole_whole _) scS (Memref.isWhole_whole _) scQ (Memref.isWhole_whole _) scA (Memref.isWhole_whole _) scB (Memref.isWhole_whole _) hc0 hc1 hc2 hc3 (iblk m c 0 t) (iblk m c 1 t) (iblk m c 2 t) ((dats m 0 c).before 3 t d3) H (sumAt m c (min n 6)) (sqAt m c (min n 6)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · iapply (PhiS_intro m c t.val H (k0_pay4 (iblk m c 0 t) (iblk m c 1 t) (sumAt m c (min n 6))) (k0_pay5 (iblk m c 0 t) (iblk m c 1 t) (sqAt m c (min n 6))) a b (fun h => by omega) (by rw [hn]; exact sum_acc m c t n hn h7) (by rw [hn]; exact sq_acc m c t n hn h7))
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  iexists d3; iexact H3

/-- Point 7: the finished sums are folded into the scale and shift rows, and the tile normalised with them. -/
theorem sound_fold (c : Dev nD) (t : Fin cfg0.N) (h : t.val = 7) :
    bodyPre m c t ⊢ wp frame (wpE (defs₀ (F := F)) Variants.none c none) Set.univ (bodyAt0 t) (fun _ => bodyPost m c t) := by
  have hc0 : ¬condInit (grid0.coords t) := fun h => by have := (hcondInit t).mp h; omega
  have hc1 : ¬condAcc (grid0.coords t) := fun h => by have := (hcondAcc t).mp h; omega
  have hc2 : condFold (grid0.coords t) := (hcondFold t).mpr h
  have hc3 : condNorm (grid0.coords t) := (hcondNorm t).mpr (by omega)
  unfold bodyPre bodyPost bodyAt0
  simp only [before_x, before_w, before_g]
  rw [show (dats m 0 c).owesAt () t.succ = (dats m 0 c).owesAt () t.castSucc from rfl]
  rw [Phi_succ, Phi_castSucc, leaves_x, leaves_w, leaves_g, leaves_out_live m c t (by omega)]
  rw [show PhiS m c t.val = PhiS m c (6 + 1) by rw [h], PhiS_succ_eq]
  iintro ⟨⟨⟨%H, %a, %b, %hab, HS0, HS1, HS2, HS3, HS4⟩, Hg⟩, Ho, ⟨%d0, H0⟩, ⟨%d1, H1⟩, ⟨%d2, H2⟩, ⟨%d3, H3⟩⟩
  iapply (run_fold c (grid0.coords t) (msX t) (hsX t) (msW t) (hsW t) (msG t) (hsG t) (msO t) (hsO t) scH (Memref.isWhole_whole _) scS (Memref.isWhole_whole _) scQ (Memref.isWhole_whole _) scA (Memref.isWhole_whole _) scB (Memref.isWhole_whole _) hc0 hc1 hc2 hc3 (iblk m c 0 t) (iblk m c 1 t) (iblk m c 2 t) ((dats m 0 c).before 3 t d3) H (sumAt m c (min 6 6)) (sqAt m c (min 6 6)) a b Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · iapply (PhiS_intro m c t.val H (sumAt m c (min 6 6)) (sqAt m c (min 6 6)) (k0_pay8 (sumAt m c (min 6 6)) (sqAt m c (min 6 6)) (iblk m c 2 t)) (k0_pay9 (sumAt m c (min 6 6)) (sqAt m c (min 6 6)) (iblk m c 2 t)) (fun _ => ⟨scale_fold m c t h, shift_fold m c t h⟩) (by rw [h]; rfl) (by rw [h]; rfl))
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  rw [scale_fold m c t h, shift_fold m c t h, out_norm]; iexact H3

/-- A later point of phase 1: the tile normalised with the scale and shift rows the fold left. -/
theorem sound_norm (c : Dev nD) (t : Fin cfg0.N) (n : ℕ) (hn : t.val = n + 1) (h7 : 7 ≤ n) :
    bodyPre m c t ⊢ wp frame (wpE (defs₀ (F := F)) Variants.none c none) Set.univ (bodyAt0 t) (fun _ => bodyPost m c t) := by
  have hc0 : ¬condInit (grid0.coords t) := fun h => by have := (hcondInit t).mp h; omega
  have hc1 : ¬condAcc (grid0.coords t) := fun h => by have := (hcondAcc t).mp h; omega
  have hc2 : ¬condFold (grid0.coords t) := fun h => by have := (hcondFold t).mp h; omega
  have hc3 : condNorm (grid0.coords t) := (hcondNorm t).mpr (by omega)
  unfold bodyPre bodyPost bodyAt0
  simp only [before_x, before_w, before_g]
  rw [show (dats m 0 c).owesAt () t.succ = (dats m 0 c).owesAt () t.castSucc from rfl]
  rw [Phi_succ, Phi_castSucc, leaves_x, leaves_w, leaves_g, leaves_out_live m c t (by omega)]
  rw [show PhiS m c t.val = PhiS m c (n + 1) by rw [hn], PhiS_succ_eq]
  iintro ⟨⟨⟨%H, %a, %b, %hab, HS0, HS1, HS2, HS3, HS4⟩, Hg⟩, Ho, ⟨%d0, H0⟩, ⟨%d1, H1⟩, ⟨%d2, H2⟩, ⟨%d3, H3⟩⟩
  obtain ⟨rfl, rfl⟩ := hab h7
  iapply (run_norm c (grid0.coords t) (msX t) (hsX t) (msW t) (hsW t) (msG t) (hsG t) (msO t) (hsO t) scH (Memref.isWhole_whole _) scS (Memref.isWhole_whole _) scQ (Memref.isWhole_whole _) scA (Memref.isWhole_whole _) scB (Memref.isWhole_whole _) hc0 hc1 hc2 hc3 (iblk m c 0 t) (iblk m c 1 t) (iblk m c 2 t) ((dats m 0 c).before 3 t d3) H (sumAt m c (min n 6)) (sqAt m c (min n 6)) (scaleV m c) (shiftV m c) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  iintro ⟨H0, H1, H2, H3, HS0, HS1, HS2, HS3, HS4⟩
  isplitl [HS0 HS1 HS2 HS3 HS4 Hg]
  · iapply (PhiS_intro m c t.val H (sumAt m c (min n 6)) (sqAt m c (min n 6)) (scaleV m c) (shiftV m c) (fun _ => ⟨rfl, rfl⟩) (by rw [hn, show min n 6 = min (n + 1) 6 by omega]) (by rw [hn, show min n 6 = min (n + 1) 6 by omega]))
    isplitl [HS0]; · iexact HS0
    isplitl [HS1]; · iexact HS1
    isplitl [HS2]; · iexact HS2
    isplitl [HS3]; · iexact HS3
    isplitl [HS4]; · iexact HS4
    iexact Hg
  isplitl [Ho]; · iexact Ho
  isplitl [H0]; · iexact H0
  isplitl [H1]; · iexact H1
  isplitl [H2]; · iexact H2
  rw [out_norm]; iexact H3

theorem sound_body (c : Dev nD) (t : Fin cfg0.N) :
    bodyPre m c t ⊢ wp frame (wpE (defs₀ (F := F)) Variants.none c none) Set.univ (bodyAt0 t) (fun _ => bodyPost m c t) := by
  have hN : t.val < 14 := lt_of_lt_of_eq t.isLt N_0
  by_cases h0 : t.val = 0
  · exact sound_first m c t h0
  obtain ⟨n, hn⟩ : ∃ n, t.val = n + 1 := ⟨t.val - 1, by omega⟩
  by_cases h7 : n + 1 < 7
  · exact sound_acc m c t n hn h7
  by_cases h8 : n = 6
  · exact sound_fold m c t (by omega)
  · exact sound_norm m c t n hn (by omega)

/-! ## The obligation, the invariant at the ends, and the run -/

theorem body_obligation (c : Dev nD) : BodyObligation (dats (F := F) m 0 c) (defs₀ (F := F)) Variants.none () Set.univ := fun t => by
  rw [bigSep_W0, bigSep_W0]; exact sound_body m c t

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (13 + 1) from rfl, PhiS_succ_eq, PhiA_eq]
  iintro ⟨⟨%H, %a, %b, %hab, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  · iexact Hg

/-- Every weakly fair execution of @main terminates with every array of the pipeline at what the proof data computes
    (the output: each block at the phase-1 point's `outAt`) and every other unscoped buffer at what the host lines
    after the region leave of the region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Body

end
-- ==== Proof.RfValueBlock.lean ====
/- The tiled reference kernel's terms at the ideal instance, read at one element. The batch is padded with 712 zero
   rows to 8904 = 7 x 1272; a padded row's product with w is zero (0 · y = 0 for every extended real y), so the running
   sums after the last tile are the column sums over the 8192 true rows, the folded rows are the specification's scale
   and shift, and the block phase-1 point 7 + n leaves is the specification's normalised ramp at rows 1272 n .. where
   the row is a true one. -/
import proofs.«179081_g2000002827875986_pallasbulk_127_1_alg».proof.Proof.RfFrame
import proofs.«179081_g2000002827875986_pallasbulk_127_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run
import Idealize.ShloMosaic.PureOps.Ideal.Laws

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx
open scoped BigOperators

local notation "𝕄" => MT nD τ sig Unit (Elt Ideal) ℕ (UR sig nD τ) ℕ

/-! ## The body's terms at an element, over any operand blocks -/

/-- The product's left operand index on the row axis is the result's row. -/
theorem lhs_row (j : S1272x1024.Idx) (k : dot_S1272x1024_S1024x1024_S1272x1024_1_0_0_1_n_n.contr.Idx) :
    (dot_S1272x1024_S1024x1024_S1272x1024_1_0_0_1_n_n.lhsIdx j k 0).val = (j 0).val := by
  unfold DotDims.lhsIdx
  rw [dif_neg (show ¬(0 : Fin S1272x1024.rank) ∈ dot_S1272x1024_S1024x1024_S1272x1024_1_0_0_1_n_n.lhsBatch by decide),
    dif_pos (show (0 : Fin S1272x1024.rank) ∈ dot_S1272x1024_S1024x1024_S1272x1024_1_0_0_1_n_n.lhsNonContracting by decide)]
  rfl

/-- On the contracted axis it is the contraction position's one coordinate. -/
theorem lhs_col (j : S1272x1024.Idx) (k : dot_S1272x1024_S1024x1024_S1272x1024_1_0_0_1_n_n.contr.Idx) :
    (dot_S1272x1024_S1024x1024_S1272x1024_1_0_0_1_n_n.lhsIdx j k 1).val = (k ⟨0, by decide⟩).val :=
  DotDims.lhsIdx_val_of_single _ (cl := (1 : Fin S1272x1024.rank)) rfl j k

/-- The right operand index on the contracted axis is the contraction position's one coordinate. -/
theorem rhs_row (j : S1272x1024.Idx) (k : dot_S1272x1024_S1024x1024_S1272x1024_1_0_0_1_n_n.contr.Idx) :
    (dot_S1272x1024_S1024x1024_S1272x1024_1_0_0_1_n_n.rhsIdx j k 0).val = (k ⟨0, by decide⟩).val :=
  DotDims.rhsIdx_val_of_single _ (cr := (0 : Fin S1024x1024.rank)) rfl j k

/-- On the column axis it is the result's column. -/
theorem rhs_col (j : S1272x1024.Idx) (k : dot_S1272x1024_S1024x1024_S1272x1024_1_0_0_1_n_n.contr.Idx) :
    (dot_S1272x1024_S1024x1024_S1272x1024_1_0_0_1_n_n.rhsIdx j k 1).val = (j 1).val := by
  unfold DotDims.rhsIdx
  rw [dif_neg (show ¬(1 : Fin S1024x1024.rank) ∈ dot_S1272x1024_S1024x1024_S1272x1024_1_0_0_1_n_n.rhsBatch by decide),
    dif_pos (show (1 : Fin S1024x1024.rank) ∈ dot_S1272x1024_S1024x1024_S1272x1024_1_0_0_1_n_n.rhsNonContracting by decide)]
  rfl

/-- The tile's product at row p, column o: row p of the tile against column o of the weight. -/
theorem pay3_apply (x0 : Vec Ideal S1272x1024 .f32) (x1 : Vec Ideal S1024x1024 .f32) (p : Fin 1272) (o : Fin 1024) :
    k0_pay3 x0 x1 (ix2 p o) = ∑ k : Fin 1024, x0 (ix2 p k) * x1 (ix2 k o) := by
  unfold k0_pay3
  rw [shapeCast_self]
  refine (Ideal.matmul_constant_zero_apply dot_S1272x1024_S1024x1024_S1272x1024_1_0_0_1_n_n none x0 x1 (ix2 p o)).trans ?_
  rw [← Equiv.sum_comp (contrEquiv1 dot_S1272x1024_S1024x1024_S1272x1024_1_0_0_1_n_n 1024 rfl rfl).symm]
  refine Finset.sum_congr rfl fun k _ => ?_
  have ck := contrEquiv1_symm_val dot_S1272x1024_S1024x1024_S1272x1024_1_0_0_1_n_n 1024 rfl rfl k
  have hl : dot_S1272x1024_S1024x1024_S1272x1024_1_0_0_1_n_n.lhsIdx (ix2 p o)
      ((contrEquiv1 dot_S1272x1024_S1024x1024_S1272x1024_1_0_0_1_n_n 1024 rfl rfl).symm k) = ix2 p k := by
    funext a; apply Fin.ext
    match a with
    | ⟨0, _⟩ => exact lhs_row _ _
    | ⟨1, _⟩ => exact (lhs_col _ _).trans ck
  have hr : dot_S1272x1024_S1024x1024_S1272x1024_1_0_0_1_n_n.rhsIdx (ix2 p o)
      ((contrEquiv1 dot_S1272x1024_S1024x1024_S1272x1024_1_0_0_1_n_n 1024 rfl rfl).symm k) = ix2 k o := by
    funext a; apply Fin.ext
    match a with
    | ⟨0, _⟩ => exact (rhs_row _ _).trans ck
    | ⟨1, _⟩ => exact rhs_col _ _
  rw [hl, hr]

/-- The reset rows are zero. -/
theorem pay1_apply (u : Fin 1) (o : Fin 1024) : (k0_pay1 (F := Ideal)) (ix2 u o) = 0 := by
  unfold k0_pay1
  rw [shapeCast_self]
  exact Ideal.ofBits_zero_f32
theorem pay2_apply (u : Fin 1) (o : Fin 1024) : (k0_pay2 (F := Ideal)) (ix2 u o) = 0 := by
  unfold k0_pay2
  rw [shapeCast_self]
  exact Ideal.ofBits_zero_f32

/-- The index a column's reduction over the tile's rows inserts is (row, column). -/
theorem lift_rows (o : Fin 1024) (p : Fin 1272) :
    reduces_S1272x1024_S1024.lift (ix1 o) p = ix2 p o := by
  funext a; apply Fin.ext
  match a with
  | ⟨0, _⟩ => rfl
  | ⟨1, _⟩ => rfl

/-- One accumulation step of the column sums: the running row plus the tile's column sums. -/
theorem pay4_apply (x0 : Vec Ideal S1272x1024 .f32) (x1 : Vec Ideal S1024x1024 .f32) (s : Vec Ideal S1x1024 .f32)
    (u : Fin 1) (o : Fin 1024) :
    k0_pay4 x0 x1 s (ix2 u o) = s (ix2 u o) + ∑ p : Fin 1272, k0_pay3 x0 x1 (ix2 p o) := by
  unfold k0_pay4
  rw [shapeCast_self, addf_apply, shapeCast_a_1a_apply]
  refine congrArg (s (ix2 u o) + ·) ?_
  refine (Ideal.multiReduction_add_single (k0_pay3 x0 x1) 0x00000000#32 reduces_S1272x1024_S1024 (.inl rfl) rfl (ix1 o)).trans ?_
  exact Finset.sum_congr rfl fun p _ => congrArg (k0_pay3 x0 x1) (lift_rows o p)

/-- One accumulation step of the column sums of squares. -/
theorem pay5_apply (x0 : Vec Ideal S1272x1024 .f32) (x1 : Vec Ideal S1024x1024 .f32) (s : Vec Ideal S1x1024 .f32)
    (u : Fin 1) (o : Fin 1024) :
    k0_pay5 x0 x1 s (ix2 u o)
      = s (ix2 u o) + ∑ p : Fin 1272, k0_pay3 x0 x1 (ix2 p o) * k0_pay3 x0 x1 (ix2 p o) := by
  unfold k0_pay5
  rw [shapeCast_self, addf_apply, shapeCast_a_1a_apply]
  refine congrArg (s (ix2 u o) + ·) ?_
  refine (Ideal.multiReduction_add_single (mulf (k0_pay3 x0 x1) (k0_pay3 x0 x1)) 0x00000000#32 reduces_S1272x1024_S1024 (.inl rfl) rfl (ix1 o)).trans ?_
  exact Finset.sum_congr rfl fun p _ => congrArg (mulf (k0_pay3 x0 x1) (k0_pay3 x0 x1)) (lift_rows o p)

/-- The mean row: the sums times 1/8192. -/
theorem pay6_apply (s : Vec Ideal S1x1024 .f32) (u : Fin 1) (o : Fin 1024) :
    k0_pay6 s (ix2 u o) = s (ix2 u o) * Cert.Spec.invN := rfl

/-- Rows 0 and 1 of gamma/beta. -/
theorem slice_row0 (g : Vec Ideal S2x1024 .f32) (u : Fin 1) (o : Fin 1024) :
    extractStridedSlice S1x1024 ![0, 0] g slices_S2x1024_o0_0_S1x1024 (ix2 u o) = g (ix2 (0 : Fin 2) o) := by
  refine extractStridedSlice_apply _ g _ (ix2 u o) (ix2 (0 : Fin 2) o) fun a => ?_
  match a with
  | ⟨0, _⟩ => show 0 = 0 + u.val; omega
  | ⟨1, _⟩ => show o.val = 0 + o.val; omega
theorem slice_row1 (g : Vec Ideal S2x1024 .f32) (u : Fin 1) (o : Fin 1024) :
    extractStridedSlice S1x1024 ![1, 0] g slices_S2x1024_o1_0_S1x1024 (ix2 u o) = g (ix2 (1 : Fin 2) o) := by
  refine extractStridedSlice_apply _ g _ (ix2 u o) (ix2 (1 : Fin 2) o) fun a => ?_
  match a with
  | ⟨0, _⟩ => show 1 = 1 + u.val; omega
  | ⟨1, _⟩ => show o.val = 0 + o.val; omega

/-- The scale row: gamma times the reciprocal root of the clamped variance plus eps. -/
theorem pay7_apply (s q : Vec Ideal S1x1024 .f32) (g : Vec Ideal S2x1024 .f32) (u : Fin 1) (o : Fin 1024) :
    k0_pay7 s q g (ix2 u o)
      = g (ix2 (0 : Fin 2) o) * Ideal.rsqrt (max (q (ix2 u o) * Cert.Spec.invN
          - s (ix2 u o) * Cert.Spec.invN * (s (ix2 u o) * Cert.Spec.invN)) Cert.Spec.zero + Cert.Spec.eps) := by
  unfold k0_pay7
  rw [mulf_apply, slice_row0]
  rfl

theorem pay8_apply (s q : Vec Ideal S1x1024 .f32) (g : Vec Ideal S2x1024 .f32) (u : Fin 1) (o : Fin 1024) :
    k0_pay8 s q g (ix2 u o) = k0_pay7 s q g (ix2 u o) := by
  unfold k0_pay8
  rw [shapeCast_self]

/-- The shift row: beta minus mean times scale. -/
theorem pay9_apply (s q : Vec Ideal S1x1024 .f32) (g : Vec Ideal S2x1024 .f32) (u : Fin 1) (o : Fin 1024) :
    k0_pay9 s q g (ix2 u o)
      = g (ix2 (1 : Fin 2) o) - s (ix2 u o) * Cert.Spec.invN * k0_pay7 s q g (ix2 u o) := by
  unfold k0_pay9
  rw [shapeCast_self, subf_apply, slice_row1, mulf_apply, pay6_apply]

/-- The normalised tile: the product times the scale row plus the shift row, clamped at zero. -/
theorem pay10_apply (x0 : Vec Ideal S1272x1024 .f32) (x1 : Vec Ideal S1024x1024 .f32) (a b : Vec Ideal S1x1024 .f32)
    (p : Fin 1272) (o : Fin 1024) :
    k0_pay10 x0 x1 a b (ix2 p o)
      = max (k0_pay3 x0 x1 (ix2 p o) * a (ix2 (0 : Fin 1) o) + b (ix2 (0 : Fin 1) o)) Cert.Spec.zero := by
  unfold k0_pay10
  rw [maximumf_apply, addf_apply, mulf_apply, broadcastTo_1b_ab_apply, broadcastTo_1b_ab_apply]
  rfl

/-! ## The operand blocks at an element, from the argument arrays -/

variable (m : (ℓ : Loc nD τ sig) → Buf (Elt Ideal) ℓ)

/-- The three argument arrays on core c, by coordinates. -/
abbrev argX (c : Dev nD) : Fin 8192 → Fin 1024 → EReal := Cert.Spec.ofArr (m ((c.tc : Thread nD τ).loc main_arg0))
abbrev argW (c : Dev nD) : Fin 1024 → Fin 1024 → EReal := Cert.Spec.ofArr (m ((c.tc : Thread nD τ).loc main_arg1))
abbrev argG (c : Dev nD) : Fin 2 → Fin 1024 → EReal := Cert.Spec.ofArr (m ((c.tc : Thread nD τ).loc main_arg2))

/-- The padded batch as the region finds it: the host's pad of the input with 712 rows of the converted zero. -/
theorem V_v0 (c : Dev nD) :
    (V m c main_v0 : S8904x1024.Idx → EReal)
      = pad S8904x1024 ![0, 0] ![712, 0] ![0, 0] (m ((c : Thread nD τ).loc main_arg0))
          (sitofp (F := Ideal) .f32 (constantI S_ 32 0#32)) pads_S8192x1024_S8904x1024_07120_000 h_S_ := by
  dsimp only [Gen.V, Gen.V0]
  simp only [Gen.hostOps0, Gen.hostOps0_1, List.flatten_cons, List.flatten_nil, List.append_nil, List.cons_append,
    List.nil_append]
  after_results
  rfl

/-- Row r of the padded batch, for every natural r: the input's row below 8192, zero from there on. -/
def rowX (c : Dev nD) (r : ℕ) (k : Fin 1024) : EReal := if h : r < 8192 then argX m c ⟨r, h⟩ k else 0

/-- The padded batch at row r, column k. -/
theorem V_v0_apply (c : Dev nD) (r : Fin 8904) (k : Fin 1024) :
    (V m c main_v0 : S8904x1024.Idx → EReal) (ix2 r k) = rowX m c r.val k := by
  rw [V_v0]
  unfold rowX
  by_cases h : r.val < 8192
  · rw [dif_pos h]
    refine pad_apply_of_inside _ _ _ _ _ _ _ (ix2 r k) (ix2 (⟨r.val, h⟩ : Fin 8192) k) fun a => ?_
    match a with
    | ⟨0, _⟩ => show r.val = 0 + r.val * (0 + 1); omega
    | ⟨1, _⟩ => show k.val = 0 + k.val * (0 + 1); omega
  · rw [dif_neg h]
    refine (pad_apply_of_not_inside _ _ _ _ _ _ _ (ix2 r k) (0 : Fin 2) ?_).trans ?_
    · show ¬(0 ≤ r.val ∧ (r.val - 0) % (0 + 1) = 0 ∧ (r.val - 0) / (0 + 1) < 8192)
      omega
    · show ((((0#32 : BitVec 32).toInt : ℝ) : EReal)) = 0
      simp

/-- The grid point's tile of the padded batch is tile (t mod 7), -/
theorem idxX : ∀ t : Fin cfg0.N, win0_0.index t 0 = t.val % 7 ∧ win0_0.index t 1 = 0 :=
  (by decide +kernel : ∀ t : Fin grid0.N, win0_0.index t 0 = t.val % 7 ∧ win0_0.index t 1 = 0)
/-- and the weight's and gamma/beta's blocks are the whole arrays. -/
theorem idxW : ∀ t : Fin cfg0.N, win0_1.index t 0 = 0 ∧ win0_1.index t 1 = 0 :=
  (by decide +kernel : ∀ t : Fin grid0.N, win0_1.index t 0 = 0 ∧ win0_1.index t 1 = 0)
theorem idxG : ∀ t : Fin cfg0.N, win0_2.index t 0 = 0 ∧ win0_2.index t 1 = 0 :=
  (by decide +kernel : ∀ t : Fin grid0.N, win0_2.index t 0 = 0 ∧ win0_2.index t 1 = 0)

/-- The batch tile at a point, at row p and column k: row 1272 (t mod 7) + p of the padded batch. -/
theorem xblk_apply (c : Dev nD) (t : Fin cfg0.N) (p : Fin 1272) (k : Fin 1024) :
    xblk m c t (ix2 p k) = rowX m c (1272 * (t.val % 7) + p.val) k := by
  have hi := idxX t
  have hlt : 1272 * (t.val % 7) + p.val < 8904 := by omega
  refine Eq.trans ?_ (V_v0_apply m c ⟨1272 * (t.val % 7) + p.val, hlt⟩ k)
  unfold xblk iblk
  rw [View.read_apply]
  show V m c main_v0 _ = V m c main_v0 _
  congr 1
  funext a
  apply Fin.ext
  match a with
  | ⟨0, _⟩ => show win0_0.index t 0 * 1272 + 1 * p.val = 1272 * (t.val % 7) + p.val; rw [hi.1]; omega
  | ⟨1, _⟩ => show win0_0.index t 1 * 1024 + 1 * k.val = k.val; rw [hi.2]; omega

/-- The weight block at a point is the weight. -/
theorem wblk_apply (c : Dev nD) (t : Fin cfg0.N) (k : Fin 1024) (o : Fin 1024) :
    wblk m c t (ix2 k o) = argW m c k o := by
  have hi := idxW t
  unfold wblk iblk
  rw [View.read_apply]
  show V m c main_arg1 _ = _
  rw [V_main_arg1]
  show m ((c.tc : Thread nD τ).loc main_arg1) _ = m ((c.tc : Thread nD τ).loc main_arg1) (ix2 k o)
  congr 1
  funext a
  apply Fin.ext
  match a with
  | ⟨0, _⟩ => show win0_1.index t 0 * 1024 + 1 * k.val = k.val; rw [hi.1]; omega
  | ⟨1, _⟩ => show win0_1.index t 1 * 1024 + 1 * o.val = o.val; rw [hi.2]; omega

/-- The gamma/beta block at a point is gamma/beta. -/
theorem gblk_apply (c : Dev nD) (t : Fin cfg0.N) (g : Fin 2) (o : Fin 1024) :
    gblk m c t (ix2 g o) = argG m c g o := by
  have hi := idxG t
  unfold gblk iblk
  rw [View.read_apply]
  show V m c main_arg2 _ = _
  rw [V_main_arg2]
  show m ((c.tc : Thread nD τ).loc main_arg2) _ = m ((c.tc : Thread nD τ).loc main_arg2) (ix2 g o)
  congr 1
  funext a
  apply Fin.ext
  match a with
  | ⟨0, _⟩ => show win0_2.index t 0 * 2 + 1 * g.val = g.val; rw [hi.1]; omega
  | ⟨1, _⟩ => show win0_2.index t 1 * 1024 + 1 * o.val = o.val; rw [hi.2]; omega

/-! ## The running sums, tile by tile -/

/-- Row r of the padded batch against column o of the weight, for every natural r. -/
def rowL (c : Dev nD) (r : ℕ) (o : Fin 1024) : EReal := ∑ k : Fin 1024, rowX m c r k * argW m c k o

/-- On a true row it is the linear layer, -/
theorem rowL_of_lt (c : Dev nD) (r : Fin 8192) (o : Fin 1024) :
    rowL m c r.val o = Cert.Spec.lin (argX m c) (argW m c) r o := by
  unfold rowL rowX Cert.Spec.lin
  refine Finset.sum_congr rfl fun k _ => ?_
  rw [dif_pos r.isLt]
/-- and on a padded row zero: every factor from the batch is zero, and 0 · y = 0 for every extended real y. -/
theorem rowL_of_ge (c : Dev nD) (r : ℕ) (h : 8192 ≤ r) (o : Fin 1024) : rowL m c r o = 0 := by
  unfold rowL rowX
  refine Finset.sum_eq_zero fun k _ => ?_
  rw [dif_neg (by omega), zero_mul]

/-- The tile's product at a point, at row p and column o: row 1272 (t mod 7) + p of the padded batch against w. -/
theorem tile_apply (c : Dev nD) (t : Fin cfg0.N) (p : Fin 1272) (o : Fin 1024) :
    k0_pay3 (xblk m c t) (wblk m c t) (ix2 p o) = rowL m c (1272 * (t.val % 7) + p.val) o := by
  refine (pay3_apply _ _ p o).trans ?_
  unfold rowL
  refine Finset.sum_congr rfl fun k _ => ?_
  rw [xblk_apply, wblk_apply]

/-- Tile n is rows 1272 n .. 1272 n + 1271. -/
theorem pt_mod (n : ℕ) (hn : n < 7) : (pt n).val % 7 = n := by
  show n % 14 % 7 = n
  omega

/-- The column sums of tile n, and of its squares, as sums over a range of rows. -/
theorem tile_sum (c : Dev nD) (n : ℕ) (hn : n < 7) (o : Fin 1024) :
    ∑ p : Fin 1272, k0_pay3 (xblk m c (pt n)) (wblk m c (pt n)) (ix2 p o)
      = ∑ x ∈ Finset.range 1272, rowL m c (1272 * n + x) o := by
  rw [← Fin.sum_univ_eq_sum_range (fun x => rowL m c (1272 * n + x) o) 1272]
  refine Finset.sum_congr rfl fun p _ => ?_
  rw [tile_apply, pt_mod n hn]
theorem tile_sq (c : Dev nD) (n : ℕ) (hn : n < 7) (o : Fin 1024) :
    ∑ p : Fin 1272, k0_pay3 (xblk m c (pt n)) (wblk m c (pt n)) (ix2 p o)
        * k0_pay3 (xblk m c (pt n)) (wblk m c (pt n)) (ix2 p o)
      = ∑ x ∈ Finset.range 1272, rowL m c (1272 * n + x) o * rowL m c (1272 * n + x) o := by
  rw [← Fin.sum_univ_eq_sum_range (fun x => rowL m c (1272 * n + x) o * rowL m c (1272 * n + x) o) 1272]
  refine Finset.sum_congr rfl fun p _ => ?_
  rw [tile_apply, pt_mod n hn]

/-- After tile n the running row holds the column sums over rows 0 .. 1272 (n + 1) - 1 of the padded batch. -/
theorem sumAt_apply (c : Dev nD) (u : Fin 1) (o : Fin 1024) :
    ∀ n : ℕ, n < 7 → sumAt m c n (ix2 u o) = ∑ r ∈ Finset.range (1272 * (n + 1)), rowL m c r o
  | 0, h => by
    show k0_pay4 (xblk m c (pt 0)) (wblk m c (pt 0)) (k0_pay1 (F := Ideal)) (ix2 u o) = _
    refine (pay4_apply _ _ _ u o).trans ?_
    rw [pay1_apply, zero_add, tile_sum m c 0 h o]
    exact Finset.sum_congr (congrArg Finset.range (by norm_num)) fun x _ => by rw [Nat.mul_zero, Nat.zero_add]
  | n + 1, h => by
    show k0_pay4 (xblk m c (pt (n + 1))) (wblk m c (pt (n + 1))) (sumAt m c n) (ix2 u o) = _
    refine (pay4_apply _ _ _ u o).trans ?_
    rw [sumAt_apply c u o n (by omega), tile_sum m c (n + 1) h o,
      show 1272 * (n + 1 + 1) = 1272 * (n + 1) + 1272 by ring, Finset.sum_range_add]

/-- The same for the squares. -/
theorem sqAt_apply (c : Dev nD) (u : Fin 1) (o : Fin 1024) :
    ∀ n : ℕ, n < 7 → sqAt m c n (ix2 u o) = ∑ r ∈ Finset.range (1272 * (n + 1)), rowL m c r o * rowL m c r o
  | 0, h => by
    show k0_pay5 (xblk m c (pt 0)) (wblk m c (pt 0)) (k0_pay2 (F := Ideal)) (ix2 u o) = _
    refine (pay5_apply _ _ _ u o).trans ?_
    rw [pay2_apply, zero_add, tile_sq m c 0 h o]
    exact Finset.sum_congr (congrArg Finset.range (by norm_num)) fun x _ => by rw [Nat.mul_zero, Nat.zero_add]
  | n + 1, h => by
    show k0_pay5 (xblk m c (pt (n + 1))) (wblk m c (pt (n + 1))) (sqAt m c n) (ix2 u o) = _
    refine (pay5_apply _ _ _ u o).trans ?_
    rw [sqAt_apply c u o n (by omega), tile_sq m c (n + 1) h o,
      show 1272 * (n + 1 + 1) = 1272 * (n + 1) + 1272 by ring, Finset.sum_range_add]

/-- The sum over all 8904 rows of the padded batch is the sum over the 8192 true rows: the tail is a sum of zeros. -/
theorem sum_rows (c : Dev nD) (o : Fin 1024) :
    ∑ r ∈ Finset.range 8904, rowL m c r o = Cert.Spec.colSum (argX m c) (argW m c) o := by
  rw [show (8904 : ℕ) = 8192 + 712 from rfl, Finset.sum_range_add,
    Finset.sum_eq_zero (s := Finset.range 712) (fun x _ => rowL_of_ge m c (8192 + x) (by omega) o), add_zero,
    ← Fin.sum_univ_eq_sum_range (fun r => rowL m c r o) 8192]
  unfold Cert.Spec.colSum
  exact Finset.sum_congr rfl fun r _ => rowL_of_lt m c r o
theorem sum_sq_rows (c : Dev nD) (o : Fin 1024) :
    ∑ r ∈ Finset.range 8904, rowL m c r o * rowL m c r o = Cert.Spec.colSq (argX m c) (argW m c) o := by
  rw [show (8904 : ℕ) = 8192 + 712 from rfl, Finset.sum_range_add,
    Finset.sum_eq_zero (s := Finset.range 712)
      (fun x _ => by rw [rowL_of_ge m c (8192 + x) (by omega) o, zero_mul]), add_zero,
    ← Fin.sum_univ_eq_sum_range (fun r => rowL m c r o * rowL m c r o) 8192]
  unfold Cert.Spec.colSq
  exact Finset.sum_congr rfl fun r _ => by rw [rowL_of_lt m c r o]

/-- The finished sums are the specification's column sums and column sums of squares. -/
theorem sumAt_last (c : Dev nD) (u : Fin 1) (o : Fin 1024) :
    sumAt m c 6 (ix2 u o) = Cert.Spec.colSum (argX m c) (argW m c) o :=
  (sumAt_apply m c u o 6 (by decide)).trans (sum_rows m c o)
theorem sqAt_last (c : Dev nD) (u : Fin 1) (o : Fin 1024) :
    sqAt m c 6 (ix2 u o) = Cert.Spec.colSq (argX m c) (argW m c) o :=
  (sqAt_apply m c u o 6 (by decide)).trans (sum_sq_rows m c o)

/-! ## The fold, and the block -/

/-- The folded rows are the specification's scale and shift. -/
theorem scaleV_apply (c : Dev nD) (u : Fin 1) (o : Fin 1024) :
    scaleV (F := Ideal) m c (ix2 u o) = Cert.Spec.scale (argX m c) (argW m c) (argG m c) o := by
  unfold scaleV
  rw [pay8_apply, pay7_apply, sumAt_last, sqAt_last, gblk_apply]
  rfl
theorem shiftV_apply (c : Dev nD) (u : Fin 1) (o : Fin 1024) :
    shiftV (F := Ideal) m c (ix2 u o) = Cert.Spec.shift (argX m c) (argW m c) (argG m c) o := by
  unfold shiftV
  rw [pay9_apply, pay7_apply, sumAt_last, sqAt_last, gblk_apply, gblk_apply]
  rfl

/-- THE BLOCK AT AN ELEMENT. What the body leaves in the output's staging buffer at a phase-1 point t (7 ≤ t), at row p
    and column q of the block, when row 1272 (t - 7) + p is one of the 8192 true rows: the normalised ramp there. -/
theorem outAt_apply (c : Dev nD) (t : Fin cfg0.N) (ht : 7 ≤ t.val) (p : Fin 1272) (q : Fin 1024)
    (hr : 1272 * (t.val - 7) + p.val < 8192) :
    outAt (F := Ideal) m c t (ix2 p q)
      = Cert.Spec.bn (argX m c) (argW m c) (argG m c) ⟨1272 * (t.val - 7) + p.val, hr⟩ q := by
  have hN : t.val < 14 := lt_of_lt_of_eq t.isLt N_0
  have hmod : t.val % 7 = t.val - 7 := by omega
  unfold outAt
  rw [pay10_apply, tile_apply, scaleV_apply, shiftV_apply, hmod,
    rowL_of_lt m c ⟨1272 * (t.val - 7) + p.val, hr⟩ q]
  rfl

end Cert.ReferenceIdeal.Body

end
-- ==== Proof.RfValue.lean ====
/- The reference's result array: phase-1 point 7 + n writes back block n of the kernel's [8904, 1024] output (phase 0
   writes nothing back), the seven blocks tile it; the host then keeps rows 0 .. 8191 and appends the input's columns, so
   the result is the specification's, element by element. -/
import proofs.«179081_g2000002827875986_pallasbulk_127_1_alg».proof.Proof.RfValueBlock
import Idealize.ShloMosaic.Lib.StableHlo.Run

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- A phase-1 point writes back the row block whose number is the point's less seven. -/
private theorem idx_out : ∀ t : Fin cfg0.N, 7 ≤ t.val → win0_3.index t = ![t.val - 7, 0] :=
  (by decide +kernel : ∀ t : Fin grid0.N, 7 ≤ t.val → win0_3.index t = ![t.val - 7, 0])

/-- An index of the output array is in point t's block iff each coordinate is in the block's range on its axis. -/
private theorem mem_blk (t : Fin cfg0.N) (i : S8904x1024.Idx) :
    i ∈ ((cfg0.win 3).blk t).view.set ↔ ∀ a : Fin 2, win0_3.index t a * S1272x1024.size a ≤ (i a).val ∧ (i a).val < win0_3.index t a * S1272x1024.size a + S1272x1024.size a := by
  show i ∈ ((View.whole main_v1).slice (win0_3.rect t)).set ↔ _
  rw [View.set_slice_whole, Rect.mem_set_unit]
  exact Iff.rfl

/-- What a point writes back is the block its body left: the output window is never cut. -/
private theorem flushed_out (c : Dev nD) (t : Fin cfg0.N) : (dats (F := Ideal) m 0 c).flushed 3 t = outAt m c t := by
  show (cfg0.win 3).cut (grid0.coords t) ((dats (F := Ideal) m 0 c).after 3 t) = _
  rw [after_out]
  rfl

/-- The property every written-back element has: at a true row it is the normalised ramp. -/
private def TrueRow (c : Dev nD) (i : S8904x1024.Idx) (v : EReal) : Prop :=
  ∀ h : (i 0).val < 8192, v = Cert.Spec.bn (argX m c) (argW m c) (argG m c) ⟨(i 0).val, h⟩ (i 1)

/-- Every element a phase-1 point writes back has it: the block's row p sits at array row 1272 (t - 7) + p, its
    column at the same column. -/
private theorem flushed_trueRow (c : Dev nD) (t : Fin cfg0.N) (hf : (cfg0.win 3).flush t = true) (y : S1272x1024.Idx) :
    TrueRow m c (((cfg0.win 3).blk t).view.emb y) (_root_.cast (congrArg (Elt Ideal) ((cfg0.win 3).blk t).view.elt_eq.symm) ((dats (F := Ideal) m 0 c).flushed 3 t y)) := by
  have ht : 7 ≤ t.val := by have := flushOut t; rw [hf] at this; exact of_decide_eq_true this.symm
  intro h
  have hi := idx_out t ht
  have i0 : win0_3.index t (0 : Fin 2) = t.val - 7 := congrFun hi 0
  have i1 : win0_3.index t (1 : Fin 2) = 0 := congrFun hi 1
  have e0 : ((((cfg0.win 3).blk t).view.emb y) 0).val = 1272 * (t.val - 7) + (y 0).val := by
    show win0_3.index t (0 : Fin 2) * 1272 + 1 * (y 0).val = _
    rw [i0]; omega
  have e1 : ((((cfg0.win 3).blk t).view.emb y) 1).val = (y 1).val := by
    show win0_3.index t (1 : Fin 2) * 1024 + 1 * (y 1).val = _
    rw [i1]; omega
  have hr : 1272 * (t.val - 7) + (y 0).val < 8192 := by rw [← e0]; exact h
  rw [cast_eq, flushed_out]
  refine (congrArg (outAt m c t) (eq_ix2 y)).trans ((outAt_apply m c t ht (y 0) (y 1) hr).trans ?_)
  congr 1
  · exact Fin.ext e0.symm
  · exact Fin.ext e1.symm

/-- Row r, column q of the output array lies in the block of the phase-1 point t whose row range holds r. -/
private theorem mem_blk_of (t : Fin cfg0.N) (ht : 7 ≤ t.val) (r : Fin 8904) (q : Fin 1024)
    (hlo : 1272 * (t.val - 7) ≤ r.val) (hhi : r.val < 1272 * (t.val - 7) + 1272)
    (i : S8904x1024.Idx) (e : i = ix2 r q) : i ∈ ((cfg0.win 3).blk t).view.set := by
  rw [mem_blk]
  subst e
  have hi := idx_out t ht
  have i0 : win0_3.index t (0 : Fin 2) = t.val - 7 := congrFun hi 0
  have i1 : win0_3.index t (1 : Fin 2) = 0 := congrFun hi 1
  have hq : q.val < 1024 := q.isLt
  intro a
  match a with
  | ⟨0, _⟩ =>
    show win0_3.index t (0 : Fin 2) * 1272 ≤ r.val ∧ r.val < win0_3.index t (0 : Fin 2) * 1272 + 1272
    rw [i0]; omega
  | ⟨1, _⟩ =>
    show win0_3.index t (1 : Fin 2) * 1024 ≤ q.val ∧ q.val < win0_3.index t (1 : Fin 2) * 1024 + 1024
    rw [i1]; omega

/-- The kernel's output array after every write-back, at a true row r < 8192 and column q: the normalised ramp. Row r
    lies in the block of phase-1 point 7 + r / 1272, and every element any point writes back at a true row is the
    ramp there, so whichever point wrote (r, q) last left the ramp. -/
theorem final_apply (c : Dev nD) (r : Fin 8904) (hr : r.val < 8192) (q : Fin 1024) :
    (dats (F := Ideal) m 0 c).arrAt 3 cfg0.N (ix2 r q)
      = Cert.Spec.bn (argX m c) (argW m c) (argG m c) ⟨r.val, hr⟩ q := by
  obtain ⟨t, hv⟩ : ∃ t : Fin cfg0.N, t.val = 7 + r.val / 1272 :=
    ⟨pt (7 + r.val / 1272), by show (7 + r.val / 1272) % 14 = _; omega⟩
  have ht : 7 ≤ t.val := by omega
  have hf : (cfg0.win 3).flush t = true := by rw [flushOut]; exact decide_eq_true ht
  exact (dats (F := Ideal) m 0 c).arrAt_forall_of_flushed 3 (TrueRow m c) (fun t hf y => flushed_trueRow m c t hf y)
    cfg0.N t (ix2 r q) t.isLt hf (mem_blk_of t ht r q (by omega) (by omega) _ rfl) hr

/-- What the host lines after the region leave in the result buffer: the specification's result. The slice keeps the
    true rows of the kernel's output, where it is the normalised ramp; the concatenation appends the input's columns. -/
theorem result_eq (c : Dev nD) :
    Pipeline.afterTail₀ cfgs (dats (F := Ideal) m) 0 (V0 m) [hostOps1] c main_v3
      = Cert.Spec.G (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v3) = _
  after_results
  rw [show Pipeline.withArrays (cfgs 0).spec c (V0 m c) (fun w => (dats (F := Ideal) m 0 c).arrAt w (cfgs 0).N) (Proc.devRef .tc main_v1)
        = (dats (F := Ideal) m 0 c).arrAt 3 cfg0.N from Pipeline.withArrays_arr spec0 launch0.win.arr_inj c _ _ 3,
    Pipeline.withArrays_of_ne _ c (V0 m c) _ main_arg0 (by exact (by decide : ∀ w, Pipeline.arrRef spec0 w ≠ main_arg0)),
    show V0 m c (Proc.devRef .tc main_arg0) = m ((c.tc : Thread nD τ).loc main_arg0) from V_main_arg0 m c]
  funext j
  have hj0 : (j 0).val < 8192 := idx2_lt0 j
  have hj1 : (j 1).val < 2048 := idx2_lt1 j
  by_cases hj : (j 1).val < 1024
  · -- a column of the left half: the slice, which reads the kernel's output at the same true row
    refine (concatenate_pair_apply_left (s₁ := S8192x1024) (s₂ := S8192x1024) (1 : Fin 2) _ _ _ j rfl
      (ix2 (⟨(j 0).val, hj0⟩ : Fin 8192) (⟨(j 1).val, hj⟩ : Fin 1024))
      (fun b => match b with | ⟨0, _⟩ => rfl | ⟨1, _⟩ => rfl)).trans ?_
    refine (extractStridedSlice_apply (s := S8904x1024) (t := S8192x1024) ![0, 0] _ _
      (ix2 (⟨(j 0).val, hj0⟩ : Fin 8192) (⟨(j 1).val, hj⟩ : Fin 1024))
      (ix2 (⟨(j 0).val, by omega⟩ : Fin 8904) (⟨(j 1).val, hj⟩ : Fin 1024))
      (fun a => match a with
        | ⟨0, _⟩ => (Nat.zero_add _).symm
        | ⟨1, _⟩ => (Nat.zero_add _).symm)).trans ?_
    refine (final_apply m c ⟨(j 0).val, by omega⟩ hj0 ⟨(j 1).val, hj⟩).trans ?_
    unfold Cert.Spec.G Cert.Spec.out
    rw [dif_pos hj]
    rfl
  · -- a column of the right half: the input at the same row, the column 1024 less
    have hj' : 1024 ≤ (j 1).val := Nat.le_of_not_lt hj
    refine (concatenate_pair_apply_right (s₁ := S8192x1024) (s₂ := S8192x1024) (1 : Fin 2) _ _ _ j rfl rfl
      (ix2 (⟨(j 0).val, hj0⟩ : Fin 8192) (⟨(j 1).val - 1024, by omega⟩ : Fin 1024))
      (fun b => match b with | ⟨0, _⟩ => fun _ => rfl | ⟨1, _⟩ => fun h => absurd rfl h)
      (Nat.sub_add_cancel hj')).trans ?_
    unfold Cert.Spec.G Cert.Spec.out
    rw [dif_neg hj]
    rfl

/-- The idealized reference's run with its result named: every weakly fair execution of @main ends with the result
    array at the specification's function of the arguments, and the arguments unchanged. The result buffer is no
    window's array, so the run's post gives it as what the host lines after the region leave; the first argument
    likewise, and the other two are staged inputs, which end at their entry contents. -/
theorem value_run : θ_run defs (onTc (τ := τ) (main (F := Ideal))) ⟨m, fun _ => 0, ρ⟩ (fun r => ∀ c : Dev nD,
      r.2.mem ((c.tc : Thread nD τ).loc main_v3)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats (F := Ideal) m) c),
      ((h c).1 1).trans (((dats (F := Ideal) m 0 c).arrAt_in 1 rfl _).trans ((A_eq m c 1).trans (V_main_arg1 m c))),
      ((h c).1 2).trans (((dats (F := Ideal) m 0 c).arrAt_in 2 rfl _).trans ((A_eq m c 2).trans (V_main_arg2 m c)))⟩)
    (run_main (F := Ideal) m ρ)

end Cert.ReferenceIdeal.Body

end
-- ==== Proof.lean ====
/- The two programs — a Pallas kernel fusing a bias-free linear layer, training-mode batch normalisation, the ramp and the
   concatenation with its input into one two-phase grid of 2 x 16 points, and a tiled Pallas reference over the batch padded
   to 7 tiles of 1272 rows whose host slices and concatenates afterwards — compute ONE function of their arguments over
   the extended reals (Proof/Spec.lean): h = x · w, the column statistics Σ_r h and Σ_r h² over the 8192 rows (finite
   sums, which the two grids group differently: 16 tiles of 512 rows against 7 tiles of 1272 of which the last 712 rows
   are zero and contribute 0 · w = 0), scale = γ (max(Σh²/n - (Σh/n)², 0) + ε)^(-1/2), shift = β - (Σh/n) · scale,
   and max(h · scale + shift, 0) beside x. The kernel caches h (narrowed to bf16, the identity on extended reals) and reads
   it back in the second phase; the reference recomputes it. Each program's frame is its pipeline's run with the scratch
   rows tracked point by point (Proof/K?Frame.lean, Proof/RfFrame.lean); each idealized program's result is read off that
   run block by block (Proof/KiValue.lean, Proof/RfValue.lean). No rewrite was applied by the ideal pass, so the kernel's
   idealization is its own text read over the extended reals. -/
import proofs.«179081_g2000002827875986_pallasbulk_127_1_alg».proof.Defs
import proofs.«179081_g2000002827875986_pallasbulk_127_1_alg».proof.Proof.Gen.Kernel
import proofs.«179081_g2000002827875986_pallasbulk_127_1_alg».proof.Proof.Gen.KernelIdeal
import proofs.«179081_g2000002827875986_pallasbulk_127_1_alg».proof.Proof.Gen.ReferenceIdeal
import proofs.«179081_g2000002827875986_pallasbulk_127_1_alg».proof.Proof.Gen.Pre_finite_inputs
import proofs.«179081_g2000002827875986_pallasbulk_127_1_alg».proof.Proof.KbFrame
import proofs.«179081_g2000002827875986_pallasbulk_127_1_alg».proof.Proof.KiValue
import proofs.«179081_g2000002827875986_pallasbulk_127_1_alg».proof.Proof.RfValue

noncomputable section

namespace Cert.Proof

open Idealize.ShloMosaic Idealize.SL.Sem

/-- The word-level kernel runs and leaves its arguments as they were. -/
theorem frame_kernel : @Cert.frame_Kernel Cert.Kernel.Gen.facts Cert.Pre_finite_inputs.Gen.facts :=
  fun m ρ _ => Cert.Kernel.Body.frame m ρ

/-- So does the kernel read over the extended reals, -/
theorem frame_kernelIdeal : @Cert.frame_KernelIdeal Cert.KernelIdeal.Gen.facts Cert.Pre_finite_inputs.Gen.facts :=
  fun m ρ _ => Cert.KernelIdeal.Body.frame m ρ

/-- and the reference. -/
theorem frame_referenceIdeal : @Cert.frame_ReferenceIdeal Cert.ReferenceIdeal.Gen.facts Cert.Pre_finite_inputs.Gen.facts :=
  fun m ρ _ => Cert.ReferenceIdeal.Body.frame m ρ

/-- Both idealized programs end with the specification's function of the arguments in their result arrays; from
    memories that agree on the arguments that is one array. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Body.value_run m ρ, ?_⟩
  refine (θ_run Cert.ReferenceIdeal.defs _ _).mono (fun _ h c => ⟨(h c).1.trans ?_, (h c).2⟩)
    (Cert.ReferenceIdeal.Body.value_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
